-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_cst)) (v2 : (c : Dev Cert.KernelIdeal.nD) → Buf (Elt Ideal) ((c.tc : Thread Cert.KernelIdeal.nD Cert.KernelIdeal.τ).loc Cert.KernelIdeal.main_cst_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_cst) = v1 c
          ∧ r.2.mem ((c.tc : Thread Cert.KernelIdeal.nD Cert.KernelIdeal.τ).loc Cert.KernelIdeal.main_cst_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_cst) = v1 c
          ∧ r.2.mem ((c.tc : Thread Cert.ReferenceIdeal.nD Cert.ReferenceIdeal.τ).loc Cert.ReferenceIdeal.main_cst_0) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S512 : Shape := ⟨1, ![512]⟩
abbrev S100000x256 : Shape := ⟨2, ![100000, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S512x256 .f32) (main_arg1 : IVec S512 32) (main_arg2 : FVec F S100000x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S100000x256 .f32 := Host.absf main_arg2
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_c_2 : IVec S_ 32 := constantI S_ 32 0#32
  let main_v9 : IVec S512 32 := broadcastInDim S512 ![] bcast_S_S512 main_c_2
  let main_v10 : IVec S512 1 := cmpi .sge main_arg1 main_v9
  let main_c_3 : IVec S_ 1 := constantI S_ 1 1#1
  let main_v11 : IVec S_ 1 := (fun x v => Host.reduce IntOp.andi x v reducesTo_S512_S_d0 h_S_) main_v10 main_c_3
  let main_v12 : IVec S_ 1 := andi main_v8 main_v11
  let main_c_4 : IVec S_ 32 := constantI S_ 32 100000#32
  let main_v13 : IVec S512 32 := broadcastInDim S512 ![] bcast_S_S512 main_c_4
  let main_v14 : IVec S512 1 := cmpi .slt main_arg1 main_v13
  let main_c_5 : IVec S_ 1 := constantI S_ 1 1#1
  let main_v15 : IVec S_ 1 := (fun x v => Host.reduce IntOp.andi x v reducesTo_S512_S_d0 h_S_) main_v14 main_c_5
  fn_part1 (F := F) main_v12 main_v15
-- ==== Kernel.lean ====
abbrev S512x256 : Shape := ⟨2, ![512, 256]⟩
abbrev S512 : Shape := ⟨1, ![512]⟩
abbrev S100000x256 : Shape := ⟨2, ![100000, 256]⟩
abbrev S1 : Shape := ⟨1, ![1]⟩
abbrev S_ : Shape := ⟨0, ![]⟩
abbrev S512x1 : Shape := ⟨2, ![512, 1]⟩
abbrev S2x512x1 : Shape := ⟨3, ![2, 512, 1]⟩
abbrev S2000x256 : Shape := ⟨2, ![2000, 256]⟩
abbrev S1x512x1 : Shape := ⟨3, ![1, 512, 1]⟩
abbrev S2000 : Shape := ⟨1, ![2000]⟩
abbrev S2000x1 : Shape := ⟨2, ![2000, 1]⟩
abbrev S256x2000 : Shape := ⟨2, ![256, 2000]⟩
abbrev S512x2000 : Shape := ⟨2, ![512, 2000]⟩

abbrev nBuf : Space → Nat
  | .hbm => 48
  | .vmem => 13
  | .smem => 0
  | _ => 0

abbrev bufTy : (tb : Table) → Fin (tcTables nBuf tb) → BufTy
  | .hbm, ⟨0, _⟩ => ⟨S512x256, .f32⟩
  | .hbm, ⟨1, _⟩ => ⟨S512, .i32⟩
  | .hbm, ⟨2, _⟩ => ⟨S100000x256, .f32⟩
  | .hbm, ⟨3, _⟩ => ⟨S1, .f32⟩
  | .hbm, ⟨4, _⟩ => ⟨S1, .f32⟩
  | .hbm, ⟨5, _⟩ => ⟨S512x256, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x256, .f32⟩
  | .hbm, ⟨14, _⟩ => ⟨S512x256, .f32⟩
  | .hbm, ⟨15, _⟩ => ⟨S512x256, .bf16⟩
  | .hbm, ⟨16, _⟩ => ⟨S512x1, .i32⟩
  | .hbm, ⟨17, _⟩ => ⟨S2x512x1, .f32⟩
  | .hbm, ⟨18, _⟩ => ⟨S2x512x1, .f32⟩
  | .hbm, ⟨19, _⟩ => ⟨S2x512x1, .f32⟩
  | .hbm, ⟨20, _⟩ => ⟨S1x512x1, .f32⟩
  | .hbm, ⟨21, _⟩ => ⟨S512x1, .f32⟩
  | .hbm, ⟨22, _⟩ => ⟨S1x512x1, .f32⟩
  | .hbm, ⟨23, _⟩ => ⟨S512x1, .f32⟩
  | .hbm, ⟨24, _⟩ => ⟨S1x512x1, .f32⟩
  | .hbm, ⟨25, _⟩ => ⟨S512x1, .f32⟩
  | .hbm, ⟨26, _⟩ => ⟨S1x512x1, .f32⟩
  | .hbm, ⟨27, _⟩ => ⟨S512x1, .f32⟩
  | .hbm, ⟨28, _⟩ => ⟨S1x512x1, .f32⟩
  | .hbm, ⟨29, _⟩ => ⟨S512x1, .f32⟩
  | .hbm, ⟨30, _⟩ => ⟨S1x512x1, .f32⟩
  | .hbm, ⟨31, _⟩ => ⟨S512x1, .f32⟩
  | .hbm, ⟨32, _⟩ => ⟨S512x1, .f32⟩
  | .hbm, ⟨33, _⟩ => ⟨S512x1, .f32⟩
  | .hbm, ⟨34, _⟩ => ⟨S512x1, .f32⟩
  | .hbm, ⟨35, _⟩ => ⟨S512x1, .f32⟩
  | .hbm, ⟨36, _⟩ => ⟨S512x1, .f32⟩
  | .hbm, ⟨37, _⟩ => ⟨S512x1, .f32⟩
  | .hbm, ⟨38, _⟩ => ⟨S512x1, .f32⟩
  | .hbm, ⟨39, _⟩ => ⟨S512x1, .f32⟩
  | .hbm, ⟨40, _⟩ => ⟨S512x1, .f32⟩
  | .hbm, ⟨41, _⟩ => ⟨S512x1, .f32⟩
  | .hbm, ⟨42, _⟩ => ⟨S512x1, .f32⟩
  | .hbm, ⟨43, _⟩ => ⟨S512x1, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .local _ .vmem, ⟨0, _⟩ => ⟨S512x256, .bf16⟩
  | .local _ .vmem, ⟨1, _⟩ => ⟨S512x1, .i32⟩
  | .local _ .vmem, ⟨2, _⟩ => ⟨S2000x256, .f32⟩
  | .local _ .vmem, ⟨3, _⟩ => ⟨S2000x256, .f32⟩
  | .local _ .vmem, ⟨4, _⟩ => ⟨S1x512x1, .f32⟩
  | .local _ .vmem, ⟨5, _⟩ => ⟨S1x512x1, .f32⟩
  | .local _ .vmem, ⟨6, _⟩ => ⟨S1x512x1, .f32⟩
  | .local _ .vmem, ⟨7, _⟩ => ⟨S1x512x1, .f32⟩
  | .local _ .vmem, ⟨8, _⟩ => ⟨S1x512x1, .f32⟩
  | .local _ .vmem, ⟨9, _⟩ => ⟨S1x512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_cst_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v75 : BitVec 1 := Scalar.cmpi .eq arg1 c24_i32
  let v76 : BitVec 32 := Scalar.extui v75
  let c0_i32_33 : BitVec 32 := 0#32
  let v77 : BitVec 1 := Scalar.cmpi .ne v76 c0_i32_33
  v77

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S512x256_S512_d1 : S512x256.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x256_0_1 : S512x1.BroadcastsInDim S512x256 (![0, 1] : Fin 2 → Fin S512x256.rank)
  bitsLt_bf16_f32 : FTy.bits .bf16 < FTy.bits .f32
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S2000x256_S2000x256_0_0 : ∀ a, (![0, 0] : Fin 2 → Nat) a + S2000x256.size a ≤ S2000x256.size a
  h_S2000x256 : 0 < S2000x256.numel
  reduces_S2000x256_S2000 : S2000x256.Reduces [1] S2000
  shapeCasts_S2000_S2000x1 : S2000.ShapeCasts S2000x1
  broadcasts_S2000x1_S2000x256 : S2000x1.Broadcasts S2000x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S2000x256_p1_0_S256x2000 : S2000x256.Transposes [1, 0] S256x2000
  iota_S512x2000_d1_w32 : S512x2000.Iotas .tc 32 [1]
  broadcasts_S512x1_S512x2000 : S512x1.Broadcasts S512x2000
  reduces_S512x2000_S512 : S512x2000.Reduces [1] S512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  slices_S2x512x1_S1x512x1_0_0_0 : S2x512x1.Slices ![0, 0, 0] S1x512x1
  slices_S2x512x1_S1x512x1_1_0_0 : S2x512x1.Slices ![1, 0, 0] S1x512x1
  reducesTo_S512x1_S_d0_1 : S512x1.ReducesTo [0, 1] S_
  dot_S512x256_S256x2000_S512x2000_1_0_0_1_n_n_wf : DotDims.WF S512x256 S256x2000 S512x2000 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S512x256.size a
  hwx0_0 : ∀ i : grid0.Coords, EltTy.bits .bf16 = 32 ∨ (Rect.block (s := S512x256) S512x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S512x1.size a
  hwx0_1 : ∀ i : grid0.Coords, EltTy.bits .i32 = 32 ∨ (Rect.block (s := S512x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S100000x256.size a
  hwx0_2 : ∀ i : grid0.Coords, EltTy.bits .f32 = 32 ∨ (Rect.block (s := S100000x256) S2000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S2x512x1.size a
  hwx0_3 : ∀ i : grid0.Coords, EltTy.bits .f32 = 32 ∨ (Rect.block (s := S2x512x1) S1x512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S2x512x1.size a
  hwx0_4 : ∀ i : grid0.Coords, EltTy.bits .f32 = 32 ∨ (Rect.block (s := S2x512x1) S1x512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1.size a ≤ S2x512x1.size a
  hwx0_5 : ∀ i : grid0.Coords, EltTy.bits .f32 = 32 ∨ (Rect.block (s := S2x512x1) S1x512x1.size (cc0_transform_5 i) (hinb0_5 i)).WholeWords (EltTy.packing .f32)

variable [Facts₀]

def dot_S512x256_S256x2000_S512x2000_1_0_0_1_n_n : DotDims S512x256 S256x2000 S512x2000 where
  lhsContracting := [1]
  rhsContracting := [0]
  lhsNonContracting := [0]
  rhsNonContracting := [1]
  lhsBatch := []
  rhsBatch := []
  wf := dot_S512x256_S256x2000_S512x2000_1_0_0_1_n_n_wf

abbrev win0_0 : Pipeline.Window sig grid0 :=
  Pipeline.Window.ofSpec (Memref.whole main_v8) S512x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S1x512x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S1x512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_2) S1x512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S512x256 : Shape := ⟨2, ![512, 256]⟩
abbrev S512 : Shape := ⟨1, ![512]⟩
abbrev S100000x256 : Shape := ⟨2, ![100000, 256]⟩
abbrev S1 : Shape := ⟨1, ![1]⟩
abbrev S_ : Shape := ⟨0, ![]⟩
abbrev S512x1 : Shape := ⟨2, ![512, 1]⟩
abbrev S100000 : Shape := ⟨1, ![100000]⟩
abbrev S100000x1 : Shape := ⟨2, ![100000, 1]⟩
abbrev S256x100000 : Shape := ⟨2, ![256, 100000]⟩
abbrev S512x100000 : Shape := ⟨2, ![512, 100000]⟩
abbrev S1x100000 : Shape := ⟨2, ![1, 100000]⟩
abbrev S512x1x1 : Shape := ⟨3, ![512, 1, 1]⟩
abbrev S1x1x1 : Shape := ⟨3, ![1, 1, 1]⟩

abbrev nBuf : Space → Nat
  | .hbm => 109
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512, .i32⟩
  | .hbm, ⟨2, _⟩ => ⟨S100000x256, .f32⟩
  | .hbm, ⟨3, _⟩ => ⟨S1, .f32⟩
  | .hbm, ⟨4, _⟩ => ⟨S1, .f32⟩
  | .hbm, ⟨5, _⟩ => ⟨S512x256, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x256, .f32⟩
  | .hbm, ⟨14, _⟩ => ⟨S512x256, .f32⟩
  | .hbm, ⟨15, _⟩ => ⟨S100000x256, .f32⟩
  | .hbm, ⟨16, _⟩ => ⟨S_, .f32⟩
  | .hbm, ⟨17, _⟩ => ⟨S100000, .f32⟩
  | .hbm, ⟨18, _⟩ => ⟨S100000x1, .f32⟩
  | .hbm, ⟨19, _⟩ => ⟨S100000x1, .f32⟩
  | .hbm, ⟨20, _⟩ => ⟨S_, .f32⟩
  | .hbm, ⟨21, _⟩ => ⟨S100000x1, .f32⟩
  | .hbm, ⟨22, _⟩ => ⟨S100000x1, .f32⟩
  | .hbm, ⟨23, _⟩ => ⟨S100000x256, .f32⟩
  | .hbm, ⟨24, _⟩ => ⟨S100000x256, .f32⟩
  | .hbm, ⟨25, _⟩ => ⟨S256x100000, .f32⟩
  | .hbm, ⟨26, _⟩ => ⟨S512x100000, .f32⟩
  | .hbm, ⟨27, _⟩ => ⟨S512x100000, .f32⟩
  | .hbm, ⟨28, _⟩ => ⟨S_, .f32⟩
  | .hbm, ⟨29, _⟩ => ⟨S512x100000, .f32⟩
  | .hbm, ⟨30, _⟩ => ⟨S512x100000, .f32⟩
  | .hbm, ⟨31, _⟩ => ⟨S_, .f32⟩
  | .hbm, ⟨32, _⟩ => ⟨S512x100000, .f32⟩
  | .hbm, ⟨33, _⟩ => ⟨S512x100000, .f32⟩
  | .hbm, ⟨34, _⟩ => ⟨S512x100000, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S512x100000, .f32⟩
  | .hbm, ⟨39, _⟩ => ⟨S512x100000, .f32⟩
  | .hbm, ⟨40, _⟩ => ⟨S_, .f32⟩
  | .hbm, ⟨41, _⟩ => ⟨S512x100000, .f32⟩
  | .hbm, ⟨42, _⟩ => ⟨S512x100000, .f32⟩
  | .hbm, ⟨43, _⟩ => ⟨S_, .f32⟩
  | .hbm, ⟨44, _⟩ => ⟨S512x100000, .f32⟩
  | .hbm, ⟨45, _⟩ => ⟨S512x100000, .f32⟩
  | .hbm, ⟨46, _⟩ => ⟨S_, .f32⟩
  | .hbm, ⟨47, _⟩ => ⟨S512x100000, .f32⟩
  | .hbm, ⟨48, _⟩ => ⟨S512x100000, .f32⟩
  | .hbm, ⟨49, _⟩ => ⟨S512x100000, .f32⟩
  | .hbm, ⟨50, _⟩ => ⟨S512x1, .i32⟩
  | .hbm, ⟨51, _⟩ => ⟨S1x100000, .i32⟩
  | .hbm, ⟨52, _⟩ => ⟨S512x100000, .i32⟩
  | .hbm, ⟨53, _⟩ => ⟨S512x100000, .i32⟩
  | .hbm, ⟨54, _⟩ => ⟨S512x100000, .i1⟩
  | .hbm, ⟨55, _⟩ => ⟨S512x100000, .f32⟩
  | .hbm, ⟨56, _⟩ => ⟨S512x100000, .f32⟩
  | .hbm, ⟨57, _⟩ => ⟨S_, .f32⟩
  | .hbm, ⟨58, _⟩ => ⟨S512x100000, .f32⟩
  | .hbm, ⟨59, _⟩ => ⟨S512x100000, .f32⟩
  | .hbm, ⟨60, _⟩ => ⟨S512x100000, .f32⟩
  | .hbm, ⟨61, _⟩ => ⟨S512x100000, .f32⟩
  | .hbm, ⟨62, _⟩ => ⟨S_, .f32⟩
  | .hbm, ⟨63, _⟩ => ⟨S512x100000, .f32⟩
  | .hbm, ⟨64, _⟩ => ⟨S512x100000, .f32⟩
  | .hbm, ⟨65, _⟩ => ⟨S_, .f32⟩
  | .hbm, ⟨66, _⟩ => ⟨S512, .f32⟩
  | .hbm, ⟨67, _⟩ => ⟨S_, .f32⟩
  | .hbm, ⟨68, _⟩ => ⟨S512, .f32⟩
  | .hbm, ⟨69, _⟩ => ⟨S512, .f32⟩
  | .hbm, ⟨70, _⟩ => ⟨S512x1, .f32⟩
  | .hbm, ⟨71, _⟩ => ⟨S512x100000, .f32⟩
  | .hbm, ⟨72, _⟩ => ⟨S512x100000, .f32⟩
  | .hbm, ⟨73, _⟩ => ⟨S512x100000, .f32⟩
  | .hbm, ⟨74, _⟩ => ⟨S_, .f32⟩
  | .hbm, ⟨75, _⟩ => ⟨S512, .f32⟩
  | .hbm, ⟨76, _⟩ => ⟨S512x1, .f32⟩
  | .hbm, ⟨77, _⟩ => ⟨S512x1, .f32⟩
  | .hbm, ⟨78, _⟩ => ⟨S512x100000, .f32⟩
  | .hbm, ⟨79, _⟩ => ⟨S512x100000, .f32⟩
  | .hbm, ⟨80, _⟩ => ⟨S512x1, .i32⟩
  | .hbm, ⟨81, _⟩ => ⟨S_, .i32⟩
  | .hbm, ⟨82, _⟩ => ⟨S512x1, .i32⟩
  | .hbm, ⟨83, _⟩ => ⟨S512x1, .i1⟩
  | .hbm, ⟨84, _⟩ => ⟨S_, .i32⟩
  | .hbm, ⟨85, _⟩ => ⟨S512x1, .i32⟩
  | .hbm, ⟨86, _⟩ => ⟨S512x1, .i32⟩
  | .hbm, ⟨87, _⟩ => ⟨S512x1, .i32⟩
  | .hbm, ⟨88, _⟩ => ⟨S512x1x1, .i32⟩
  | .hbm, ⟨89, _⟩ => ⟨S1, .i32⟩
  | .hbm, ⟨90, _⟩ => ⟨S_, .i32⟩
  | .hbm, ⟨91, _⟩ => ⟨S512x1x1, .i32⟩
  | .hbm, ⟨92, _⟩ => ⟨S512x1x1, .i1⟩
  | .hbm, ⟨93, _⟩ => ⟨S1x1x1, .i32⟩
  | .hbm, ⟨94, _⟩ => ⟨S512x1x1, .i32⟩
  | .hbm, ⟨95, _⟩ => ⟨S512x1x1, .i1⟩
  | .hbm, ⟨96, _⟩ => ⟨S512x1x1, .i1⟩
  | .hbm, ⟨97, _⟩ => ⟨S_, .i1⟩
  | .hbm, ⟨98, _⟩ => ⟨S512x1, .i1⟩
  | .hbm, ⟨99, _⟩ => ⟨S512x1, .f32⟩
  | .hbm, ⟨100, _⟩ => ⟨S_, .f32⟩
  | .hbm, ⟨101, _⟩ => ⟨S512x1, .f32⟩
  | .hbm, ⟨102, _⟩ => ⟨S512x1, .f32⟩
  | .hbm, ⟨103, _⟩ => ⟨S512, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_cst_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_cst_8 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v24 : Ref sig .tc := ⟨.hbm, 42, rfl⟩
abbrev main_cst_9 : Ref sig .tc := ⟨.hbm, 43, rfl⟩
abbrev main_v25 : Ref sig .tc := ⟨.hbm, 44, rfl⟩
abbrev main_v26 : Ref sig .tc := ⟨.hbm, 45, rfl⟩
abbrev main_cst_10 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v30 : Ref sig .tc := ⟨.hbm, 55, rfl⟩
abbrev main_v31 : Ref sig .tc := ⟨.hbm, 56, rfl⟩
abbrev main_cst_11 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_12 : Ref sig .tc := ⟨.hbm, 62, rfl⟩
abbrev main_v36 : Ref sig .tc := ⟨.hbm, 63, rfl⟩
abbrev main_v37 : Ref sig .tc := ⟨.hbm, 64, rfl⟩
abbrev main_call2_cst : Ref sig .tc := ⟨.hbm, 65, rfl⟩
abbrev main_call2_v0 : Ref sig .tc := ⟨.hbm, 66, rfl⟩
abbrev main_call2_cst_0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_v6 : Ref sig .tc := ⟨.hbm, 73, rfl⟩
abbrev main_call2_cst_1 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_v38 : Ref sig .tc := ⟨.hbm, 79, rfl⟩
abbrev main_v39 : Ref sig .tc := ⟨.hbm, 80, rfl⟩
abbrev main_call3_c : Ref sig .tc := ⟨.hbm, 81, rfl⟩
abbrev main_call3_v0 : Ref sig .tc := ⟨.hbm, 82, rfl⟩
abbrev main_call3_v1 : Ref sig .tc := ⟨.hbm, 83, rfl⟩
abbrev main_call3_c_0 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_c_1 : Ref sig .tc := ⟨.hbm, 89, rfl⟩
abbrev main_call3_c_2 : Ref sig .tc := ⟨.hbm, 90, rfl⟩
abbrev main_call3_v6 : Ref sig .tc := ⟨.hbm, 91, rfl⟩
abbrev main_call3_v7 : Ref sig .tc := ⟨.hbm, 92, rfl⟩
abbrev main_call3_v8 : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_c_3 : Ref sig .tc := ⟨.hbm, 97, rfl⟩
abbrev main_call3_v12 : Ref sig .tc := ⟨.hbm, 98, rfl⟩
abbrev main_call3_v13 : Ref sig .tc := ⟨.hbm, 99, rfl⟩
abbrev main_call3_cst : Ref sig .tc := ⟨.hbm, 100, rfl⟩
abbrev main_call3_v14 : Ref sig .tc := ⟨.hbm, 101, rfl⟩
abbrev main_v40 : Ref sig .tc := ⟨.hbm, 102, rfl⟩
abbrev main_v41 : Ref sig .tc := ⟨.hbm, 103, rfl⟩
abbrev main_cst_13 : Ref sig .tc := ⟨.hbm, 104, rfl⟩
abbrev main_v42 : Ref sig .tc := ⟨.hbm, 105, rfl⟩
abbrev main_cst_14 : Ref sig .tc := ⟨.hbm, 106, rfl⟩
abbrev main_v43 : Ref sig .tc := ⟨.hbm, 107, rfl⟩
abbrev main_v44 : Ref sig .tc := ⟨.hbm, 108, rfl⟩

abbrev nD : Nat := 1
abbrev τ : Topo := Topo.v7x

variable {F : FTy → Type} [FloatOps F]

class Facts₀ : Prop where
  reducesTo_S512x256_S512_d1 : S512x256.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x256_0_1 : S512x1.BroadcastsInDim S512x256 (![0, 1] : Fin 2 → Fin S512x256.rank)
  reducesTo_S100000x256_S100000_d1 : S100000x256.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  transposes_S100000x256_S256x100000_1_0 : S100000x256.Transposes [1, 0] S256x100000
  bcast_S_S512x100000 : S_.BroadcastsInDim S512x100000 (![] : Fin 0 → Fin S512x100000.rank)
  bcast_S512x1_S512x100000_0_1 : S512x1.BroadcastsInDim S512x100000 (![0, 1] : Fin 2 → Fin S512x100000.rank)
  bcast_S1x100000_S512x100000_0_1 : S1x100000.BroadcastsInDim S512x100000 (![0, 1] : Fin 2 → Fin S512x100000.rank)
  reducesTo_S512x100000_S512_d1 : S512x100000.ReducesTo [1] S512
  bcast_S_S512 : S_.BroadcastsInDim S512 (![] : Fin 0 → Fin S512.rank)
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  shapeCasts_S512x1_S512 : S512x1.ShapeCasts S512
  reducesTo_S512_S_d0 : S512.ReducesTo [0] S_
  dot_S512x256_S256x100000_S512x100000_1_0_0_1_n_n_wf : DotDims.WF S512x256 S256x100000 S512x100000 [1] [0] [0] [1] [] []
  gather_S512x100000_S512x1x1_S512x1_n_1_0_0_1_2_11_wf : GatherDims.WF S512x100000 S512x1x1 S512x1 [] [1] [0] [1] [0] 2 ![1, 1]

variable [Facts₀]

def dot_S512x256_S256x100000_S512x100000_1_0_0_1_n_n : DotDims S512x256 S256x100000 S512x100000 where
  lhsContracting := [1]
  rhsContracting := [0]
  lhsNonContracting := [0]
  rhsNonContracting := [1]
  lhsBatch := []
  rhsBatch := []
  wf := dot_S512x256_S256x100000_S512x100000_1_0_0_1_n_n_wf
def gather_S512x100000_S512x1x1_S512x1_n_1_0_0_1_2_11 : GatherDims S512x100000 S512x1x1 S512x1 where
  offsetDims := []
  collapsedSliceDims := [1]
  operandBatchingDims := [0]
  startIndicesBatchingDims := [0]
  startIndexMap := [1]
  indexVectorDim := 2
  sliceSizes := ![1, 1]
  wf := gather_S512x100000_S512x1x1_S512x1_n_1_0_0_1_2_11_wf

class Facts : Prop extends Facts₀ where

variable [Facts]
-- ==== Proof.Spec.lean ====
/-
  The mathematics both programs compute, stated once over the three input arrays.

  Inputs: embeddings `E` (512 rows of 256), integer labels `L` (one per row), prototypes `P`
  (100000 rows of 256).  Each row of `E` and of `P` is divided by its Euclidean norm (guarded below by
  a small constant); `cosv b k` is the inner product of normalised row `b` of `E` with normalised row
  `k` of `P`; at the row's label column the cosine is replaced by the additive-margin form
  `c · cos μ − sin θ · sin μ`, with `sin θ` the clipped square root of `1 − c²`; every entry is then
  scaled.  The loss is the mean over rows of `log ∑ₖ exp (xₖ) − x_label`, computed with the usual
  shift by the row maximum.

  The kernel computes the row maximum `m`, the shifted sum `l` and the label entry `ll` in a stream
  of blocks of 2000 columns (`stepM`, `stepL`, `stepLL`), one stream per half of the columns, and
  merges the two halves on the host (`kRow`); the reference does one pass (`rRow`).
-/
import Idealize.ShloMosaic.PureOps.Ideal
import Idealize.ShloMosaic.Lib.ValueIdx
import Mathlib.Analysis.SpecialFunctions.Log.Basic
import Mathlib.Order.Filter.Basic

noncomputable section

namespace Cert.Margin

open Idealize.ShloMosaic Idealize.ShloMosaic.ValueIdx
open scoped BigOperators

/-! ## Constants (each the exact value of its 32-bit pattern) -/

/-- The guard under the two norms. -/
def eps12 : EReal := Ideal.ofBits .f32 0x2B8CBCCC#32
/-- The floor under `1 − c²` and under its square root. -/
def eps16 : EReal := Ideal.ofBits .f32 0x24E69595#32
/-- One. -/
def one : EReal := Ideal.ofBits .f32 0x3F800000#32
/-- The cosine of the margin. -/
def cosM : EReal := Ideal.ofBits .f32 0x3F60A940#32
/-- The sine of the margin. -/
def sinM : EReal := Ideal.ofBits .f32 0x3EF57744#32
/-- The scale applied to every logit. -/
def scale : EReal := Ideal.ofBits .f32 0x42800000#32
/-- The number of rows, as the divisor of the mean. -/
def c512 : EReal := Ideal.ofBits .f32 0x44000000#32

/-! ## The logits -/

/-- The guarded Euclidean norm of row `r` of an array with 256 columns. -/
def rowNorm {n : Nat} (x : (⟨2, ![n, 256]⟩ : Shape).Idx → EReal) (r : Fin n) : EReal :=
  max (Ideal.sqrt (∑ d : Fin 256, x (ix2 r d) * x (ix2 r d))) eps12

/-- Entry `d` of row `r` divided by the row's guarded norm. -/
def unit {n : Nat} (x : (⟨2, ![n, 256]⟩ : Shape).Idx → EReal) (r : Fin n) (d : Fin 256) : EReal :=
  Ideal.div (x (ix2 r d)) (rowNorm x r)

/-- The cosine between row `b` of the embeddings and row `k` of the prototypes. -/
def cosv (E : (⟨2, ![512, 256]⟩ : Shape).Idx → EReal) (P : (⟨2, ![100000, 256]⟩ : Shape).Idx → EReal)
    (b : Fin 512) (k : Fin 100000) : EReal :=
  ∑ d : Fin 256, unit E b d * unit P k d

/-- The clipped sine that goes with a cosine `c`. -/
def sine (c : EReal) : EReal := min one (max eps16 (Ideal.sqrt (max (one - c * c) eps16)))

/-- The margin form of a cosine `c`. -/
def phi (c : EReal) : EReal := c * cosM - sine c * sinM

/-- The logit of row `b` at column `k`: the margin form at the label's column, the cosine elsewhere, scaled. -/
def logit (E : (⟨2, ![512, 256]⟩ : Shape).Idx → EReal) (L : (⟨1, ![512]⟩ : Shape).Idx → BitVec 32)
    (P : (⟨2, ![100000, 256]⟩ : Shape).Idx → EReal) (b : Fin 512) (k : Fin 100000) : EReal :=
  (if L (ix1 b) = BitVec.ofNat 32 k.val then phi (cosv E P b k) else cosv E P b k) * scale

/-! ## One block of the stream -/

/-- The maximum of finitely many extended reals, from a starting value. -/
def rmax {n : Nat} (init : EReal) (y : Fin n → EReal) : EReal :=
  (Finset.univ : Finset (Fin n)).fold max init y

/-- The running maximum after a block `y`. -/
def stepM {n : Nat} (mp : EReal) (y : Fin n → EReal) : EReal := max mp (rmax ⊥ y)

/-- The running shifted sum after a block `y`: the old sum rescaled to the new maximum, plus the block's terms. -/
def stepL {n : Nat} (mp lp : EReal) (y : Fin n → EReal) : EReal :=
  lp * Ideal.exp (mp - stepM mp y) + ∑ k : Fin n, Ideal.exp (y k - stepM mp y)

/-- The running label entry after a block `y`, of which `hit` marks the label's column (if it is there). -/
def stepLL {n : Nat} (llp : EReal) (y : Fin n → EReal) (hit : Fin n → Prop) [DecidablePred hit] : EReal :=
  llp + ∑ k : Fin n, if hit k then y k else 0

/-! ## The stream's state in closed form, over the reals -/

/-- The columns `lo ≤ k < hi`. -/
def cols (lo hi : ℕ) : Finset (Fin 100000) := Finset.univ.filter fun k => lo ≤ k.val ∧ k.val < hi

/-- The maximum of a real row over a nonempty set of columns. -/
def mOf {n : Nat} (x : Fin n → ℝ) (S : Finset (Fin n)) (h : S.Nonempty) : ℝ := S.sup' h x

/-- The sum over a nonempty set of columns of `exp (xₖ − max)`, the maximum taken over the same set. -/
def lOf {n : Nat} (x : Fin n → ℝ) (S : Finset (Fin n)) (h : S.Nonempty) : ℝ :=
  ∑ k ∈ S, Real.exp (x k - S.sup' h x)

/-- The label's entry if its column is in the set, zero otherwise. -/
def llOf {n : Nat} (x : Fin n → ℝ) (S : Finset (Fin n)) (lab : Fin n) : ℝ :=
  ∑ k ∈ S, if k = lab then x k else 0

/-! ## The two tails -/

/-- The kernel's merge of its two halves' `(m, l, ll)` for one row. -/
def kRow (m0 l0 ll0 m1 l1 ll1 : EReal) : EReal :=
  (max m0 m1 + Ideal.log (l0 * Ideal.exp (m0 - max m0 m1) + l1 * Ideal.exp (m1 - max m0 m1))) - (ll0 + ll1)

/-- The kernel's mean over rows. -/
def kLoss (r : Fin 512 → EReal) : EReal := Ideal.div (0 + ∑ b : Fin 512, r b) c512

/-- The reference's log-softmax of a row `x` at column `k`. -/
def rRow {n : Nat} (x : Fin n → EReal) (k : Fin n) : EReal :=
  (x k - max ⊥ (rmax ⊥ x)) - Ideal.log (0 + ∑ j : Fin n, Ideal.exp (x j - max ⊥ (rmax ⊥ x)))

/-- The reference's negated mean over rows. -/
def rLoss (r : Fin 512 → EReal) : EReal := - Ideal.div (0 + ∑ b : Fin 512, r b) c512

/-! ## The common value, over the reals -/

/-- `log ∑ₖ exp xₖ − x_lab` for one row of real logits, with the shift by the row maximum written out. -/
def rowLoss {n : Nat} [NeZero n] (x : Fin n → ℝ) (lab : Fin n) : ℝ :=
  (Finset.univ.sup' Finset.univ_nonempty x
      + Real.log (∑ k : Fin n, Real.exp (x k - Finset.univ.sup' Finset.univ_nonempty x))) - x lab

/-- The mean of the rows' losses. -/
def lossR (xr : Fin 512 → Fin 100000 → ℝ) (lab : Fin 512 → Fin 100000) : ℝ :=
  (∑ b : Fin 512, rowLoss (xr b) (lab b)) / 512

end Cert.Margin

end
-- ==== Proof.Finite.lean ====
/-
  With finite inputs every logit is a real number.

  Each entry of the embeddings and of the prototypes is a real; so a row's sum of squares is a
  nonnegative real, its square root a real, the guarded norm a positive real, each normalised entry a
  real, each cosine a finite sum of products of reals, the clipped sine and the margin form reals, and
  the scaled logit a real.
-/
import proofs.«418070_j52424370815316_1_alg».proof.Proof.Spec

noncomputable section

namespace Cert.Margin

open Idealize.ShloMosaic Idealize.ShloMosaic.ValueIdx
open scoped BigOperators

/-! ## The constants are reals (the two guards positive ones) -/

private theorem eps12_pos : ∃ r : ℝ, 0 < r ∧ eps12 = (r : EReal) := by
  simp [eps12, Ideal.ofBits, Ideal.ieee, -EReal.coe_mul]

private theorem eps16_pos : ∃ r : ℝ, 0 < r ∧ eps16 = (r : EReal) := by
  simp [eps16, Ideal.ofBits, Ideal.ieee, -EReal.coe_mul]

private theorem one_real : ∃ r : ℝ, one = (r : EReal) := by
  simp [one, Ideal.ofBits, Ideal.ieee, -EReal.coe_mul]

private theorem cosM_real : ∃ r : ℝ, cosM = (r : EReal) := by
  simp [cosM, Ideal.ofBits, Ideal.ieee, -EReal.coe_mul]

private theorem sinM_real : ∃ r : ℝ, sinM = (r : EReal) := by
  simp [sinM, Ideal.ofBits, Ideal.ieee, -EReal.coe_mul]

private theorem scale_real : ∃ r : ℝ, scale = (r : EReal) := by
  simp [scale, Ideal.ofBits, Ideal.ieee, -EReal.coe_mul]

/-! ## Finite sums of reals -/

/-- The coercion of a finite sum of reals is the sum of the coercions. -/
private theorem coe_sum {ι : Type*} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-! ## Maxima and minima of reals -/

private theorem coe_max_real (a b : ℝ) : max (a : EReal) (b : EReal) = ((max a b : ℝ) : EReal) :=
  (EReal.coe_strictMono.monotone.map_max).symm

private theorem coe_min_real (a b : ℝ) : min (a : EReal) (b : EReal) = ((min a b : ℝ) : EReal) :=
  (EReal.coe_strictMono.monotone.map_min).symm

/-! ## The norm, the normalised entries, the cosine -/

/-- The guarded norm of a row of reals is a positive real. -/
private theorem rowNorm_real {n : Nat} (x : (⟨2, ![n, 256]⟩ : Shape).Idx → EReal)
    (e : (⟨2, ![n, 256]⟩ : Shape).Idx → ℝ) (hx : ∀ i, x i = (e i : EReal)) (r : Fin n) :
    ∃ ρ : ℝ, 0 < ρ ∧ rowNorm x r = (ρ : EReal) := by
  obtain ⟨r12, h12pos, h12⟩ := eps12_pos
  refine ⟨max (Real.sqrt (∑ d : Fin 256, e (ix2 r d) * e (ix2 r d))) r12,
    lt_max_of_lt_right h12pos, ?_⟩
  have hnn : ¬ (∑ d : Fin 256, e (ix2 r d) * e (ix2 r d)) < 0 :=
    not_lt.mpr (Finset.sum_nonneg fun d _ => mul_self_nonneg _)
  unfold rowNorm
  simp_rw [hx, ← EReal.coe_mul]
  rw [coe_sum, Ideal.sqrt_coe, if_neg hnn, h12, coe_max_real]

/-- A normalised entry of a row of reals is a real. -/
private theorem unit_real {n : Nat} (x : (⟨2, ![n, 256]⟩ : Shape).Idx → EReal)
    (e : (⟨2, ![n, 256]⟩ : Shape).Idx → ℝ) (hx : ∀ i, x i = (e i : EReal)) (r : Fin n) (d : Fin 256) :
    ∃ u : ℝ, unit x r d = (u : EReal) := by
  obtain ⟨ρ, hρ, hn⟩ := rowNorm_real x e hx r
  refine ⟨e (ix2 r d) * (1 / ρ), ?_⟩
  rw [unit, hn, Ideal.div_coe hρ.ne', hx, EReal.coe_mul]

/-- A cosine of two rows of reals is a real. -/
private theorem cosv_real (E : (⟨2, ![512, 256]⟩ : Shape).Idx → EReal)
    (P : (⟨2, ![100000, 256]⟩ : Shape).Idx → EReal)
    (hE : ∀ i, ∃ r : ℝ, E i = (r : EReal)) (hP : ∀ i, ∃ r : ℝ, P i = (r : EReal))
    (b : Fin 512) (k : Fin 100000) : ∃ c : ℝ, cosv E P b k = (c : EReal) := by
  choose e he using hE
  choose p hp using hP
  have hu : ∀ d, ∃ u : ℝ, unit E b d = (u : EReal) := fun d => unit_real E e he b d
  have hv : ∀ d, ∃ v : ℝ, unit P k d = (v : EReal) := fun d => unit_real P p hp k d
  choose u hu using hu
  choose v hv using hv
  refine ⟨∑ d : Fin 256, u d * v d, ?_⟩
  unfold cosv
  simp_rw [hu, hv, ← EReal.coe_mul]
  exact coe_sum _ _

/-! ## The clipped sine, the margin form, the logit -/

/-- The clipped sine of a real cosine is a real. -/
private theorem sine_real (c : ℝ) : ∃ s : ℝ, sine (c : EReal) = (s : EReal) := by
  obtain ⟨r1, h1⟩ := one_real
  obtain ⟨r16, h16pos, h16⟩ := eps16_pos
  refine ⟨min r1 (max r16 (Real.sqrt (max (r1 - c * c) r16))), ?_⟩
  have hnn : ¬ max (r1 - c * c) r16 < 0 := not_lt.mpr (le_trans h16pos.le (le_max_right _ _))
  unfold sine
  rw [h1, h16, ← EReal.coe_mul, ← EReal.coe_sub, coe_max_real, Ideal.sqrt_coe, if_neg hnn,
    coe_max_real, coe_min_real]

/-- The margin form of a real cosine is a real. -/
private theorem phi_real (c : ℝ) : ∃ f : ℝ, phi (c : EReal) = (f : EReal) := by
  obtain ⟨rc, hc⟩ := cosM_real
  obtain ⟨rs, hs⟩ := sinM_real
  obtain ⟨s, hsin⟩ := sine_real c
  refine ⟨c * rc - s * rs, ?_⟩
  rw [phi, hc, hs, hsin, ← EReal.coe_mul, ← EReal.coe_mul, ← EReal.coe_sub]

/-- Every logit of finite inputs is (the coercion of) a real number. -/
theorem logit_real (E : (⟨2, ![512, 256]⟩ : Shape).Idx → EReal) (L : (⟨1, ![512]⟩ : Shape).Idx → BitVec 32)
    (P : (⟨2, ![100000, 256]⟩ : Shape).Idx → EReal)
    (hE : ∀ i, ∃ r : ℝ, E i = (r : EReal)) (hP : ∀ i, ∃ r : ℝ, P i = (r : EReal)) :
    ∃ xr : Fin 512 → Fin 100000 → ℝ, ∀ b k, logit E L P b k = ((xr b k : ℝ) : EReal) := by
  have h : ∀ b k, ∃ x : ℝ, logit E L P b k = (x : EReal) := by
    intro b k
    obtain ⟨rs, hs⟩ := scale_real
    obtain ⟨c, hc⟩ := cosv_real E P hE hP b k
    obtain ⟨f, hf⟩ := phi_real c
    unfold logit
    rw [hc, hs]
    split
    · exact ⟨f * rs, by rw [hf, EReal.coe_mul]⟩
    · exact ⟨c * rs, by rw [EReal.coe_mul]⟩
  choose xr hxr using h
  exact ⟨xr, hxr⟩

end Cert.Margin

end
-- ==== Proof.PreDecode.lean ====
/-
  What the precondition says.

  The precondition is printed as one boolean: the conjunction of "every embedding entry has absolute
  value below +∞", the same for the prototypes, "every label is ≥ 0" and "every label is < 100000"
  (signed 32-bit comparisons).  When it is true, every entry of the two float arrays is a real number and
  every label is (the 32-bit word of) a column index below 100000.
-/
import proofs.«418070_j52424370815316_1_alg».proof.Pre_finite_inputs
import proofs.«418070_j52424370815316_1_alg».proof.Proof.Gen.Pre_finite_inputs
import Idealize.ShloMosaic.Lib.ValueIdx
import Idealize.ShloMosaic.Lib.ReduceAll
import Idealize.ShloMosaic.Lib.StableHlo.Predicate
import Idealize.ShloMosaic.PureOps.Ideal.Laws

noncomputable section

namespace Cert.PreDecode

open Idealize.ShloMosaic Idealize.ShloMosaic.ValueIdx Cert.Pre_finite_inputs

variable [Cert.Pre_finite_inputs.Facts]

/-- The scalar shape has one index. -/
private instance : Subsingleton S_.Idx := ⟨fun a b => funext fun d => d.elim0⟩

/-- An extended real whose absolute value is below +∞ is a real number. -/
private theorem real_of_abs_lt_top (x : EReal) (h : max x (-x) < ⊤) : ∃ r : ℝ, x = (r : EReal) := by
  rw [max_lt_iff] at h
  induction x using EReal.rec with
  | bot => exact absurd h.2 (by simp)
  | coe r => exact ⟨r, rfl⟩
  | top => exact absurd h.1 (by simp)

/-- The printed test "|x| < +∞" at one element, read back. -/
private theorem real_of_test (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  rw [StableHlo.Predicate.ofBool_eq_one_iff, decide_eq_true_eq] at h'
  exact real_of_abs_lt_top x h'

/-- A 32-bit word that is ≥ 0 and < 100000 as a signed number has unsigned value below 100000. -/
private theorem toNat_lt_of_tests (a : BitVec 32) (h0 : IntOp.cmpi .sge a 0#32 = 1#1)
    (h1 : IntOp.cmpi .slt a 100000#32 = 1#1) : a.toNat < 100000 := by
  rw [IntOp.cmpi_sge, show (0#32 : BitVec 32).toInt = 0 from by decide] at h0
  rw [IntOp.cmpi_slt, show (100000#32 : BitVec 32).toInt = 100000 from by decide] at h1
  have hpos : 2 * a.toNat < 2 ^ 32 := BitVec.toInt_pos_iff.mp h0
  rw [BitVec.toInt_eq_toNat_of_lt hpos] at h1
  omega

/-- The precondition true means: the float inputs are finite and the labels are column indices. -/
theorem decode (E : FVec Ideal S512x256 .f32) (L : IVec S512 32) (P : FVec Ideal S100000x256 .f32)
    (h : Cert.Pre_finite_inputs.fn (F := Ideal) E L P = fun _ => 1#1) :
    (∀ i, ∃ r : ℝ, (E i : EReal) = (r : EReal))
    ∧ (∀ i, ∃ r : ℝ, (P i : EReal) = (r : EReal))
    ∧ ∃ lab : Fin 512 → Fin 100000, ∀ b : Fin 512, L (ix1 b) = BitVec.ofNat 32 (lab b).val := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, ⟨fun b => ⟨(L (ix1 b)).toNat, ?_⟩, fun b => ?_⟩⟩
  · exact real_of_test (E i) (Host.reduce_andi_all _ _ _ _ _ h1 i)
  · exact real_of_test (P i) (Host.reduce_andi_all _ _ _ _ _ h2 i)
  · exact toNat_lt_of_tests (L (ix1 b)) (Host.reduce_andi_all _ _ _ _ _ h3 (ix1 b))
      (Host.reduce_andi_all _ _ _ _ _ h4 (ix1 b))
  · show L (ix1 b) = BitVec.ofNat 32 (L (ix1 b)).toNat
    rw [BitVec.ofNat_toNat, BitVec.setWidth_eq]

end Cert.PreDecode

end
-- ==== Proof.KPieces.lean ====
/-
  What each control case of the kernel body leaves in the three carried scratch buffers and, at a
  core's last block, in the three output blocks, as pure terms of the body's loads.

  The body keeps, per row, a running maximum `m`, a running shifted sum `l` and a running label entry
  `ll`.  At a core's first block it first resets them to `−∞, 0, 0`; at every block it replaces them by
  `nextM`, `nextL`, `nextLL` of the block and the previous values; at a core's last block it also copies
  the three new values into the output blocks.
-/
import proofs.«418070_j52424370815316_1_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem

variable {F : FTy → Type} [FloatOps F]

/-- The block's scaled logits: the payload the three updates read. -/
def blockLogits (i : grid0.Coords) (x0 : Vec F S512x256 .bf16) (x1 : Vec F S512x1 .i32) (x2 : Vec F S2000x256 .f32) : FVec F S512x2000 .f32 :=
  k0_pay11 (k0_pay7 x2 x0) (k0_pay8 x2 x0) (k0_pay9 i) x1

/-- The new running maximum from the previous one `xs0`. -/
def nextM (i : grid0.Coords) (x0 : Vec F S512x256 .bf16) (x1 : Vec F S512x1 .i32) (x2 : Vec F S2000x256 .f32) (xs0 : Vec F S512x1 .f32) : FVec F S512x1 .f32 :=
  k0_pay15 (k0_pay7 x2 x0) (k0_pay8 x2 x0) (k0_pay9 i) x1 xs0

/-- The new running sum from the previous maximum `xs0` and sum `xs1`. -/
def nextL (i : grid0.Coords) (x0 : Vec F S512x256 .bf16) (x1 : Vec F S512x1 .i32) (x2 : Vec F S2000x256 .f32) (xs0 : Vec F S512x1 .f32) (xs1 : Vec F S512x1 .f32) : FVec F S512x1 .f32 :=
  k0_pay13 (k0_pay7 x2 x0) (k0_pay8 x2 x0) (k0_pay9 i) x1 xs0 xs0 xs1

/-- The new running label entry from the previous one `xs2`. -/
def nextLL (i : grid0.Coords) (x0 : Vec F S512x256 .bf16) (x1 : Vec F S512x1 .i32) (x2 : Vec F S2000x256 .f32) (xs2 : Vec F S512x1 .f32) : FVec F S512x1 .f32 :=
  k0_pay14 (k0_pay7 x2 x0) (k0_pay8 x2 x0) (k0_pay9 i) x1 xs2

/-- The two zero offsets of a whole rank-2 block, as the constant-zero function. -/
private theorem hz2 : (![0, 0] : Fin 2 → Nat) = fun _ => 0 := funext fun a => by fin_cases a <;> rfl

/-- The three zero offsets of a whole rank-3 block, as the constant-zero function. -/
private theorem hz3 : (![0, 0, 0] : Fin 3 → Nat) = fun _ => 0 := funext fun a => by fin_cases a <;> rfl

/-- A core's first block: the maximum starts from the reset value. -/
theorem sout0_A_0_eq (c : Dev nD) (i : grid0.Coords) (arg2 : Memref sig .tc .vmem S512x256 .bf16) (harg2 : arg2.IsWhole) (arg3 : Memref sig .tc .vmem S512x1 .i32) (harg3 : arg3.IsWhole) (arg4 : Memref sig .tc .vmem S2000x256 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x256 .bf16) (x1 : Vec F S512x1 .i32) (x2 : Vec F S2000x256 .f32) :
    sout0_A_0 c i arg2 harg2 arg3 harg3 arg4 harg4 arg5 harg5 arg6 harg6 arg7 harg7 arg8 harg8 arg9 harg9 arg10 harg10 hc0 hc1 x0 x1 x2 = nextM i x0 x1 x2 (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S512x1) hz2]
  unfold nextM
  simp only [View.readAt_eq_ld, harg2.read_unread, harg3.read_unread, harg4.read_unread, harg8.read_unread, harg9.read_unread, harg10.read_unread, View.ld_unit_zero (S := S512x1) hz2, View.ld_unit_zero (S := S512x256) hz2, View.ld_unit_zero (S := S2000x256) hz2, View.readCov_unit_zero (S := S512x1) _ hz2]

/-- A core's first block: the sum starts from the reset values. -/
theorem sout0_A_1_eq (c : Dev nD) (i : grid0.Coords) (arg2 : Memref sig .tc .vmem S512x256 .bf16) (harg2 : arg2.IsWhole) (arg3 : Memref sig .tc .vmem S512x1 .i32) (harg3 : arg3.IsWhole) (arg4 : Memref sig .tc .vmem S2000x256 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x256 .bf16) (x1 : Vec F S512x1 .i32) (x2 : Vec F S2000x256 .f32) :
    sout0_A_1 c i arg2 harg2 arg3 harg3 arg4 harg4 arg5 harg5 arg6 harg6 arg7 harg7 arg8 harg8 arg9 harg9 arg10 harg10 hc0 hc1 x0 x1 x2 = nextL i x0 x1 x2 (k0_pay4 (F := F)) (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S512x1) hz2]
  unfold nextL
  simp only [View.readAt_eq_ld, harg2.read_unread, harg3.read_unread, harg4.read_unread, harg8.read_unread, harg9.read_unread, harg10.read_unread, View.ld_unit_zero (S := S512x1) hz2, View.ld_unit_zero (S := S512x256) hz2, View.ld_unit_zero (S := S2000x256) hz2, View.readCov_unit_zero (S := S512x1) _ hz2]

/-- A core's first block: the label entry starts from the reset value. -/
theorem sout0_A_2_eq (c : Dev nD) (i : grid0.Coords) (arg2 : Memref sig .tc .vmem S512x256 .bf16) (harg2 : arg2.IsWhole) (arg3 : Memref sig .tc .vmem S512x1 .i32) (harg3 : arg3.IsWhole) (arg4 : Memref sig .tc .vmem S2000x256 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x256 .bf16) (x1 : Vec F S512x1 .i32) (x2 : Vec F S2000x256 .f32) :
    sout0_A_2 c i arg2 harg2 arg3 harg3 arg4 harg4 arg5 harg5 arg6 harg6 arg7 harg7 arg8 harg8 arg9 harg9 arg10 harg10 hc0 hc1 x0 x1 x2 = nextLL i x0 x1 x2 (k0_pay6 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S512x1) hz2]
  unfold nextLL
  simp only [View.readAt_eq_ld, harg2.read_unread, harg3.read_unread, harg4.read_unread, harg8.read_unread, harg9.read_unread, harg10.read_unread, View.ld_unit_zero (S := S512x1) hz2, View.ld_unit_zero (S := S512x256) hz2, View.ld_unit_zero (S := S2000x256) hz2, View.readCov_unit_zero (S := S512x1) _ hz2]

/-- A later block: the maximum over what the block before left. -/
theorem sout0_B_0_eq (c : Dev nD) (i : grid0.Coords) (arg2 : Memref sig .tc .vmem S512x256 .bf16) (harg2 : arg2.IsWhole) (arg3 : Memref sig .tc .vmem S512x1 .i32) (harg3 : arg3.IsWhole) (arg4 : Memref sig .tc .vmem S2000x256 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x256 .bf16) (x1 : Vec F S512x1 .i32) (x2 : Vec F S2000x256 .f32) (xs0 : Vec F S512x1 .f32) (xs1 : Vec F S512x1 .f32) (xs2 : Vec F S512x1 .f32) :
    sout0_B_0 c i arg2 harg2 arg3 harg3 arg4 harg4 arg5 harg5 arg6 harg6 arg7 harg7 arg8 harg8 arg9 harg9 arg10 harg10 hc0 hc1 x0 x1 x2 xs0 xs1 xs2 = nextM i x0 x1 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero (S := S512x1) hz2]
  unfold nextM
  simp only [View.readAt_eq_ld, harg2.read_unread, harg3.read_unread, harg4.read_unread, harg8.read_unread, harg9.read_unread, harg10.read_unread, View.ld_unit_zero (S := S512x1) hz2, View.ld_unit_zero (S := S512x256) hz2, View.ld_unit_zero (S := S2000x256) hz2]

/-- A later block: the sum over what the block before left. -/
theorem sout0_B_1_eq (c : Dev nD) (i : grid0.Coords) (arg2 : Memref sig .tc .vmem S512x256 .bf16) (harg2 : arg2.IsWhole) (arg3 : Memref sig .tc .vmem S512x1 .i32) (harg3 : arg3.IsWhole) (arg4 : Memref sig .tc .vmem S2000x256 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x256 .bf16) (x1 : Vec F S512x1 .i32) (x2 : Vec F S2000x256 .f32) (xs0 : Vec F S512x1 .f32) (xs1 : Vec F S512x1 .f32) (xs2 : Vec F S512x1 .f32) :
    sout0_B_1 c i arg2 harg2 arg3 harg3 arg4 harg4 arg5 harg5 arg6 harg6 arg7 harg7 arg8 harg8 arg9 harg9 arg10 harg10 hc0 hc1 x0 x1 x2 xs0 xs1 xs2 = nextL i x0 x1 x2 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero (S := S512x1) hz2]
  unfold nextL
  simp only [View.readAt_eq_ld, harg2.read_unread, harg3.read_unread, harg4.read_unread, harg8.read_unread, harg9.read_unread, harg10.read_unread, View.ld_unit_zero (S := S512x1) hz2, View.ld_unit_zero (S := S512x256) hz2, View.ld_unit_zero (S := S2000x256) hz2]

/-- A later block: the label entry over what the block before left. -/
theorem sout0_B_2_eq (c : Dev nD) (i : grid0.Coords) (arg2 : Memref sig .tc .vmem S512x256 .bf16) (harg2 : arg2.IsWhole) (arg3 : Memref sig .tc .vmem S512x1 .i32) (harg3 : arg3.IsWhole) (arg4 : Memref sig .tc .vmem S2000x256 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x256 .bf16) (x1 : Vec F S512x1 .i32) (x2 : Vec F S2000x256 .f32) (xs0 : Vec F S512x1 .f32) (xs1 : Vec F S512x1 .f32) (xs2 : Vec F S512x1 .f32) :
    sout0_B_2 c i arg2 harg2 arg3 harg3 arg4 harg4 arg5 harg5 arg6 harg6 arg7 harg7 arg8 harg8 arg9 harg9 arg10 harg10 hc0 hc1 x0 x1 x2 xs0 xs1 xs2 = nextLL i x0 x1 x2 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero (S := S512x1) hz2]
  unfold nextLL
  simp only [View.readAt_eq_ld, harg2.read_unread, harg3.read_unread, harg4.read_unread, harg8.read_unread, harg9.read_unread, harg10.read_unread, View.ld_unit_zero (S := S512x1) hz2, View.ld_unit_zero (S := S512x256) hz2, View.ld_unit_zero (S := S2000x256) hz2]

/-- A later block: the maximum over what the block before left. -/
theorem sout0_C_0_eq (c : Dev nD) (i : grid0.Coords) (arg2 : Memref sig .tc .vmem S512x256 .bf16) (harg2 : arg2.IsWhole) (arg3 : Memref sig .tc .vmem S512x1 .i32) (harg3 : arg3.IsWhole) (arg4 : Memref sig .tc .vmem S2000x256 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x256 .bf16) (x1 : Vec F S512x1 .i32) (x2 : Vec F S2000x256 .f32) (xs0 : Vec F S512x1 .f32) (xs1 : Vec F S512x1 .f32) (xs2 : Vec F S512x1 .f32) :
    sout0_C_0 c i arg2 harg2 arg3 harg3 arg4 harg4 arg5 harg5 arg6 harg6 arg7 harg7 arg8 harg8 arg9 harg9 arg10 harg10 hc0 hc1 x0 x1 x2 xs0 xs1 xs2 = nextM i x0 x1 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero (S := S512x1) hz2]
  unfold nextM
  simp only [View.readAt_eq_ld, harg2.read_unread, harg3.read_unread, harg4.read_unread, harg8.read_unread, harg9.read_unread, harg10.read_unread, View.ld_unit_zero (S := S512x1) hz2, View.ld_unit_zero (S := S512x256) hz2, View.ld_unit_zero (S := S2000x256) hz2]

/-- A later block: the sum over what the block before left. -/
theorem sout0_C_1_eq (c : Dev nD) (i : grid0.Coords) (arg2 : Memref sig .tc .vmem S512x256 .bf16) (harg2 : arg2.IsWhole) (arg3 : Memref sig .tc .vmem S512x1 .i32) (harg3 : arg3.IsWhole) (arg4 : Memref sig .tc .vmem S2000x256 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x256 .bf16) (x1 : Vec F S512x1 .i32) (x2 : Vec F S2000x256 .f32) (xs0 : Vec F S512x1 .f32) (xs1 : Vec F S512x1 .f32) (xs2 : Vec F S512x1 .f32) :
    sout0_C_1 c i arg2 harg2 arg3 harg3 arg4 harg4 arg5 harg5 arg6 harg6 arg7 harg7 arg8 harg8 arg9 harg9 arg10 harg10 hc0 hc1 x0 x1 x2 xs0 xs1 xs2 = nextL i x0 x1 x2 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero (S := S512x1) hz2]
  unfold nextL
  simp only [View.readAt_eq_ld, harg2.read_unread, harg3.read_unread, harg4.read_unread, harg8.read_unread, harg9.read_unread, harg10.read_unread, View.ld_unit_zero (S := S512x1) hz2, View.ld_unit_zero (S := S512x256) hz2, View.ld_unit_zero (S := S2000x256) hz2]

/-- A later block: the label entry over what the block before left. -/
theorem sout0_C_2_eq (c : Dev nD) (i : grid0.Coords) (arg2 : Memref sig .tc .vmem S512x256 .bf16) (harg2 : arg2.IsWhole) (arg3 : Memref sig .tc .vmem S512x1 .i32) (harg3 : arg3.IsWhole) (arg4 : Memref sig .tc .vmem S2000x256 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x256 .bf16) (x1 : Vec F S512x1 .i32) (x2 : Vec F S2000x256 .f32) (xs0 : Vec F S512x1 .f32) (xs1 : Vec F S512x1 .f32) (xs2 : Vec F S512x1 .f32) :
    sout0_C_2 c i arg2 harg2 arg3 harg3 arg4 harg4 arg5 harg5 arg6 harg6 arg7 harg7 arg8 harg8 arg9 harg9 arg10 harg10 hc0 hc1 x0 x1 x2 xs0 xs1 xs2 = nextLL i x0 x1 x2 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero (S := S512x1) hz2]
  unfold nextLL
  simp only [View.readAt_eq_ld, harg2.read_unread, harg3.read_unread, harg4.read_unread, harg8.read_unread, harg9.read_unread, harg10.read_unread, View.ld_unit_zero (S := S512x1) hz2, View.ld_unit_zero (S := S512x256) hz2, View.ld_unit_zero (S := S2000x256) hz2]

/-- A core's last block: output 3 is the new maximum, re-laid as 1×512×1. -/
theorem out0_C_3_eq (c : Dev nD) (i : grid0.Coords) (arg2 : Memref sig .tc .vmem S512x256 .bf16) (harg2 : arg2.IsWhole) (arg3 : Memref sig .tc .vmem S512x1 .i32) (harg3 : arg3.IsWhole) (arg4 : Memref sig .tc .vmem S2000x256 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x256 .bf16) (x1 : Vec F S512x1 .i32) (x2 : Vec F S2000x256 .f32) (xs0 : Vec F S512x1 .f32) (xs1 : Vec F S512x1 .f32) (xs2 : Vec F S512x1 .f32) :
    out0_C_3 c i arg2 harg2 arg3 harg3 arg4 harg4 arg5 harg5 arg6 harg6 arg7 harg7 arg8 harg8 arg9 harg9 arg10 harg10 hc0 hc1 x0 x1 x2 xs0 xs1 xs2 = k0_pay1 (nextM i x0 x1 x2 xs0) := by
  unfold out0_C_3
  rw [View.read_writes_eq_canon _ _ _ (cover0_C_3 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero (S := S1x512x1) hz3]
  unfold nextM
  simp only [View.readAt_eq_ld, harg2.read_unread, harg3.read_unread, harg4.read_unread, harg8.read_unread, harg9.read_unread, harg10.read_unread, View.ld_unit_zero (S := S512x1) hz2, View.ld_unit_zero (S := S512x256) hz2, View.ld_unit_zero (S := S2000x256) hz2, View.readCov_unit_zero (S := S512x1) _ hz2]

/-- A core's last block: output 4 is the new sum, re-laid as 1×512×1. -/
theorem out0_C_4_eq (c : Dev nD) (i : grid0.Coords) (arg2 : Memref sig .tc .vmem S512x256 .bf16) (harg2 : arg2.IsWhole) (arg3 : Memref sig .tc .vmem S512x1 .i32) (harg3 : arg3.IsWhole) (arg4 : Memref sig .tc .vmem S2000x256 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x256 .bf16) (x1 : Vec F S512x1 .i32) (x2 : Vec F S2000x256 .f32) (xs0 : Vec F S512x1 .f32) (xs1 : Vec F S512x1 .f32) (xs2 : Vec F S512x1 .f32) :
    out0_C_4 c i arg2 harg2 arg3 harg3 arg4 harg4 arg5 harg5 arg6 harg6 arg7 harg7 arg8 harg8 arg9 harg9 arg10 harg10 hc0 hc1 x0 x1 x2 xs0 xs1 xs2 = k0_pay2 (nextL i x0 x1 x2 xs0 xs1) := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero (S := S1x512x1) hz3]
  unfold nextL
  simp only [View.readAt_eq_ld, harg2.read_unread, harg3.read_unread, harg4.read_unread, harg8.read_unread, harg9.read_unread, harg10.read_unread, View.ld_unit_zero (S := S512x1) hz2, View.ld_unit_zero (S := S512x256) hz2, View.ld_unit_zero (S := S2000x256) hz2, View.readCov_unit_zero (S := S512x1) _ hz2]

/-- A core's last block: output 5 is the new label entry, re-laid as 1×512×1. -/
theorem out0_C_5_eq (c : Dev nD) (i : grid0.Coords) (arg2 : Memref sig .tc .vmem S512x256 .bf16) (harg2 : arg2.IsWhole) (arg3 : Memref sig .tc .vmem S512x1 .i32) (harg3 : arg3.IsWhole) (arg4 : Memref sig .tc .vmem S2000x256 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x256 .bf16) (x1 : Vec F S512x1 .i32) (x2 : Vec F S2000x256 .f32) (xs0 : Vec F S512x1 .f32) (xs1 : Vec F S512x1 .f32) (xs2 : Vec F S512x1 .f32) :
    out0_C_5 c i arg2 harg2 arg3 harg3 arg4 harg4 arg5 harg5 arg6 harg6 arg7 harg7 arg8 harg8 arg9 harg9 arg10 harg10 hc0 hc1 x0 x1 x2 xs0 xs1 xs2 = k0_pay3 (nextLL i x0 x1 x2 xs2) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero (S := S1x512x1) hz3]
  unfold nextLL
  simp only [View.readAt_eq_ld, harg2.read_unread, harg3.read_unread, harg4.read_unread, harg8.read_unread, harg9.read_unread, harg10.read_unread, View.ld_unit_zero (S := S512x1) hz2, View.ld_unit_zero (S := S512x256) hz2, View.ld_unit_zero (S := S2000x256) hz2, View.readCov_unit_zero (S := S512x1) _ hz2]

end Cert.KernelIdeal.Pieces

end
-- ==== Proof.KPayload.lean ====
/-
  The kernel body's payloads read at an index, at the ideal instance.

  For a block with grid coordinates `i = (core, j)`, entry `k` of the block is column
  `colOf i k = (core · 25 + j) · 2000 + k`.  Row `b` of the block's logits is, at `k`, the margin form of
  the cosine where the row's label equals that column and the cosine elsewhere, scaled; the cosine is
  the inner product of row `b` of the (already normalised) embeddings block with the normalised row `k`
  of the prototypes block.  The three updates are the stream's steps of the specification, row by row.
-/
import proofs.«418070_j52424370815316_1_alg».proof.Proof.KPieces
import proofs.«418070_j52424370815316_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pieces

open Cert.KernelIdeal Cert.KernelIdeal.Gen Cert.Margin
open Idealize.ShloMosaic Idealize.ShloMosaic.TcCoe Idealize.ShloMosaic.ValueIdx
open scoped BigOperators

/-- The column of entry `k` of the block at grid coordinates `i`. -/
def colOf (i : grid0.Coords) (k : Fin 2000) : ℕ := ((i 0).val * 25 + (i 1).val) * 2000 + k.val

/-- The cosine of row `b` against entry `k` of the prototypes block. -/
def blockCos (x0 : S512x256.Idx → EReal) (x2 : S2000x256.Idx → EReal) (b : Fin 512) (k : Fin 2000) : EReal :=
  ∑ d : Fin 256, x0 (ix2 b d) * unit x2 k d

/-! ## Layout operations and a select read at an index -/

section Layout
variable {α : Type}

/-- An `[a]` array cast to `[a, 1]` reads, at `(i, u)`, the operand at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
private theorem broadcastTo_a1_ab_apply {a b : ℕ} (ha : a ≠ 1) (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ => rfl

/-- A select on the equality of two words is the `if` on that equality. -/
private theorem select_cmpi_eq (x y : BitVec 32) (A B : α) :
    Scalar.select (IntOp.cmpi .eq x y) A B = if x = y then A else B := by
  unfold Scalar.select IntOp.cmpi
  by_cases h : x = y
  · simp [h]
  · have hb : (x == y) = false := beq_eq_false_iff_ne.mpr h
    simp [h, hb]

end Layout

/-! ## The lane reductions of a block -/

/-- The sum of squares of row `k` of the prototypes block. -/
private theorem rowSq_apply (x2 : S2000x256.Idx → EReal) (k : Fin 2000) :
    multiReduction (F := Ideal) (φ := .f32) .add [1] S2000 (mulf (F := Ideal) (φ := .f32) x2 x2) 0x00000000#32
        reduces_S2000x256_S2000 (.inl rfl) rfl (ix1 k)
      = ∑ d : Fin 256, x2 (ix2 k d) * x2 (ix2 k d) := by
  refine (Ideal.multiReduction_add_single (φ := .f32) _ _ reduces_S2000x256_S2000 (.inl rfl) rfl (ix1 k)).trans ?_
  refine Finset.sum_congr rfl fun d _ => ?_
  have e : reduces_S2000x256_S2000.lift (ix1 k) d = ix2 k d :=
    funext fun a => Fin.ext (by match a with | ⟨0, _⟩ => rfl | ⟨1, _⟩ => rfl)
  rw [e]
  rfl

/-- The maximum over the entries of row `b` of a block. -/
private theorem laneMax_apply (src : S512x2000.Idx → EReal) (b : Fin 512) :
    multiReduction (F := Ideal) (φ := .f32) .maximumf [1] S512 src 0xFF800000#32 reduces_S512x2000_S512 (.inl rfl) rfl (ix1 b)
      = rmax ⊥ (fun k : Fin 2000 => src (ix2 b k)) := by
  refine (Ideal.multiReduction_maximumf_single (φ := .f32) src _ reduces_S512x2000_S512 (.inl rfl) rfl (ix1 b)).trans ?_
  unfold rmax
  have e : (src ∘ reduces_S512x2000_S512.lift (ix1 b)) = fun k : Fin 2000 => src (ix2 b k) :=
    funext fun k => congrArg src (funext fun a => Fin.ext (by match a with | ⟨0, _⟩ => rfl | ⟨1, _⟩ => rfl))
  have e0 : FloatOps.ofBits (F := Ideal) .f32 0xFF800000#32 = (⊥ : EReal) := by
    show Ideal.ofBits .f32 0xFF800000#32 = ⊥
    simp [Ideal.ofBits, Ideal.ieee]
  exact congrArg₂ (fun a f => Finset.fold max a f (Finset.univ : Finset (Fin 2000))) e0 e

/-- The sum over the entries of row `b` of a block. -/
private theorem laneSum_apply (src : S512x2000.Idx → EReal) (b : Fin 512) :
    multiReduction (F := Ideal) (φ := .f32) .add [1] S512 src 0x00000000#32 reduces_S512x2000_S512 (.inl rfl) rfl (ix1 b)
      = ∑ k : Fin 2000, src (ix2 b k) := by
  refine (Ideal.multiReduction_add_single (φ := .f32) src _ reduces_S512x2000_S512 (.inl rfl) rfl (ix1 b)).trans ?_
  refine Finset.sum_congr rfl fun k _ => ?_
  exact congrArg src (funext fun a => Fin.ext (by match a with | ⟨0, _⟩ => rfl | ⟨1, _⟩ => rfl))

/-! ## The product of the two blocks -/

private theorem lhs_dot_S512x256_S256x2000_S512x2000_1_0_0_1_n_n_0 (i : S512x2000.Idx) (q : dot_S512x256_S256x2000_S512x2000_1_0_0_1_n_n.contr.Idx) :
    (dot_S512x256_S256x2000_S512x2000_1_0_0_1_n_n.lhsIdx i q 0).val = (i 0).val := by
  unfold DotDims.lhsIdx
  rw [dif_neg (show ¬(0 : Fin S512x256.rank) ∈ dot_S512x256_S256x2000_S512x2000_1_0_0_1_n_n.lhsBatch by decide), dif_pos (show (0 : Fin S512x256.rank) ∈ dot_S512x256_S256x2000_S512x2000_1_0_0_1_n_n.lhsNonContracting by decide)]
  rfl
private theorem lhs_dot_S512x256_S256x2000_S512x2000_1_0_0_1_n_n_1 (i : S512x2000.Idx) (q : dot_S512x256_S256x2000_S512x2000_1_0_0_1_n_n.contr.Idx) :
    (dot_S512x256_S256x2000_S512x2000_1_0_0_1_n_n.lhsIdx i q 1).val = (q ⟨0, by decide⟩).val :=
  dot_S512x256_S256x2000_S512x2000_1_0_0_1_n_n.lhsIdx_val_of_single rfl i q
private theorem rhs_dot_S512x256_S256x2000_S512x2000_1_0_0_1_n_n_0 (i : S512x2000.Idx) (q : dot_S512x256_S256x2000_S512x2000_1_0_0_1_n_n.contr.Idx) :
    (dot_S512x256_S256x2000_S512x2000_1_0_0_1_n_n.rhsIdx i q 0).val = (q ⟨0, by decide⟩).val :=
  dot_S512x256_S256x2000_S512x2000_1_0_0_1_n_n.rhsIdx_val_of_single rfl i q
private theorem rhs_dot_S512x256_S256x2000_S512x2000_1_0_0_1_n_n_1 (i : S512x2000.Idx) (q : dot_S512x256_S256x2000_S512x2000_1_0_0_1_n_n.contr.Idx) :
    (dot_S512x256_S256x2000_S512x2000_1_0_0_1_n_n.rhsIdx i q 1).val = (i 1).val := by
  unfold DotDims.rhsIdx
  rw [dif_neg (show ¬(1 : Fin S256x2000.rank) ∈ dot_S512x256_S256x2000_S512x2000_1_0_0_1_n_n.rhsBatch by decide), dif_pos (show (1 : Fin S256x2000.rank) ∈ dot_S512x256_S256x2000_S512x2000_1_0_0_1_n_n.rhsNonContracting by decide)]
  rfl

/-- The product into a zero accumulator, at row `b` and entry `k`: the sum over the common axis. -/
private theorem matmul_read (L : S512x256.Idx → EReal) (R : S256x2000.Idx → EReal) (b : Fin 512) (k : Fin 2000) :
    matmul (F := Ideal) (φ₁ := .bf16) (φ₂ := .bf16) dot_S512x256_S256x2000_S512x2000_1_0_0_1_n_n none L R (constant S512x2000 .f32 0x00000000#32) (ix2 b k)
      = ∑ d : Fin 256, L (ix2 b d) * R (ix2 d k) := by
  refine (Ideal.matmul_constant_zero_apply (φ₁ := .bf16) (φ₂ := .bf16) dot_S512x256_S256x2000_S512x2000_1_0_0_1_n_n none L R (ix2 b k)).trans ?_
  rw [← Equiv.sum_comp (contrEquiv1 dot_S512x256_S256x2000_S512x2000_1_0_0_1_n_n 256 rfl rfl).symm]
  refine Finset.sum_congr rfl fun d _ => ?_
  have hk := contrEquiv1_symm_val dot_S512x256_S256x2000_S512x2000_1_0_0_1_n_n 256 rfl rfl d
  have el : dot_S512x256_S256x2000_S512x2000_1_0_0_1_n_n.lhsIdx (ix2 b k) ((contrEquiv1 dot_S512x256_S256x2000_S512x2000_1_0_0_1_n_n 256 rfl rfl).symm d) = ix2 b d := funext fun a => Fin.ext (by
    match a with
    | ⟨0, _⟩ => exact lhs_dot_S512x256_S256x2000_S512x2000_1_0_0_1_n_n_0 _ _
    | ⟨1, _⟩ => exact (lhs_dot_S512x256_S256x2000_S512x2000_1_0_0_1_n_n_1 _ _).trans hk)
  have er : dot_S512x256_S256x2000_S512x2000_1_0_0_1_n_n.rhsIdx (ix2 b k) ((contrEquiv1 dot_S512x256_S256x2000_S512x2000_1_0_0_1_n_n 256 rfl rfl).symm d) = ix2 d k := funext fun a => Fin.ext (by
    match a with
    | ⟨0, _⟩ => exact (rhs_dot_S512x256_S256x2000_S512x2000_1_0_0_1_n_n_0 _ _).trans hk
    | ⟨1, _⟩ => exact rhs_dot_S512x256_S256x2000_S512x2000_1_0_0_1_n_n_1 _ _)
  rw [el, er]

/-! ## The block's cosines, their margin form, the columns and the label's mask -/

/-- The guarded norm of row `k` of the prototypes block, as the body computes its column. -/
private theorem normCol_apply (x2 : S2000x256.Idx → EReal) (k : Fin 2000) :
    maximumf (F := Ideal) (φ := .f32)
        (sqrt (shapeCast S2000x1
          (multiReduction (F := Ideal) (φ := .f32) .add [1] S2000 (mulf (F := Ideal) (φ := .f32) x2 x2) 0x00000000#32
            reduces_S2000x256_S2000 (.inl rfl) rfl) shapeCasts_S2000_S2000x1))
        (broadcast S2000x1 (Scalar.ofBits .f32 0x2B8CBCCC#32)) (ix2 k (0 : Fin 1))
      = rowNorm x2 k := by
  unfold rowNorm eps12
  show max (Ideal.sqrt (shapeCast S2000x1 _ shapeCasts_S2000_S2000x1 (ix2 k (0 : Fin 1)))) (Ideal.ofBits .f32 0x2B8CBCCC#32) = _
  refine congrArg (fun z => max (Ideal.sqrt z) (Ideal.ofBits .f32 0x2B8CBCCC#32)) ?_
  refine (shapeCast_a_a1_apply _ _ k 0).trans ?_
  exact rowSq_apply x2 k

/-- The product of the body at row `b`, entry `k`: the cosine. -/
private theorem pay7_apply (x0 : S512x256.Idx → EReal) (x2 : S2000x256.Idx → EReal) (b : Fin 512) (k : Fin 2000) :
    k0_pay7 (F := Ideal) x2 x0 (ix2 b k) = blockCos x0 x2 b k := by
  unfold k0_pay7 blockCos
  refine (matmul_read _ _ b k).trans ?_
  refine Finset.sum_congr rfl fun d _ => ?_
  refine congrArg₂ (· * ·) (congrFun (shapeCast_self x0 _) _) ?_
  refine (transpose_ix2_apply _ _ d k).trans ?_
  unfold unit
  show Ideal.div (x2 (ix2 k d)) (broadcastTo S2000x256 _ broadcasts_S2000x1_S2000x256 (ix2 k d)) = _
  refine congrArg (Ideal.div (x2 (ix2 k d))) ?_
  refine (broadcastTo_a1_ab_apply (by decide) _ _ k d).trans ?_
  exact normCol_apply x2 k

/-- The margin form the body computes at row `b`, entry `k`. -/
private theorem pay8_apply (x0 : S512x256.Idx → EReal) (x2 : S2000x256.Idx → EReal) (b : Fin 512) (k : Fin 2000) :
    k0_pay8 (F := Ideal) x2 x0 (ix2 b k) = phi (blockCos x0 x2 b k) := by
  unfold k0_pay8
  show phi (k0_pay7 (F := Ideal) x2 x0 (ix2 b k)) = _
  rw [pay7_apply]

/-- The column the body computes at entry `k`, in 32-bit arithmetic. -/
private theorem pay9_apply (i : grid0.Coords) (b : Fin 512) (k : Fin 2000) :
    k0_pay9 i (ix2 b k) = BitVec.ofNat 32 (colOf i k) := by
  unfold k0_pay9 colOf
  show (BitVec.ofNat 32 (i 0).val * 25#32 + BitVec.ofNat 32 (i 1).val) * 2000#32
      + iota .tc S512x2000 32 [1] iota_S512x2000_d1_w32 (ix2 b k) = _
  rw [iota_single_apply, BitVec.ofNat_add, BitVec.ofNat_mul, BitVec.ofNat_add, BitVec.ofNat_mul]

/-- The label's mask at row `b`, entry `k`. -/
private theorem pay10_apply (v37 : IVec S512x2000 32) (x1 : S512x1.Idx → BitVec 32) (b : Fin 512) (k : Fin 2000) :
    k0_pay10 (F := Ideal) v37 x1 (ix2 b k) = IntOp.cmpi .eq (x1 (ix2 b (0 : Fin 1))) (v37 (ix2 b k)) := by
  unfold k0_pay10
  show IntOp.cmpi .eq (broadcastTo S512x2000 (shapeCast S512x1 x1 shapeCasts_S512x1_S512x1) broadcasts_S512x1_S512x2000 (ix2 b k)) (v37 (ix2 b k)) = _
  rw [shapeCast_self, broadcastTo_a1_ab_apply (by decide)]

/-- The block's logits at row `b`, entry `k`. -/
theorem blockLogits_apply (i : grid0.Coords) (x0 : S512x256.Idx → EReal) (x1 : S512x1.Idx → BitVec 32)
    (x2 : S2000x256.Idx → EReal) (b : Fin 512) (k : Fin 2000) :
    blockLogits (F := Ideal) i x0 x1 x2 (ix2 b k)
      = (if x1 (ix2 b (0 : Fin 1)) = BitVec.ofNat 32 (colOf i k) then phi (blockCos x0 x2 b k) else blockCos x0 x2 b k) * scale := by
  unfold blockLogits k0_pay11
  show Scalar.select (k0_pay10 (F := Ideal) (k0_pay9 i) x1 (ix2 b k)) (k0_pay8 (F := Ideal) x2 x0 (ix2 b k))
      (k0_pay7 (F := Ideal) x2 x0 (ix2 b k)) * Ideal.ofBits .f32 0x42800000#32 = _
  rw [pay10_apply, pay9_apply, select_cmpi_eq, pay8_apply, pay7_apply]
  rfl

/-! ## The three updates -/

/-- An exponential at an index is the exponential of the element. -/
private theorem exp_apply {s : Shape} {φ : FTy} (a : FVec Ideal s φ) (i : s.Idx) : exp a i = Ideal.exp (a i) := rfl

/-- The running maximum the body computes, at row `b`, from any logits. -/
private theorem pay12_read (v16 v31 : S512x2000.Idx → EReal) (v37 : IVec S512x2000 32) (x1 : S512x1.Idx → BitVec 32)
    (xs0 : S512x1.Idx → EReal) (b : Fin 512) :
    k0_pay12 (F := Ideal) v16 v31 v37 x1 xs0 (ix2 b (0 : Fin 1))
      = stepM (xs0 (ix2 b (0 : Fin 1))) (fun k : Fin 2000 => k0_pay11 (F := Ideal) v16 v31 v37 x1 (ix2 b k)) := by
  refine (maximumf_apply (φ := .f32) xs0 _ (ix2 b (0 : Fin 1))).trans ?_
  refine congrArg (max (xs0 (ix2 b (0 : Fin 1)))) ?_
  refine (shapeCast_a_a1_apply _ _ b 0).trans ?_
  exact laneMax_apply _ b

/-- The running sum the body computes, at row `b`, from any logits. -/
private theorem pay13_read (v16 v31 : S512x2000.Idx → EReal) (v37 : IVec S512x2000 32) (x1 : S512x1.Idx → BitVec 32)
    (xs0 xs1 : S512x1.Idx → EReal) (b : Fin 512) :
    k0_pay13 (F := Ideal) v16 v31 v37 x1 xs0 xs0 xs1 (ix2 b (0 : Fin 1))
      = stepL (xs0 (ix2 b (0 : Fin 1))) (xs1 (ix2 b (0 : Fin 1)))
          (fun k : Fin 2000 => k0_pay11 (F := Ideal) v16 v31 v37 x1 (ix2 b k)) := by
  unfold k0_pay13
  refine (congrFun (shapeCast_self (α := EReal) _ shapeCasts_S512x1_S512x1) (ix2 b (0 : Fin 1))).trans ?_
  refine (addf_apply (φ := .f32) _ _ _).trans ?_
  unfold stepL
  refine congrArg₂ (· + ·) ?_ ?_
  · refine (mulf_apply (φ := .f32) _ _ _).trans ?_
    refine congrArg (xs1 (ix2 b (0 : Fin 1)) * ·) ?_
    refine (exp_apply (φ := .f32) _ _).trans ?_
    refine congrArg Ideal.exp ?_
    refine (subf_apply (φ := .f32) _ _ _).trans ?_
    refine congrArg (xs0 (ix2 b (0 : Fin 1)) - ·) ?_
    exact pay12_read v16 v31 v37 x1 xs0 b
  · refine (shapeCast_a_a1_apply _ _ b 0).trans ?_
    refine (laneSum_apply _ b).trans ?_
    refine Finset.sum_congr rfl fun k _ => ?_
    refine (exp_apply (φ := .f32) _ _).trans ?_
    refine congrArg Ideal.exp ?_
    refine (subf_apply (φ := .f32) _ _ _).trans ?_
    refine congrArg (k0_pay11 (F := Ideal) v16 v31 v37 x1 (ix2 b k) - ·) ?_
    refine (broadcastTo_a1_ab_apply (by decide) _ _ b k).trans ?_
    exact pay12_read v16 v31 v37 x1 xs0 b

/-- The running label entry the body computes, at row `b`, from any logits and any columns. -/
private theorem pay14_read (v16 v31 : S512x2000.Idx → EReal) (v37 : IVec S512x2000 32) (x1 : S512x1.Idx → BitVec 32)
    (xs2 : S512x1.Idx → EReal) (b : Fin 512) :
    k0_pay14 (F := Ideal) v16 v31 v37 x1 xs2 (ix2 b (0 : Fin 1))
      = xs2 (ix2 b (0 : Fin 1)) + ∑ k : Fin 2000,
          Scalar.select (k0_pay10 (F := Ideal) v37 x1 (ix2 b k)) (k0_pay11 (F := Ideal) v16 v31 v37 x1 (ix2 b k)) (0 : EReal) := by
  unfold k0_pay14
  refine (congrFun (shapeCast_self (α := EReal) _ shapeCasts_S512x1_S512x1) (ix2 b (0 : Fin 1))).trans ?_
  refine (addf_apply (φ := .f32) _ _ _).trans ?_
  refine congrArg (xs2 (ix2 b (0 : Fin 1)) + ·) ?_
  refine (shapeCast_a_a1_apply _ _ b 0).trans ?_
  refine (laneSum_apply _ b).trans ?_
  refine Finset.sum_congr rfl fun k _ => ?_
  refine (select_apply _ _ _ _).trans ?_
  exact congrArg (Scalar.select _ _) Ideal.ofBits_zero_f32

/-- The new maximum of row `b`. -/
theorem nextM_apply (i : grid0.Coords) (x0 : S512x256.Idx → EReal) (x1 : S512x1.Idx → BitVec 32)
    (x2 : S2000x256.Idx → EReal) (xs0 : S512x1.Idx → EReal) (b : Fin 512) :
    nextM (F := Ideal) i x0 x1 x2 xs0 (ix2 b (0 : Fin 1))
      = stepM (xs0 (ix2 b (0 : Fin 1))) (fun k : Fin 2000 => blockLogits (F := Ideal) i x0 x1 x2 (ix2 b k)) := by
  refine (congrFun (shapeCast_self (k0_pay12 (F := Ideal) (k0_pay7 x2 x0) (k0_pay8 x2 x0) (k0_pay9 i) x1 xs0)
    shapeCasts_S512x1_S512x1) _).trans ?_
  exact pay12_read _ _ _ x1 xs0 b

/-- The new sum of row `b`. -/
theorem nextL_apply (i : grid0.Coords) (x0 : S512x256.Idx → EReal) (x1 : S512x1.Idx → BitVec 32)
    (x2 : S2000x256.Idx → EReal) (xs0 xs1 : S512x1.Idx → EReal) (b : Fin 512) :
    nextL (F := Ideal) i x0 x1 x2 xs0 xs1 (ix2 b (0 : Fin 1))
      = stepL (xs0 (ix2 b (0 : Fin 1))) (xs1 (ix2 b (0 : Fin 1)))
          (fun k : Fin 2000 => blockLogits (F := Ideal) i x0 x1 x2 (ix2 b k)) :=
  pay13_read _ _ _ x1 xs0 xs1 b

/-- The new label entry of row `b`. -/
theorem nextLL_apply (i : grid0.Coords) (x0 : S512x256.Idx → EReal) (x1 : S512x1.Idx → BitVec 32)
    (x2 : S2000x256.Idx → EReal) (xs2 : S512x1.Idx → EReal) (b : Fin 512) :
    nextLL (F := Ideal) i x0 x1 x2 xs2 (ix2 b (0 : Fin 1))
      = stepLL (xs2 (ix2 b (0 : Fin 1))) (fun k : Fin 2000 => blockLogits (F := Ideal) i x0 x1 x2 (ix2 b k))
          (fun k : Fin 2000 => x1 (ix2 b (0 : Fin 1)) = BitVec.ofNat 32 (colOf i k)) := by
  refine (pay14_read (k0_pay7 (F := Ideal) x2 x0) (k0_pay8 (F := Ideal) x2 x0) (k0_pay9 i) x1 xs2 b).trans ?_
  unfold stepLL
  refine congrArg (xs2 (ix2 b (0 : Fin 1)) + ·) (Finset.sum_congr rfl fun k _ => ?_)
  rw [pay10_apply, pay9_apply, select_cmpi_eq]
  rfl

/-! ## The reset values and the re-layings of the outputs -/

/-- The reset values: `−∞` for the maximum, zero for the sum and for the label entry. -/
theorem pay4_apply (j : S512x1.Idx) : k0_pay4 (F := Ideal) j = (⊥ : EReal) := by
  unfold k0_pay4
  rw [shapeCast_self]
  show Ideal.ofBits .f32 0xFF800000#32 = ⊥
  simp [Ideal.ofBits, Ideal.ieee]
theorem pay5_apply (j : S512x1.Idx) : k0_pay5 (F := Ideal) j = (0 : EReal) := by
  unfold k0_pay5
  rw [shapeCast_self]
  exact Ideal.ofBits_zero_f32
theorem pay6_apply (j : S512x1.Idx) : k0_pay6 (F := Ideal) j = (0 : EReal) := by
  unfold k0_pay6
  rw [shapeCast_self]
  exact Ideal.ofBits_zero_f32

/-- The three re-layings 512×1 → 1×512×1 read at an index. -/
theorem pay1_apply (v : S512x1.Idx → EReal) (b : Fin 512) :
    k0_pay1 (F := Ideal) v (ix3 (0 : Fin 1) b (0 : Fin 1)) = v (ix2 b (0 : Fin 1)) := by
  unfold k0_pay1
  exact shapeCast_ab_1ab_apply v _ 0 b 0
theorem pay2_apply (v : S512x1.Idx → EReal) (b : Fin 512) :
    k0_pay2 (F := Ideal) v (ix3 (0 : Fin 1) b (0 : Fin 1)) = v (ix2 b (0 : Fin 1)) := by
  unfold k0_pay2
  exact shapeCast_ab_1ab_apply v _ 0 b 0
theorem pay3_apply (v : S512x1.Idx → EReal) (b : Fin 512) :
    k0_pay3 (F := Ideal) v (ix3 (0 : Fin 1) b (0 : Fin 1)) = v (ix2 b (0 : Fin 1)) := by
  unfold k0_pay3
  exact shapeCast_ab_1ab_apply v _ 0 b 0

end Cert.KernelIdeal.Pieces

end
-- ==== Proof.KInputs.lean ====
/-
  The three input blocks of the kernel at a grid point, in terms of the program's argument arrays.

  Before the kernel runs, the host normalises each row of the embeddings (divides it by its guarded
  Euclidean norm; the later change of float format is the identity on the extended reals) and re-lays
  the labels as a column.  The kernel's first window is that whole normalised array at every grid point,
  its second the whole label column, and its third, at grid point `t` (row-major: core `t / 25`, step
  `t % 25`), the block of 2000 prototype rows starting at row `2000 · t`.
-/
import proofs.«418070_j52424370815316_1_alg».proof.Proof.Gen.KernelIdeal.Frame
import proofs.«418070_j52424370815316_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Inputs

open Cert.KernelIdeal Cert.KernelIdeal.Gen Cert.Margin
open Idealize.ShloMosaic Idealize.ShloMosaic.TcCoe Idealize.ShloMosaic.ValueIdx Idealize.SL.Sem
open scoped BigOperators

variable (m : (ℓ : Loc nD τ sig) → Buf (Elt Ideal) ℓ)

/-- The embeddings as launched, on core `c`. -/
abbrev embArr (c : Dev nD) : S512x256.Idx → EReal := m ((c : Thread nD τ).loc main_arg0)
/-- The labels as launched. -/
abbrev labArr (c : Dev nD) : S512.Idx → BitVec 32 := m ((c : Thread nD τ).loc main_arg1)
/-- The prototypes as launched. -/
abbrev protoArr (c : Dev nD) : S100000x256.Idx → EReal := m ((c : Thread nD τ).loc main_arg2)

/-- The first window's block at point `t`, at its literal type. -/
abbrev blk0 (c : Dev nD) (t : Fin cfg0.N) : S512x256.Idx → EReal := iblk m c 0 t
/-- The second window's block at point `t`. -/
abbrev blk1 (c : Dev nD) (t : Fin cfg0.N) : S512x1.Idx → BitVec 32 := iblk m c 1 t
/-- The third window's block at point `t`. -/
abbrev blk2 (c : Dev nD) (t : Fin cfg0.N) : S2000x256.Idx → EReal := iblk m c 2 t

/-- The grid has fifty points, so a row of block `t` is a row of the prototypes. -/
theorem row_lt (t : Fin cfg0.N) (r : Fin 2000) : t.val * 2000 + r.val < 100000 := by
  have h := t.isLt
  have hN : cfg0.N = 50 := N_0
  omega

/-- The first window's index map is constantly (0, 0): its block is the whole array at every point. -/
private theorem idx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

/-- The second window's index map is constantly (0, 0) too. -/
private theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- The third window's block index at point t is (t, 0): core · 25 + step is the point's row-major position. -/
private theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- The embeddings as a vector of extended reals. -/
private abbrev embVec (c : Dev nD) : FVec Ideal S512x256 .f32 := embArr m c

/-- The sum of squares of each row of the embeddings, as the host takes it: from zero, over the 256 columns. -/
private abbrev sqSum (c : Dev nD) : FVec Ideal S512 .f32 :=
  Host.reduceAdd (mulf (embVec m c) (embVec m c)) (constant (F := Ideal) S_ .f32 0x00000000#32)
    Facts₀.reducesTo_S512x256_S512_d1 Facts₀.h_S_

/-- The guarded norms as a column: the square root of each row's sum of squares, and the guard under it. -/
private abbrev normCol (c : Dev nD) : FVec Ideal S512x1 .f32 :=
  maximumf
    (Host.sqrt (broadcastInDim S512x1 ![0] Facts₀.bcast_S512_S512x1_0 (sqSum m c)))
    (broadcastInDim S512x1 ![] Facts₀.bcast_S_S512x1 (constant (F := Ideal) S_ .f32 0x2B8CBCCC#32))

/-- The array under the first window when the kernel starts: the embeddings divided, entry by entry, by the column of
    guarded norms spread along the rows (the change of float format on top is the identity). -/
private theorem V_v8 (c : Dev nD) : (V m c main_v8 : S512x256.Idx → EReal)
    = (truncf .bf16 (Host.divf (embVec m c)
        (broadcastInDim S512x256 ![0, 1] Facts₀.bcast_S512x1_S512x256_0_1 (normCol m c)))
        Facts₀.bitsLt_bf16_f32 : FVec Ideal S512x256 .bf16) := by
  show StableHlo.after hostOps0 (fun b => m (c, b)) (Proc.devRef .tc main_v8) = _
  after_results

/-- The array under the second window when the kernel starts: the labels re-laid as a column. -/
private theorem V_v9 (c : Dev nD) : (V m c main_v9 : S512x1.Idx → BitVec 32)
    = shapeCast S512x1 (labArr m c) Facts₀.shapeCasts_S512_S512x1 := by
  show StableHlo.after hostOps0 (fun b => m (c, b)) (Proc.devRef .tc main_v9) = _
  after_results
  rfl

/-- Row b's sum of squares is the sum over d of E (b, d) squared: the initial value is zero, and the index over b with
    column d inserted is (b, d). -/
private theorem sqSum_apply (c : Dev nD) (b : Fin 512) :
    sqSum m c (ix1 b) = ∑ d : Fin 256, embArr m c (ix2 b d) * embArr m c (ix2 b d) := by
  have h : S512x256.Reduces [1] S512 := by decide
  show Ideal.hostReduceAdd Facts₀.reducesTo_S512x256_S512_d1 (mulf (embVec m c) (embVec m c))
      (Ideal.ofBits .f32 0x00000000#32) (ix1 b) = _
  rw [Ideal.hostReduceAdd_single _ h, Ideal.ofBits_zero_f32, zero_add]
  show ∑ k : Fin 256, mulf (embVec m c) (embVec m c) (h.lift (ix1 b) k) = _
  refine Finset.sum_congr rfl fun k _ => ?_
  have hk : h.lift (ix1 b) k = ix2 b k := by
    funext a; apply Fin.ext
    match a with
    | ⟨0, _⟩ => rfl
    | ⟨1, _⟩ => rfl
  rw [hk]; rfl

/-- Entry b of the column of guarded norms is the specification's guarded norm of row b. -/
private theorem normCol_apply (c : Dev nD) (b : Fin 512) :
    normCol m c (ix2 b (0 : Fin 1)) = rowNorm (embArr m c) b := by
  unfold rowNorm eps12
  show max (Ideal.sqrt (broadcastInDim S512x1 ![0] Facts₀.bcast_S512_S512x1_0 (sqSum m c) (ix2 b (0 : Fin 1))))
      (broadcastInDim S512x1 ![] Facts₀.bcast_S_S512x1 (constant (F := Ideal) S_ .f32 0x2B8CBCCC#32) (ix2 b (0 : Fin 1))) = _
  rw [broadcastInDim_apply _ _ (sqSum m c) (ix2 b (0 : Fin 1)) (ix1 b)
        (fun a => match a with | ⟨0, _⟩ => rfl),
      broadcastInDim_apply _ _ (constant (F := Ideal) S_ .f32 0x2B8CBCCC#32) (ix2 b (0 : Fin 1)) ix0
        (fun a => a.elim0),
      sqSum_apply]
  rfl

/-- The first block is the embeddings with every row divided by its guarded norm. -/
theorem blk0_apply (c : Dev nD) (t : Fin cfg0.N) (b : Fin 512) (d : Fin 256) :
    blk0 m c t (ix2 b d) = unit (embArr m c) b d := by
  obtain ⟨e0, e1⟩ := idx0 t
  unfold blk0 iblk
  show V m c main_v8 (((cfg0.win 0).blk t).view.emb (ix2 b d)) = _
  -- the block starts at (0 · 512, 0 · 256): its index (b, d) is the array's
  have hi : ((cfg0.win 0).blk t).view.emb (ix2 b d) = ix2 b d := by
    funext a; apply Fin.ext
    match a with
    | ⟨0, _⟩ => show win0_0.index t (0 : Fin 2) * 512 + 1 * b.val = b.val; omega
    | ⟨1, _⟩ => show win0_0.index t (1 : Fin 2) * 256 + 1 * d.val = d.val; omega
  rw [hi, V_v8]
  unfold unit
  show Ideal.div (embArr m c (ix2 b d))
      (broadcastInDim S512x256 ![0, 1] Facts₀.bcast_S512x1_S512x256_0_1 (normCol m c) (ix2 b d)) = _
  rw [broadcastInDim_apply _ _ (normCol m c) (ix2 b d) (ix2 b (0 : Fin 1))
        (fun a => match a with | ⟨0, _⟩ => rfl | ⟨1, _⟩ => rfl),
      normCol_apply]

/-- The second block is the labels as a column. -/
theorem blk1_apply (c : Dev nD) (t : Fin cfg0.N) (b : Fin 512) :
    blk1 m c t (ix2 b (0 : Fin 1)) = labArr m c (ix1 b) := by
  obtain ⟨e0, e1⟩ := idx1 t
  unfold blk1 iblk
  show V m c main_v9 (((cfg0.win 1).blk t).view.emb (ix2 b (0 : Fin 1))) = _
  rw [V_v9]
  -- (b, 0) of the column and b of the labels are at the same row-major position
  refine shapeCast_apply _ _ _ (ix1 b) ?_
  rw [Shape.rowMajor_val_two, Shape.rowMajor_val_one]
  show b.val = (win0_1.index t (0 : Fin 2) * 512 + 1 * b.val) * 1 + (win0_1.index t (1 : Fin 2) * 1 + 1 * 0)
  omega

/-- The third block at point `t` is rows `2000 t … 2000 t + 1999` of the prototypes. -/
theorem blk2_apply (c : Dev nD) (t : Fin cfg0.N) (r : Fin 2000) (d : Fin 256) :
    blk2 m c t (ix2 r d) = protoArr m c (ix2 (⟨t.val * 2000 + r.val, row_lt t r⟩ : Fin 100000) d) := by
  obtain ⟨e0, e1⟩ := idx2 t
  unfold blk2 iblk
  show V m c main_arg2 (((cfg0.win 2).blk t).view.emb (ix2 r d)) = _
  rw [V_main_arg2]
  congr 1
  -- the block starts at (t · 2000, 0 · 256)
  funext a; apply Fin.ext
  match a with
  | ⟨0, _⟩ => show win0_2.index t (0 : Fin 2) * 2000 + 1 * r.val = t.val * 2000 + r.val; omega
  | ⟨1, _⟩ => show win0_2.index t (1 : Fin 2) * 256 + 1 * d.val = d.val; omega

/-- Hence a normalised row of the block is the normalised row of the prototypes. -/
theorem unit_blk2 (c : Dev nD) (t : Fin cfg0.N) (r : Fin 2000) (d : Fin 256) :
    unit (blk2 m c t) r d = unit (protoArr m c) (⟨t.val * 2000 + r.val, row_lt t r⟩ : Fin 100000) d := by
  unfold unit rowNorm
  simp only [blk2_apply]

/-- The grid coordinates of point `t` are `(t / 25, t % 25)`. -/
theorem coords_val (t : Fin cfg0.N) :
    ((grid0.coords t) 0).val = t.val / 25 ∧ ((grid0.coords t) 1).val = t.val % 25 :=
  (by decide +kernel : ∀ t : Fin grid0.N, ((grid0.coords t) 0).val = t.val / 25 ∧ ((grid0.coords t) 1).val = t.val % 25) t

end Cert.KernelIdeal.Inputs

end
-- ==== Proof.Softmax.lean ====
/-
  The streaming log-sum-exp, over the reals.

  A row of real logits `x` is consumed in blocks of columns.  After a nonempty set `S` of columns the
  state is `(mOf x S, lOf x S, llOf x S lab)`: the maximum over `S`, the sum over `S` of
  `exp (xₖ − max)`, and the label's entry if its column is in `S`.  This file proves that one step of the
  stream (`stepM`, `stepL`, `stepLL`) takes the state for `S` to the state for `S` with the block
  added.  The law used throughout is `exp (x − m) · exp (m − m') = exp (x − m')` on the reals.
-/
import proofs.«418070_j52424370815316_1_alg».proof.Proof.Spec
import Mathlib.Analysis.SpecialFunctions.Log.Basic
import Mathlib.Analysis.SpecialFunctions.Exp
import Mathlib.Data.EReal.Basic

noncomputable section

namespace Cert.Margin

open Idealize.ShloMosaic
open scoped BigOperators

/-- A finite sum of coerced reals is the coercion of the sum. -/
private theorem coe_sum {ι : Type*} (s : Finset ι) (f : ι → ℝ) :
    ∑ k ∈ s, ((f k : ℝ) : EReal) = ((∑ k ∈ s, f k : ℝ) : EReal) := by
  classical
  refine Finset.induction_on s ?_ ?_
  · simp
  · intro a s ha ih
    rw [Finset.sum_insert ha, Finset.sum_insert ha, ih, EReal.coe_add]

/-- The supremum in the extended reals of coerced reals over a nonempty set is the coercion of the real maximum. -/
private theorem sup_coe {N : Nat} (x : Fin N → ℝ) (T : Finset (Fin N)) (h : T.Nonempty) :
    T.sup (fun j => ((x j : ℝ) : EReal)) = ((T.sup' h x : ℝ) : EReal) := by
  rw [← Finset.sup'_eq_sup h]
  exact (Finset.apply_sup'_eq_sup'_comp h (fun r : ℝ => (r : EReal))
    (fun a b => EReal.coe_strictMono.monotone.map_max)).symm

/-- The block maximum of a row read through an embedding is the supremum over the embedding's image. -/
private theorem rmax_emb {N n : Nat} (x : Fin N → ℝ) (e : Fin n ↪ Fin N) :
    rmax ⊥ (fun k => ((x (e k) : ℝ) : EReal)) = (Finset.univ.map e).sup (fun j => ((x j : ℝ) : EReal)) := by
  rw [Finset.sup_map]
  rfl

/-- The divisor of the mean is the real number 512. -/
theorem c512_eq : c512 = ((512 : ℝ) : EReal) := by
  unfold c512
  simp [Ideal.ofBits, Ideal.ieee, -EReal.coe_mul]; norm_num

/-- The first block of a stream: from `(⊥, 0, 0)` the state after a block `e` of columns is the closed form
    over that block. -/
theorem step_first {N n : Nat} [NeZero n] (x : Fin N → ℝ) (e : Fin n ↪ Fin N) (lab : Fin N)
    (hB : (Finset.univ.map e).Nonempty) :
    stepM ⊥ (fun k => ((x (e k) : ℝ) : EReal)) = ((mOf x (Finset.univ.map e) hB : ℝ) : EReal)
    ∧ stepL ⊥ 0 (fun k => ((x (e k) : ℝ) : EReal)) = ((lOf x (Finset.univ.map e) hB : ℝ) : EReal)
    ∧ stepLL 0 (fun k => ((x (e k) : ℝ) : EReal)) (fun k => e k = lab) = ((llOf x (Finset.univ.map e) lab : ℝ) : EReal) := by
  have hM : stepM ⊥ (fun k => ((x (e k) : ℝ) : EReal)) = ((mOf x (Finset.univ.map e) hB : ℝ) : EReal) := by
    unfold stepM mOf
    rw [rmax_emb, sup_coe x _ hB, max_bot_left]
  refine ⟨hM, ?_, ?_⟩
  · unfold stepL
    rw [hM, zero_mul, zero_add]
    unfold lOf mOf
    simp only [← EReal.coe_sub, Ideal.exp_coe]
    rw [coe_sum, Finset.sum_map]
  · unfold stepLL llOf
    rw [zero_add, Finset.sum_map, ← coe_sum]
    refine Finset.sum_congr rfl (fun k _ => ?_)
    split_ifs <;> simp

/-- A later block: the closed form over `S` goes to the closed form over `S` with the block added. -/
theorem step_next {N n : Nat} (x : Fin N → ℝ) (S : Finset (Fin N)) (hS : S.Nonempty) (e : Fin n ↪ Fin N)
    (hdisj : Disjoint S (Finset.univ.map e)) (lab : Fin N) (hSB : (S ∪ Finset.univ.map e).Nonempty) :
    stepM ((mOf x S hS : ℝ) : EReal) (fun k => ((x (e k) : ℝ) : EReal)) = ((mOf x (S ∪ Finset.univ.map e) hSB : ℝ) : EReal)
    ∧ stepL ((mOf x S hS : ℝ) : EReal) ((lOf x S hS : ℝ) : EReal) (fun k => ((x (e k) : ℝ) : EReal))
        = ((lOf x (S ∪ Finset.univ.map e) hSB : ℝ) : EReal)
    ∧ stepLL ((llOf x S lab : ℝ) : EReal) (fun k => ((x (e k) : ℝ) : EReal)) (fun k => e k = lab)
        = ((llOf x (S ∪ Finset.univ.map e) lab : ℝ) : EReal) := by
  have hM : stepM ((mOf x S hS : ℝ) : EReal) (fun k => ((x (e k) : ℝ) : EReal))
      = ((mOf x (S ∪ Finset.univ.map e) hSB : ℝ) : EReal) := by
    unfold stepM mOf
    rw [rmax_emb, ← sup_coe x S hS, ← sup_coe x _ hSB, Finset.sup_union]
  refine ⟨hM, ?_, ?_⟩
  · unfold stepL
    rw [hM]
    unfold lOf mOf
    simp only [← EReal.coe_sub, Ideal.exp_coe]
    rw [coe_sum, ← EReal.coe_mul, ← EReal.coe_add, Finset.sum_union hdisj, Finset.sum_map, Finset.sum_mul]
    congr 2
    refine Finset.sum_congr rfl (fun j _ => ?_)
    rw [← Real.exp_add]
    congr 1
    ring
  · unfold stepLL llOf
    rw [Finset.sum_union hdisj, Finset.sum_map, EReal.coe_add, ← coe_sum Finset.univ]
    congr 1
    refine Finset.sum_congr rfl (fun k _ => ?_)
    split_ifs <;> simp

end Cert.Margin

end
-- ==== Proof.KStream.lean ====
/-
  The kernel's carried state after every grid point, in closed form.

  Point `t` (row-major over 2 cores × 25 steps) processes columns `2000 t … 2000 t + 1999`; core
  `t / 25` starts afresh at step 0.  So after point `t` the core has seen the columns
  `seen t = [50000 (t / 25), 50000 (t / 25) + 2000 (t % 25 + 1))`, and for every row `b` its three
  scratch buffers hold the maximum of the row's logits over `seen t`, the sum over `seen t` of
  `exp (logit − maximum)`, and the label's logit if the label's column is in `seen t` (zero otherwise).
  By induction on `t`: a core's first step starts the stream, every other step extends it by one block.
  At a core's last step the same three values are copied into the output blocks.
-/
import proofs.«418070_j52424370815316_1_alg».proof.Proof.KPieces
import proofs.«418070_j52424370815316_1_alg».proof.Proof.KPayload
import proofs.«418070_j52424370815316_1_alg».proof.Proof.KInputs
import proofs.«418070_j52424370815316_1_alg».proof.Proof.Softmax
import proofs.«418070_j52424370815316_1_alg».proof.Proof.Spec

set_option maxRecDepth 16384

noncomputable section

namespace Cert.KernelIdeal.Stream

open Cert.KernelIdeal Cert.KernelIdeal.Gen Cert.Margin Cert.KernelIdeal.Pieces Cert.KernelIdeal.Inputs
open Idealize.ShloMosaic Idealize.ShloMosaic.TcCoe Idealize.ShloMosaic.ValueIdx Idealize.SL.Sem
open scoped BigOperators

variable (m : (ℓ : Loc nD τ sig) → Buf (Elt Ideal) ℓ)

/-- The columns the core of point `t` has seen once point `t` is done. -/
def seen (t : ℕ) : Finset (Fin 100000) := cols ((t / 25) * 50000) ((t / 25) * 50000 + (t % 25 + 1) * 2000)

theorem seen_nonempty (t : ℕ) (ht : t < 50) : (seen t).Nonempty := by
  refine ⟨⟨(t / 25) * 50000, by omega⟩, ?_⟩
  unfold seen cols
  simp only [Finset.mem_filter, Finset.mem_univ, true_and]
  constructor <;> omega

/-! ## The columns of one block, and how `seen` grows -/

/-- The block of point `t`: its 2000 entries as columns `2000 t + k`. -/
private def eT (t : Fin cfg0.N) : Fin 2000 ↪ Fin 100000 :=
  ⟨fun k => ⟨t.val * 2000 + k.val, row_lt t k⟩, fun a b h => by
    have h' := congrArg Fin.val h
    dsimp only at h'
    exact Fin.ext (by omega)⟩

private theorem eT_val (t : Fin cfg0.N) (k : Fin 2000) : (eT t k).val = t.val * 2000 + k.val := rfl

/-- The block's columns are an interval of 2000 columns. -/
private theorem map_eT (t : Fin cfg0.N) :
    Finset.univ.map (eT t) = cols (t.val * 2000) (t.val * 2000 + 2000) := by
  ext k
  simp only [Finset.mem_map, Finset.mem_univ, true_and, cols, Finset.mem_filter]
  constructor
  · rintro ⟨a, rfl⟩
    rw [eT_val]
    have := a.isLt
    constructor <;> omega
  · rintro ⟨h1, h2⟩
    refine ⟨⟨k.val - t.val * 2000, by omega⟩, ?_⟩
    apply Fin.ext
    rw [eT_val]
    dsimp only
    omega

/-- At a core's first step the columns seen are the block's. -/
private theorem seen_first (n : ℕ) (h0 : n % 25 = 0) : seen n = cols (n * 2000) (n * 2000 + 2000) := by
  unfold seen
  have h1 : n / 25 * 50000 = n * 2000 := by omega
  rw [h0, h1]

/-- At every other step the columns seen are those of the step before, with the block's, which are new. -/
private theorem seen_next (n : ℕ) (h0 : ¬ n % 25 = 0) :
    seen n = seen (n - 1) ∪ cols (n * 2000) (n * 2000 + 2000)
    ∧ Disjoint (seen (n - 1)) (cols (n * 2000) (n * 2000 + 2000)) := by
  unfold seen cols
  constructor
  · ext k
    simp only [Finset.mem_union, Finset.mem_filter, Finset.mem_univ, true_and]
    omega
  · rw [Finset.disjoint_left]
    intro k
    simp only [Finset.mem_filter, Finset.mem_univ, true_and]
    omega

/-- The closed forms depend on the set of columns only. -/
private theorem mOf_congr {n : Nat} (x : Fin n → ℝ) {S T : Finset (Fin n)} (h : S = T) (hS : S.Nonempty) (hT : T.Nonempty) :
    mOf x S hS = mOf x T hT := by subst h; rfl

private theorem lOf_congr {n : Nat} (x : Fin n → ℝ) {S T : Finset (Fin n)} (h : S = T) (hS : S.Nonempty) (hT : T.Nonempty) :
    lOf x S hS = lOf x T hT := by subst h; rfl

/-- The label step does not depend on how its hit predicate is written. -/
private theorem stepLL_congr {n : Nat} (llp : EReal) (y : Fin n → EReal) (p q : Fin n → Prop)
    [ip : DecidablePred p] [iq : DecidablePred q] (h : ∀ k, p k ↔ q k) :
    @stepLL n llp y p ip = @stepLL n llp y q iq := by
  unfold stepLL
  congr 1
  refine Finset.sum_congr rfl (fun k _ => ?_)
  by_cases hk : p k
  · rw [if_pos hk, if_pos ((h k).mp hk)]
  · rw [if_neg hk, if_neg (fun hq => hk ((h k).mpr hq))]

/-! ## One block of the stream, row by row -/

/-- The column of entry `k` of the block at point `t`. -/
private theorem colOf_coords (t : Fin cfg0.N) (k : Fin 2000) :
    colOf (grid0.coords t) k = t.val * 2000 + k.val := by
  unfold colOf
  obtain ⟨h0, h1⟩ := coords_val t
  rw [h0, h1]
  omega

/-- Entry `k` of row `b` of the block's logits at point `t` is the row's logit at column `2000 t + k`. -/
private theorem blockLogits_row (c : Dev nD) (xr : Fin 512 → Fin 100000 → ℝ)
    (hx : ∀ b k, logit (embArr m c) (labArr m c) (protoArr m c) b k = ((xr b k : ℝ) : EReal))
    (t : Fin cfg0.N) (b : Fin 512) (k : Fin 2000) :
    blockLogits (F := Ideal) (grid0.coords t) (blk0 m c t) (blk1 m c t) (blk2 m c t) (ix2 b k)
      = ((xr b (eT t k) : ℝ) : EReal) := by
  have hcos : blockCos (blk0 m c t) (blk2 m c t) b k = cosv (embArr m c) (protoArr m c) b (eT t k) := by
    unfold blockCos cosv
    refine Finset.sum_congr rfl (fun d _ => ?_)
    rw [blk0_apply, unit_blk2]
    rfl
  rw [blockLogits_apply, blk1_apply, colOf_coords, hcos, ← hx]
  rfl

/-- The label's column is entry `k` of the block exactly when the block's hit test says so. -/
private theorem hit_iff (c : Dev nD) (lab : Fin 512 → Fin 100000)
    (hlab : ∀ b, labArr m c (ix1 b) = BitVec.ofNat 32 (lab b).val)
    (t : Fin cfg0.N) (b : Fin 512) (k : Fin 2000) :
    blk1 m c t (ix2 b (0 : Fin 1)) = BitVec.ofNat 32 (colOf (grid0.coords t) k) ↔ eT t k = lab b := by
  rw [blk1_apply, hlab, colOf_coords]
  have hl := (lab b).isLt
  have hk := row_lt t k
  constructor
  · intro h
    have h' := congrArg BitVec.toNat h
    rw [BitVec.toNat_ofNat, BitVec.toNat_ofNat, Nat.mod_eq_of_lt (by omega), Nat.mod_eq_of_lt (by omega)] at h'
    apply Fin.ext
    rw [eT_val]
    exact h'.symm
  · intro h
    have h' := congrArg Fin.val h
    rw [eT_val] at h'
    rw [h']

/-- The block's row of logits at point `t`, as a function of the entry. -/
private theorem blockLogits_fun (c : Dev nD) (xr : Fin 512 → Fin 100000 → ℝ)
    (hx : ∀ b k, logit (embArr m c) (labArr m c) (protoArr m c) b k = ((xr b k : ℝ) : EReal))
    (t : Fin cfg0.N) (b : Fin 512) :
    (fun k : Fin 2000 => blockLogits (F := Ideal) (grid0.coords t) (blk0 m c t) (blk1 m c t) (blk2 m c t) (ix2 b k))
      = fun k : Fin 2000 => ((xr b (eT t k) : ℝ) : EReal) :=
  funext (blockLogits_row m c xr hx t b)

/-- A core's first block takes the reset values to the closed forms over the block's columns. -/
private theorem row_first (c : Dev nD) (xr : Fin 512 → Fin 100000 → ℝ)
    (hx : ∀ b k, logit (embArr m c) (labArr m c) (protoArr m c) b k = ((xr b k : ℝ) : EReal))
    (lab : Fin 512 → Fin 100000) (hlab : ∀ b, labArr m c (ix1 b) = BitVec.ofNat 32 (lab b).val)
    (t : Fin cfg0.N) (b : Fin 512) (hB : (Finset.univ.map (eT t)).Nonempty) :
    nextM (F := Ideal) (grid0.coords t) (blk0 m c t) (blk1 m c t) (blk2 m c t) (k0_pay4 (F := Ideal)) (ix2 b (0 : Fin 1))
      = ((mOf (xr b) (Finset.univ.map (eT t)) hB : ℝ) : EReal)
    ∧ nextL (F := Ideal) (grid0.coords t) (blk0 m c t) (blk1 m c t) (blk2 m c t) (k0_pay4 (F := Ideal)) (k0_pay5 (F := Ideal)) (ix2 b (0 : Fin 1))
      = ((lOf (xr b) (Finset.univ.map (eT t)) hB : ℝ) : EReal)
    ∧ nextLL (F := Ideal) (grid0.coords t) (blk0 m c t) (blk1 m c t) (blk2 m c t) (k0_pay6 (F := Ideal)) (ix2 b (0 : Fin 1))
      = ((llOf (xr b) (Finset.univ.map (eT t)) (lab b) : ℝ) : EReal) := by
  obtain ⟨s0, s1, s2⟩ := step_first (xr b) (eT t) (lab b) hB
  refine ⟨?_, ?_, ?_⟩
  · rw [nextM_apply, blockLogits_fun m c xr hx t b, pay4_apply]
    exact s0
  · rw [nextL_apply, blockLogits_fun m c xr hx t b, pay4_apply, pay5_apply]
    exact s1
  · rw [nextLL_apply, blockLogits_fun m c xr hx t b, pay6_apply]
    exact (stepLL_congr _ _ _ _ (hit_iff m c lab hlab t b)).trans s2

/-- A later block takes the closed forms over a set of earlier columns to those over the set with the block's columns. -/
private theorem row_next (c : Dev nD) (xr : Fin 512 → Fin 100000 → ℝ)
    (hx : ∀ b k, logit (embArr m c) (labArr m c) (protoArr m c) b k = ((xr b k : ℝ) : EReal))
    (lab : Fin 512 → Fin 100000) (hlab : ∀ b, labArr m c (ix1 b) = BitVec.ofNat 32 (lab b).val)
    (t : Fin cfg0.N) (b : Fin 512)
    (S : Finset (Fin 100000)) (hS : S.Nonempty) (hdisj : Disjoint S (Finset.univ.map (eT t)))
    (hSB : (S ∪ Finset.univ.map (eT t)).Nonempty)
    (xs0 xs1 xs2 : S512x1.Idx → EReal)
    (h0 : xs0 (ix2 b (0 : Fin 1)) = ((mOf (xr b) S hS : ℝ) : EReal))
    (h1 : xs1 (ix2 b (0 : Fin 1)) = ((lOf (xr b) S hS : ℝ) : EReal))
    (h2 : xs2 (ix2 b (0 : Fin 1)) = ((llOf (xr b) S (lab b) : ℝ) : EReal)) :
    nextM (F := Ideal) (grid0.coords t) (blk0 m c t) (blk1 m c t) (blk2 m c t) xs0 (ix2 b (0 : Fin 1))
      = ((mOf (xr b) (S ∪ Finset.univ.map (eT t)) hSB : ℝ) : EReal)
    ∧ nextL (F := Ideal) (grid0.coords t) (blk0 m c t) (blk1 m c t) (blk2 m c t) xs0 xs1 (ix2 b (0 : Fin 1))
      = ((lOf (xr b) (S ∪ Finset.univ.map (eT t)) hSB : ℝ) : EReal)
    ∧ nextLL (F := Ideal) (grid0.coords t) (blk0 m c t) (blk1 m c t) (blk2 m c t) xs2 (ix2 b (0 : Fin 1))
      = ((llOf (xr b) (S ∪ Finset.univ.map (eT t)) (lab b) : ℝ) : EReal) := by
  obtain ⟨s0, s1, s2⟩ := step_next (xr b) S hS (eT t) hdisj (lab b) hSB
  refine ⟨?_, ?_, ?_⟩
  · rw [nextM_apply, blockLogits_fun m c xr hx t b, h0]
    exact s0
  · rw [nextL_apply, blockLogits_fun m c xr hx t b, h0, h1]
    exact s1
  · rw [nextLL_apply, blockLogits_fun m c xr hx t b, h2]
    exact (stepLL_congr _ _ _ _ (hit_iff m c lab hlab t b)).trans s2

/-! ## The frame's accumulation, one point in terms of the point before -/

/-- A core's first step leaves in the three scratch buffers one step of the stream from the reset values. -/
private theorem scr_first (c : Dev nD) (t : Fin cfg0.N) (h0 : t.val % 25 = 0) :
    (outsAt0 m c t.val t.isLt).2.2.2.1
        = nextM (F := Ideal) (grid0.coords t) (blk0 m c t) (blk1 m c t) (blk2 m c t) (k0_pay4 (F := Ideal))
    ∧ (outsAt0 m c t.val t.isLt).2.2.2.2.1
        = nextL (F := Ideal) (grid0.coords t) (blk0 m c t) (blk1 m c t) (blk2 m c t) (k0_pay4 (F := Ideal)) (k0_pay5 (F := Ideal))
    ∧ (outsAt0 m c t.val t.isLt).2.2.2.2.2
        = nextLL (F := Ideal) (grid0.coords t) (blk0 m c t) (blk1 m c t) (blk2 m c t) (k0_pay6 (F := Ideal)) := by
  have h1 : ¬ t.val % 25 = 24 := by omega
  rw [outsAt0_A m c t h0 h1]
  dsimp only
  refine ⟨?_, ?_, ?_⟩
  · rw [sout0_A_0_eq]
  · rw [sout0_A_1_eq]
  · rw [sout0_A_2_eq]

/-- Every other step leaves in the three scratch buffers one step of the stream from what the step before left. -/
private theorem scr_next (c : Dev nD) (t : Fin cfg0.N) (h0 : ¬ t.val % 25 = 0) (hp : t.val - 1 < cfg0.N) :
    (outsAt0 m c t.val t.isLt).2.2.2.1
        = nextM (F := Ideal) (grid0.coords t) (blk0 m c t) (blk1 m c t) (blk2 m c t) (outsAt0 m c (t.val - 1) hp).2.2.2.1
    ∧ (outsAt0 m c t.val t.isLt).2.2.2.2.1
        = nextL (F := Ideal) (grid0.coords t) (blk0 m c t) (blk1 m c t) (blk2 m c t)
            (outsAt0 m c (t.val - 1) hp).2.2.2.1 (outsAt0 m c (t.val - 1) hp).2.2.2.2.1
    ∧ (outsAt0 m c t.val t.isLt).2.2.2.2.2
        = nextLL (F := Ideal) (grid0.coords t) (blk0 m c t) (blk1 m c t) (blk2 m c t) (outsAt0 m c (t.val - 1) hp).2.2.2.2.2 := by
  by_cases h1 : t.val % 25 = 24
  · rw [outsAt0_C m c t h0 h1]
    dsimp only
    refine ⟨?_, ?_, ?_⟩
    · rw [sout0_C_0_eq]
    · rw [sout0_C_1_eq]
    · rw [sout0_C_2_eq]
  · rw [outsAt0_B m c t h0 h1]
    dsimp only
    refine ⟨?_, ?_, ?_⟩
    · rw [sout0_B_0_eq]
    · rw [sout0_B_1_eq]
    · rw [sout0_B_2_eq]

/-- A core's last step also copies the three new values into the output blocks. -/
private theorem out_last (c : Dev nD) (t : Fin cfg0.N) (h24 : t.val % 25 = 24) (hp : t.val - 1 < cfg0.N) :
    (outsAt0 m c t.val t.isLt).1
        = k0_pay1 (F := Ideal) (nextM (F := Ideal) (grid0.coords t) (blk0 m c t) (blk1 m c t) (blk2 m c t) (outsAt0 m c (t.val - 1) hp).2.2.2.1)
    ∧ (outsAt0 m c t.val t.isLt).2.1
        = k0_pay2 (F := Ideal) (nextL (F := Ideal) (grid0.coords t) (blk0 m c t) (blk1 m c t) (blk2 m c t)
            (outsAt0 m c (t.val - 1) hp).2.2.2.1 (outsAt0 m c (t.val - 1) hp).2.2.2.2.1)
    ∧ (outsAt0 m c t.val t.isLt).2.2.1
        = k0_pay3 (F := Ideal) (nextLL (F := Ideal) (grid0.coords t) (blk0 m c t) (blk1 m c t) (blk2 m c t) (outsAt0 m c (t.val - 1) hp).2.2.2.2.2) := by
  have h0 : ¬ t.val % 25 = 0 := by omega
  rw [outsAt0_C m c t h0 h24]
  dsimp only
  refine ⟨?_, ?_, ?_⟩
  · rw [out0_C_3_eq]
  · rw [out0_C_4_eq]
  · rw [out0_C_5_eq]

/-! ## The induction over the grid points -/

private theorem state_aux (c : Dev nD) (xr : Fin 512 → Fin 100000 → ℝ)
    (hx : ∀ b k, logit (embArr m c) (labArr m c) (protoArr m c) b k = ((xr b k : ℝ) : EReal))
    (lab : Fin 512 → Fin 100000) (hlab : ∀ b, labArr m c (ix1 b) = BitVec.ofNat 32 (lab b).val) :
    ∀ (n : ℕ) (hn : n < cfg0.N) (b : Fin 512) (hne : (seen n).Nonempty),
      ((outsAt0 m c n hn).2.2.2.1 (ix2 b (0 : Fin 1)) : EReal) = ((mOf (xr b) (seen n) hne : ℝ) : EReal)
      ∧ ((outsAt0 m c n hn).2.2.2.2.1 (ix2 b (0 : Fin 1)) : EReal) = ((lOf (xr b) (seen n) hne : ℝ) : EReal)
      ∧ ((outsAt0 m c n hn).2.2.2.2.2 (ix2 b (0 : Fin 1)) : EReal) = ((llOf (xr b) (seen n) (lab b) : ℝ) : EReal) := by
  intro n
  induction n using Nat.strong_induction_on with
  | _ n ih =>
    intro hn b hne
    by_cases h0 : n % 25 = 0
    · have hS : seen n = Finset.univ.map (eT ⟨n, hn⟩) := by rw [seen_first n h0, map_eT]
      have hB : (Finset.univ.map (eT ⟨n, hn⟩)).Nonempty := hS ▸ hne
      obtain ⟨e0, e1, e2⟩ := scr_first m c ⟨n, hn⟩ h0
      obtain ⟨r0, r1, r2⟩ := row_first m c xr hx lab hlab ⟨n, hn⟩ b hB
      refine ⟨?_, ?_, ?_⟩
      · rw [mOf_congr (xr b) hS hne hB, ← r0]
        exact congrFun e0 _
      · rw [lOf_congr (xr b) hS hne hB, ← r1]
        exact congrFun e1 _
      · rw [hS, ← r2]
        exact congrFun e2 _
    · have hN : cfg0.N = 50 := N_0
      have hp : n - 1 < cfg0.N := by omega
      have hne' : (seen (n - 1)).Nonempty := seen_nonempty (n - 1) (by omega)
      obtain ⟨i0, i1, i2⟩ := ih (n - 1) (by omega) hp b hne'
      obtain ⟨hU, hD⟩ := seen_next n h0
      rw [← map_eT ⟨n, hn⟩] at hU hD
      have hSB : (seen (n - 1) ∪ Finset.univ.map (eT ⟨n, hn⟩)).Nonempty := hU ▸ hne
      obtain ⟨e0, e1, e2⟩ := scr_next m c ⟨n, hn⟩ h0 hp
      obtain ⟨r0, r1, r2⟩ := row_next m c xr hx lab hlab ⟨n, hn⟩ b (seen (n - 1)) hne' hD hSB _ _ _ i0 i1 i2
      refine ⟨?_, ?_, ?_⟩
      · rw [mOf_congr (xr b) hU hne hSB, ← r0]
        exact congrFun e0 _
      · rw [lOf_congr (xr b) hU hne hSB, ← r1]
        exact congrFun e1 _
      · rw [hU, ← r2]
        exact congrFun e2 _

/-- The three scratch buffers after point `t`, row by row. -/
theorem state_at (c : Dev nD) (xr : Fin 512 → Fin 100000 → ℝ)
    (hx : ∀ b k, logit (embArr m c) (labArr m c) (protoArr m c) b k = ((xr b k : ℝ) : EReal))
    (lab : Fin 512 → Fin 100000) (hlab : ∀ b, labArr m c (ix1 b) = BitVec.ofNat 32 (lab b).val)
    (t : Fin cfg0.N) (b : Fin 512) (hne : (seen t.val).Nonempty) :
    ((outsAt0 m c t.val t.isLt).2.2.2.1 (ix2 b (0 : Fin 1)) : EReal) = ((mOf (xr b) (seen t.val) hne : ℝ) : EReal)
    ∧ ((outsAt0 m c t.val t.isLt).2.2.2.2.1 (ix2 b (0 : Fin 1)) : EReal) = ((lOf (xr b) (seen t.val) hne : ℝ) : EReal)
    ∧ ((outsAt0 m c t.val t.isLt).2.2.2.2.2 (ix2 b (0 : Fin 1)) : EReal) = ((llOf (xr b) (seen t.val) (lab b) : ℝ) : EReal) := by
  obtain ⟨n, hn⟩ := t
  exact state_aux m c xr hx lab hlab n hn b hne

/-- At a core's last step the three output blocks hold the same three values. -/
theorem out_at (c : Dev nD) (xr : Fin 512 → Fin 100000 → ℝ)
    (hx : ∀ b k, logit (embArr m c) (labArr m c) (protoArr m c) b k = ((xr b k : ℝ) : EReal))
    (lab : Fin 512 → Fin 100000) (hlab : ∀ b, labArr m c (ix1 b) = BitVec.ofNat 32 (lab b).val)
    (t : Fin cfg0.N) (h24 : t.val % 25 = 24) (b : Fin 512) (hne : (seen t.val).Nonempty) :
    ((outsAt0 m c t.val t.isLt).1 (ix3 (0 : Fin 1) b (0 : Fin 1)) : EReal) = ((mOf (xr b) (seen t.val) hne : ℝ) : EReal)
    ∧ ((outsAt0 m c t.val t.isLt).2.1 (ix3 (0 : Fin 1) b (0 : Fin 1)) : EReal) = ((lOf (xr b) (seen t.val) hne : ℝ) : EReal)
    ∧ ((outsAt0 m c t.val t.isLt).2.2.1 (ix3 (0 : Fin 1) b (0 : Fin 1)) : EReal) = ((llOf (xr b) (seen t.val) (lab b) : ℝ) : EReal) := by
  have hN : cfg0.N = 50 := N_0
  have hp : t.val - 1 < cfg0.N := by have := t.isLt; omega
  have h0 : ¬ t.val % 25 = 0 := by omega
  obtain ⟨o0, o1, o2⟩ := out_last m c t h24 hp
  obtain ⟨e0, e1, e2⟩ := scr_next m c t h0 hp
  obtain ⟨s0, s1, s2⟩ := state_at m c xr hx lab hlab t b hne
  refine ⟨?_, ?_, ?_⟩
  · rw [o0, ← e0, pay1_apply]
    exact s0
  · rw [o1, ← e1, pay2_apply]
    exact s1
  · rw [o2, ← e2, pay3_apply]
    exact s2

end Cert.KernelIdeal.Stream

end
-- ==== Proof.Merge.lean ====
/-
  The two tails of the log-sum-exp, over the reals.

  Merging the streamed states of two complementary halves of a row (`kRow`) gives the row's loss
  `rowLoss`: with `M` the larger of the two maxima, `l₀ · exp (m₀ − M) + l₁ · exp (m₁ − M)` is the
  sum over all columns of `exp (xₖ − M)`, and the two label entries add up to the label's logit.  The
  one-pass log-softmax at the label (`rRow`) is `−rowLoss`.  The kernel's mean of the rows' losses and
  the reference's negated mean of their negatives are the same number.
-/
import proofs.«418070_j52424370815316_1_alg».proof.Proof.Spec
import Mathlib.Analysis.SpecialFunctions.Log.Basic
import Mathlib.Analysis.SpecialFunctions.Exp
import Mathlib.Data.EReal.Basic

noncomputable section

namespace Cert.Margin

open Idealize.ShloMosaic
open scoped BigOperators

/-- The coercion of the reals into the extended reals commutes with the maximum of two. -/
private theorem coe_max' (a b : ℝ) : ((max a b : ℝ) : EReal) = max (a : EReal) (b : EReal) :=
  EReal.coe_strictMono.monotone.map_max

/-- The coercion of the reals into the extended reals commutes with finite sums. -/
private theorem coe_sum' {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The running maximum from `⊥` of a real row over a nonempty set is the coercion of its real maximum. -/
private theorem fold_max_coe {N : Nat} (x : Fin N → ℝ) (S : Finset (Fin N)) (h : S.Nonempty) :
    S.fold max ⊥ (fun k => ((x k : ℝ) : EReal)) = ((S.sup' h x : ℝ) : EReal) := by
  induction h using Finset.Nonempty.cons_induction with
  | singleton a => simp
  | cons a s ha hs ih =>
    rw [Finset.fold_cons, ih, Finset.sup'_cons hs, ← coe_max']

/-- Rescaling a shifted sum of exponentials from the shift `m` to the shift `M`. -/
private theorem shift_sum {N : Nat} (x : Fin N → ℝ) (S : Finset (Fin N)) (m M : ℝ) :
    (∑ k ∈ S, Real.exp (x k - m)) * Real.exp (m - M) = ∑ k ∈ S, Real.exp (x k - M) := by
  rw [Finset.sum_mul]
  refine Finset.sum_congr rfl fun k _ => ?_
  rw [← Real.exp_add]
  congr 1
  ring

/-- The divisor of the mean is the real number 512. -/
theorem c512_eq' : c512 = ((512 : ℝ) : EReal) := by
  simp [c512, Ideal.ofBits, Ideal.ieee]
  rw [← EReal.coe_mul]
  congr 1
  norm_num

/-- Merging two complementary halves gives the row's loss. -/
theorem merge_halves {N : Nat} [NeZero N] (x : Fin N → ℝ) (S0 S1 : Finset (Fin N)) (h0 : S0.Nonempty) (h1 : S1.Nonempty)
    (hd : Disjoint S0 S1) (hu : S0 ∪ S1 = Finset.univ) (lab : Fin N) :
    kRow ((mOf x S0 h0 : ℝ) : EReal) ((lOf x S0 h0 : ℝ) : EReal) ((llOf x S0 lab : ℝ) : EReal)
         ((mOf x S1 h1 : ℝ) : EReal) ((lOf x S1 h1 : ℝ) : EReal) ((llOf x S1 lab : ℝ) : EReal)
      = ((rowLoss x lab : ℝ) : EReal) := by
  simp only [mOf, lOf, llOf, rowLoss, kRow]
  have hl0 : 0 < ∑ k ∈ S0, Real.exp (x k - S0.sup' h0 x) := Finset.sum_pos (fun _ _ => Real.exp_pos _) h0
  have hl1 : 0 < ∑ k ∈ S1, Real.exp (x k - S1.sup' h1 x) := Finset.sum_pos (fun _ _ => Real.exp_pos _) h1
  have key : ∀ (T : Finset (Fin N)) (hT : T.Nonempty), T = S0 ∪ S1 →
      T.sup' hT x = max (S0.sup' h0 x) (S1.sup' h1 x) := by
    intro T hT e
    subst e
    exact Finset.sup'_union h0 h1 x
  have hsup := key _ Finset.univ_nonempty hu.symm
  obtain ⟨M, hM⟩ : ∃ M : ℝ, M = max (S0.sup' h0 x) (S1.sup' h1 x) := ⟨_, rfl⟩
  rw [← hM] at hsup
  have hpos : 0 < (∑ k ∈ S0, Real.exp (x k - S0.sup' h0 x)) * Real.exp (S0.sup' h0 x - M)
      + (∑ k ∈ S1, Real.exp (x k - S1.sup' h1 x)) * Real.exp (S1.sup' h1 x - M) := by positivity
  have hsum : (∑ k ∈ S0, Real.exp (x k - S0.sup' h0 x)) * Real.exp (S0.sup' h0 x - M)
      + (∑ k ∈ S1, Real.exp (x k - S1.sup' h1 x)) * Real.exp (S1.sup' h1 x - M)
      = ∑ k, Real.exp (x k - M) := by
    rw [shift_sum, shift_sum, ← Finset.sum_union hd, hu]
  have hll : (∑ k ∈ S0, if k = lab then x k else 0) + (∑ k ∈ S1, if k = lab then x k else 0) = x lab := by
    rw [← Finset.sum_union hd, hu]
    simp
  rw [← coe_max', ← hM, ← EReal.coe_sub, ← EReal.coe_sub, Ideal.exp_coe, Ideal.exp_coe,
    ← EReal.coe_mul, ← EReal.coe_mul, ← EReal.coe_add, Ideal.log_coe, if_neg (not_le.mpr hpos),
    ← EReal.coe_add, ← EReal.coe_add, ← EReal.coe_sub]
  congr 1
  rw [hsum, hll, hsup]

/-- The one-pass log-softmax at the label is minus the row's loss. -/
theorem rRow_coe {N : Nat} [NeZero N] (x : Fin N → ℝ) (lab : Fin N) :
    rRow (fun k => ((x k : ℝ) : EReal)) lab = ((-(rowLoss x lab) : ℝ) : EReal) := by
  have hpos : 0 < ∑ k : Fin N, Real.exp (x k - Finset.univ.sup' Finset.univ_nonempty x) :=
    Finset.sum_pos (fun _ _ => Real.exp_pos _) Finset.univ_nonempty
  simp only [rRow, rmax, rowLoss]
  rw [fold_max_coe x Finset.univ Finset.univ_nonempty, max_eq_right bot_le, ← EReal.coe_sub]
  simp only [← EReal.coe_sub, Ideal.exp_coe]
  rw [← coe_sum', zero_add, Ideal.log_coe, if_neg (not_le.mpr hpos), ← EReal.coe_sub]
  congr 1
  ring

/-- The kernel's mean of real rows. -/
theorem kLoss_coe (r : Fin 512 → ℝ) : kLoss (fun b => ((r b : ℝ) : EReal)) = (((∑ b : Fin 512, r b) / 512 : ℝ) : EReal) := by
  simp only [kLoss]
  rw [c512_eq', Ideal.div_coe (by norm_num), ← coe_sum', zero_add, ← EReal.coe_mul]
  congr 1
  ring

/-- The reference's negated mean of the negated rows is the same number. -/
theorem rLoss_coe (r : Fin 512 → ℝ) : rLoss (fun b => ((-(r b) : ℝ) : EReal)) = (((∑ b : Fin 512, r b) / 512 : ℝ) : EReal) := by
  simp only [rLoss]
  rw [c512_eq', Ideal.div_coe (by norm_num), ← coe_sum', zero_add, ← EReal.coe_mul, ← EReal.coe_neg,
    Finset.sum_neg_distrib]
  congr 1
  ring

end Cert.Margin

end
-- ==== Proof.KResult.lean ====
/-
  From the carried state to the kernel's result.

  Output windows 3, 4, 5 are written back only at a core's last step, `t = 24` and `t = 49`; the block
  written at `t` is slab `t / 25` of a 2 × 512 × 1 array, so the two write-backs tile each array.  Hence
  slab `q` of the three arrays holds, row by row, the maximum, the shifted sum and the label entry over
  half `q` of the columns.  The host operations after the kernel slice the slabs apart, merge the two
  halves row by row (`kRow`) and take the mean (`kLoss`); by the merge law that is the mean of the rows'
  losses.
-/
import proofs.«418070_j52424370815316_1_alg».proof.Proof.KStream
import proofs.«418070_j52424370815316_1_alg».proof.Proof.Merge
import proofs.«418070_j52424370815316_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Result

open Cert.KernelIdeal Cert.KernelIdeal.Gen Cert.Margin Cert.KernelIdeal.Inputs Cert.KernelIdeal.Stream
open Idealize.ShloMosaic Idealize.ShloMosaic.TcCoe Idealize.ShloMosaic.ValueIdx Idealize.SL.Sem
open scoped BigOperators

variable (m : (ℓ : Loc nD τ sig) → Buf (Elt Ideal) ℓ)

/-- Half `q` of the columns. -/
def half (q : Fin 2) : Finset (Fin 100000) := cols (q.val * 50000) (q.val * 50000 + 50000)

theorem half_nonempty (q : Fin 2) : (half q).Nonempty := by
  refine ⟨⟨q.val * 50000, by have := q.isLt; omega⟩, ?_⟩
  unfold half cols
  simp only [Finset.mem_filter, Finset.mem_univ, true_and]
  omega

/-- At a core's last step the columns seen are the core's half. -/
private theorem seen_last (t : ℕ) (h24 : t % 25 = 24) (q : Fin 2) (hq : q.val = t / 25) : seen t = half q := by
  unfold seen half
  rw [hq, h24]

/-- The closed forms depend on the set of columns only. -/
private theorem mOf_congr {n : ℕ} (x : Fin n → ℝ) {S S' : Finset (Fin n)} (e : S = S') (h : S.Nonempty) (h' : S'.Nonempty) :
    mOf x S h = mOf x S' h' := by subst e; rfl
private theorem lOf_congr {n : ℕ} (x : Fin n → ℝ) {S S' : Finset (Fin n)} (e : S = S') (h : S.Nonempty) (h' : S'.Nonempty) :
    lOf x S h = lOf x S' h' := by subst e; rfl

/-! ## The three output arrays -/

/-- The first output array as it ends: slab `q`, row `b` holds the maximum of row `b` over half `q`. -/
private def G3 (xr : Fin 512 → Fin 100000 → ℝ) : S2x512x1.Idx → EReal :=
  fun i => ((mOf (xr (i 1)) (half (i 0)) (half_nonempty (i 0)) : ℝ) : EReal)

/-- Window 3's block index at point `t` is `(t / 25, 0, 0)`. -/
private theorem idx_facts3 : ∀ t : Fin cfg0.N, win0_3.index t (0 : Fin 3) = t.val / 25 ∧ win0_3.index t (1 : Fin 3) = 0 ∧ win0_3.index t (2 : Fin 3) = 0 :=
  (by decide +kernel : ∀ t : Fin grid0.N, win0_3.index t (0 : Fin 3) = t.val / 25 ∧ win0_3.index t (1 : Fin 3) = 0 ∧ win0_3.index t (2 : Fin 3) = 0)

/-- What a write-back of window 3 writes is its block of `G3`. -/
private theorem flushed3_eq (c : Dev nD) (xr : Fin 512 → Fin 100000 → ℝ)
    (hx : ∀ b k, logit (embArr m c) (labArr m c) (protoArr m c) b k = ((xr b k : ℝ) : EReal))
    (lab : Fin 512 → Fin 100000) (hlab : ∀ b, labArr m c (ix1 b) = BitVec.ofNat 32 (lab b).val)
    (t : Fin cfg0.N) (hf : (cfg0.win 3).flush t = true) :
    (dats m 0 c).flushed 3 t = ((cfg0.win 3).blk t).view.read (Elt Ideal) (G3 xr) := by
  have h24 := (flush0_3 t).mp hf
  have hN : t.val < 50 := lt_of_lt_of_eq t.isLt (show cfg0.N = 50 from N_0)
  show (cfg0.win 3).cut (grid0.coords t) ((dats m 0 c).after 3 t) = _
  rw [after0_3]
  funext j
  show ((outsAt0 m c t.val t.isLt).1 ((cfg0.win 3).xinj (grid0.coords t) j) : EReal) = G3 xr (((cfg0.win 3).blk t).view.emb j)
  have h0 : (j 0).val < 1 := (j 0).isLt
  have h1 : (j 1).val < 512 := (j 1).isLt
  have h2 : (j 2).val < 1 := (j 2).isLt
  obtain ⟨e0, e1, e2⟩ := idx_facts3 t
  have hj : ((cfg0.win 3).xinj (grid0.coords t) j : S1x512x1.Idx) = ix3 (0 : Fin 1) (⟨(j 1).val, h1⟩ : Fin 512) (0 : Fin 1) := by
    funext a; apply Fin.ext
    match a with
    | ⟨0, _⟩ => show (j 0).val = 0; omega
    | ⟨1, _⟩ => rfl
    | ⟨2, _⟩ => show (j 2).val = 0; omega
  have hi : (((cfg0.win 3).blk t).view.emb j : S2x512x1.Idx) = ix3 (⟨t.val / 25, by omega⟩ : Fin 2) (⟨(j 1).val, h1⟩ : Fin 512) (0 : Fin 1) := by
    funext a; apply Fin.ext
    match a with
    | ⟨0, _⟩ => show win0_3.index t (0 : Fin 3) * 1 + 1 * (j 0).val = t.val / 25; omega
    | ⟨1, _⟩ => show win0_3.index t (1 : Fin 3) * 512 + 1 * (j 1).val = (j 1).val; omega
    | ⟨2, _⟩ => show win0_3.index t (2 : Fin 3) * 1 + 1 * (j 2).val = 0; omega
  rw [hj, hi]
  refine ((out_at m c xr hx lab hlab t h24 ⟨(j 1).val, h1⟩ (seen_nonempty t.val hN)).1).trans ?_
  show ((mOf _ _ _ : ℝ) : EReal) = ((mOf _ _ _ : ℝ) : EReal)
  exact congrArg _ (mOf_congr _ (seen_last t.val h24 ⟨t.val / 25, by omega⟩ rfl) _ _)

/-- An index of the array is in point `t`'s block of window 3 iff each coordinate is in the block's range. -/
private theorem mem_blk3 (t : Fin cfg0.N) (i : S2x512x1.Idx) :
    i ∈ ((cfg0.win 3).blk t).view.set ↔ ∀ a : Fin 3, win0_3.index t a * S1x512x1.size a ≤ (i a).val ∧ (i a).val < win0_3.index t a * S1x512x1.size a + S1x512x1.size a := by
  show i ∈ ((View.whole main_v10_0).slice (win0_3.rect t)).set ↔ _
  rw [View.set_slice_whole, Rect.mem_set_unit]
  exact Iff.rfl

/-- Entry `(q, b, 0)` of window 3's array after the kernel: written back at the last step of core `q`. -/
private theorem arr3_at (c : Dev nD) (xr : Fin 512 → Fin 100000 → ℝ)
    (hx : ∀ b k, logit (embArr m c) (labArr m c) (protoArr m c) b k = ((xr b k : ℝ) : EReal))
    (lab : Fin 512 → Fin 100000) (hlab : ∀ b, labArr m c (ix1 b) = BitVec.ofNat 32 (lab b).val)
    (q : Fin 2) (b : Fin 512) :
    ((dats m 0 c).arrAt 3 cfg0.N : S2x512x1.Idx → EReal) (ix3 q b (0 : Fin 1)) = G3 xr (ix3 q b (0 : Fin 1)) := by
  have hN : cfg0.N = 50 := N_0
  have hq := q.isLt
  have ht : q.val * 25 + 24 < cfg0.N := by omega
  have hf : (cfg0.win 3).flush ⟨q.val * 25 + 24, ht⟩ = true := (flush0_3 _).mpr (by show (q.val * 25 + 24) % 25 = 24; omega)
  refine (dats m 0 c).arrAt_apply_of_mem 3 (G3 xr) (fun t hf => flushed3_eq m c xr hx lab hlab t hf) cfg0.N ⟨q.val * 25 + 24, ht⟩ _ ht hf ?_
  rw [mem_blk3]
  obtain ⟨e0, e1, e2⟩ := idx_facts3 ⟨q.val * 25 + 24, ht⟩
  have e0' : win0_3.index ⟨q.val * 25 + 24, ht⟩ (0 : Fin 3) = q.val := by rw [e0]; show (q.val * 25 + 24) / 25 = q.val; omega
  intro a
  match a with
  | ⟨0, _⟩ => show win0_3.index ⟨q.val * 25 + 24, ht⟩ (0 : Fin 3) * 1 ≤ q.val ∧ q.val < win0_3.index ⟨q.val * 25 + 24, ht⟩ (0 : Fin 3) * 1 + 1; omega
  | ⟨1, _⟩ => show win0_3.index ⟨q.val * 25 + 24, ht⟩ (1 : Fin 3) * 512 ≤ b.val ∧ b.val < win0_3.index ⟨q.val * 25 + 24, ht⟩ (1 : Fin 3) * 512 + 512; have := b.isLt; omega
  | ⟨2, _⟩ => show win0_3.index ⟨q.val * 25 + 24, ht⟩ (2 : Fin 3) * 1 ≤ 0 ∧ 0 < win0_3.index ⟨q.val * 25 + 24, ht⟩ (2 : Fin 3) * 1 + 1; omega

/-- The second output array as it ends: slab `q`, row `b` holds the shifted sum of row `b` over half `q`. -/
private def G4 (xr : Fin 512 → Fin 100000 → ℝ) : S2x512x1.Idx → EReal :=
  fun i => ((lOf (xr (i 1)) (half (i 0)) (half_nonempty (i 0)) : ℝ) : EReal)

/-- Window 4's block index at point `t` is `(t / 25, 0, 0)`. -/
private theorem idx_facts4 : ∀ t : Fin cfg0.N, win0_4.index t (0 : Fin 3) = t.val / 25 ∧ win0_4.index t (1 : Fin 3) = 0 ∧ win0_4.index t (2 : Fin 3) = 0 :=
  (by decide +kernel : ∀ t : Fin grid0.N, win0_4.index t (0 : Fin 3) = t.val / 25 ∧ win0_4.index t (1 : Fin 3) = 0 ∧ win0_4.index t (2 : Fin 3) = 0)

/-- What a write-back of window 4 writes is its block of `G4`. -/
private theorem flushed4_eq (c : Dev nD) (xr : Fin 512 → Fin 100000 → ℝ)
    (hx : ∀ b k, logit (embArr m c) (labArr m c) (protoArr m c) b k = ((xr b k : ℝ) : EReal))
    (lab : Fin 512 → Fin 100000) (hlab : ∀ b, labArr m c (ix1 b) = BitVec.ofNat 32 (lab b).val)
    (t : Fin cfg0.N) (hf : (cfg0.win 4).flush t = true) :
    (dats m 0 c).flushed 4 t = ((cfg0.win 4).blk t).view.read (Elt Ideal) (G4 xr) := by
  have h24 := (flush0_4 t).mp hf
  have hN : t.val < 50 := lt_of_lt_of_eq t.isLt (show cfg0.N = 50 from N_0)
  show (cfg0.win 4).cut (grid0.coords t) ((dats m 0 c).after 4 t) = _
  rw [after0_4]
  funext j
  show ((outsAt0 m c t.val t.isLt).2.1 ((cfg0.win 4).xinj (grid0.coords t) j) : EReal) = G4 xr (((cfg0.win 4).blk t).view.emb j)
  have h0 : (j 0).val < 1 := (j 0).isLt
  have h1 : (j 1).val < 512 := (j 1).isLt
  have h2 : (j 2).val < 1 := (j 2).isLt
  obtain ⟨e0, e1, e2⟩ := idx_facts4 t
  have hj : ((cfg0.win 4).xinj (grid0.coords t) j : S1x512x1.Idx) = ix3 (0 : Fin 1) (⟨(j 1).val, h1⟩ : Fin 512) (0 : Fin 1) := by
    funext a; apply Fin.ext
    match a with
    | ⟨0, _⟩ => show (j 0).val = 0; omega
    | ⟨1, _⟩ => rfl
    | ⟨2, _⟩ => show (j 2).val = 0; omega
  have hi : (((cfg0.win 4).blk t).view.emb j : S2x512x1.Idx) = ix3 (⟨t.val / 25, by omega⟩ : Fin 2) (⟨(j 1).val, h1⟩ : Fin 512) (0 : Fin 1) := by
    funext a; apply Fin.ext
    match a with
    | ⟨0, _⟩ => show win0_4.index t (0 : Fin 3) * 1 + 1 * (j 0).val = t.val / 25; omega
    | ⟨1, _⟩ => show win0_4.index t (1 : Fin 3) * 512 + 1 * (j 1).val = (j 1).val; omega
    | ⟨2, _⟩ => show win0_4.index t (2 : Fin 3) * 1 + 1 * (j 2).val = 0; omega
  rw [hj, hi]
  refine ((out_at m c xr hx lab hlab t h24 ⟨(j 1).val, h1⟩ (seen_nonempty t.val hN)).2.1).trans ?_
  show ((lOf _ _ _ : ℝ) : EReal) = ((lOf _ _ _ : ℝ) : EReal)
  exact congrArg _ (lOf_congr _ (seen_last t.val h24 ⟨t.val / 25, by omega⟩ rfl) _ _)

/-- An index of the array is in point `t`'s block of window 4 iff each coordinate is in the block's range. -/
private theorem mem_blk4 (t : Fin cfg0.N) (i : S2x512x1.Idx) :
    i ∈ ((cfg0.win 4).blk t).view.set ↔ ∀ a : Fin 3, win0_4.index t a * S1x512x1.size a ≤ (i a).val ∧ (i a).val < win0_4.index t a * S1x512x1.size a + S1x512x1.size a := by
  show i ∈ ((View.whole main_v10_1).slice (win0_4.rect t)).set ↔ _
  rw [View.set_slice_whole, Rect.mem_set_unit]
  exact Iff.rfl

/-- Entry `(q, b, 0)` of window 4's array after the kernel: written back at the last step of core `q`. -/
private theorem arr4_at (c : Dev nD) (xr : Fin 512 → Fin 100000 → ℝ)
    (hx : ∀ b k, logit (embArr m c) (labArr m c) (protoArr m c) b k = ((xr b k : ℝ) : EReal))
    (lab : Fin 512 → Fin 100000) (hlab : ∀ b, labArr m c (ix1 b) = BitVec.ofNat 32 (lab b).val)
    (q : Fin 2) (b : Fin 512) :
    ((dats m 0 c).arrAt 4 cfg0.N : S2x512x1.Idx → EReal) (ix3 q b (0 : Fin 1)) = G4 xr (ix3 q b (0 : Fin 1)) := by
  have hN : cfg0.N = 50 := N_0
  have hq := q.isLt
  have ht : q.val * 25 + 24 < cfg0.N := by omega
  have hf : (cfg0.win 4).flush ⟨q.val * 25 + 24, ht⟩ = true := (flush0_4 _).mpr (by show (q.val * 25 + 24) % 25 = 24; omega)
  refine (dats m 0 c).arrAt_apply_of_mem 4 (G4 xr) (fun t hf => flushed4_eq m c xr hx lab hlab t hf) cfg0.N ⟨q.val * 25 + 24, ht⟩ _ ht hf ?_
  rw [mem_blk4]
  obtain ⟨e0, e1, e2⟩ := idx_facts4 ⟨q.val * 25 + 24, ht⟩
  have e0' : win0_4.index ⟨q.val * 25 + 24, ht⟩ (0 : Fin 3) = q.val := by rw [e0]; show (q.val * 25 + 24) / 25 = q.val; omega
  intro a
  match a with
  | ⟨0, _⟩ => show win0_4.index ⟨q.val * 25 + 24, ht⟩ (0 : Fin 3) * 1 ≤ q.val ∧ q.val < win0_4.index ⟨q.val * 25 + 24, ht⟩ (0 : Fin 3) * 1 + 1; omega
  | ⟨1, _⟩ => show win0_4.index ⟨q.val * 25 + 24, ht⟩ (1 : Fin 3) * 512 ≤ b.val ∧ b.val < win0_4.index ⟨q.val * 25 + 24, ht⟩ (1 : Fin 3) * 512 + 512; have := b.isLt; omega
  | ⟨2, _⟩ => show win0_4.index ⟨q.val * 25 + 24, ht⟩ (2 : Fin 3) * 1 ≤ 0 ∧ 0 < win0_4.index ⟨q.val * 25 + 24, ht⟩ (2 : Fin 3) * 1 + 1; omega

/-- The third output array as it ends: slab `q`, row `b` holds the label's logit of row `b` if the label is in half `q`, else zero. -/
private def G5 (xr : Fin 512 → Fin 100000 → ℝ) (lab : Fin 512 → Fin 100000) : S2x512x1.Idx → EReal :=
  fun i => ((llOf (xr (i 1)) (half (i 0)) (lab (i 1)) : ℝ) : EReal)

/-- Window 5's block index at point `t` is `(t / 25, 0, 0)`. -/
private theorem idx_facts5 : ∀ t : Fin cfg0.N, win0_5.index t (0 : Fin 3) = t.val / 25 ∧ win0_5.index t (1 : Fin 3) = 0 ∧ win0_5.index t (2 : Fin 3) = 0 :=
  (by decide +kernel : ∀ t : Fin grid0.N, win0_5.index t (0 : Fin 3) = t.val / 25 ∧ win0_5.index t (1 : Fin 3) = 0 ∧ win0_5.index t (2 : Fin 3) = 0)

/-- What a write-back of window 5 writes is its block of `G5`. -/
private theorem flushed5_eq (c : Dev nD) (xr : Fin 512 → Fin 100000 → ℝ)
    (hx : ∀ b k, logit (embArr m c) (labArr m c) (protoArr m c) b k = ((xr b k : ℝ) : EReal))
    (lab : Fin 512 → Fin 100000) (hlab : ∀ b, labArr m c (ix1 b) = BitVec.ofNat 32 (lab b).val)
    (t : Fin cfg0.N) (hf : (cfg0.win 5).flush t = true) :
    (dats m 0 c).flushed 5 t = ((cfg0.win 5).blk t).view.read (Elt Ideal) (G5 xr lab) := by
  have h24 := (flush0_5 t).mp hf
  have hN : t.val < 50 := lt_of_lt_of_eq t.isLt (show cfg0.N = 50 from N_0)
  show (cfg0.win 5).cut (grid0.coords t) ((dats m 0 c).after 5 t) = _
  rw [after0_5]
  funext j
  show ((outsAt0 m c t.val t.isLt).2.2.1 ((cfg0.win 5).xinj (grid0.coords t) j) : EReal) = G5 xr lab (((cfg0.win 5).blk t).view.emb j)
  have h0 : (j 0).val < 1 := (j 0).isLt
  have h1 : (j 1).val < 512 := (j 1).isLt
  have h2 : (j 2).val < 1 := (j 2).isLt
  obtain ⟨e0, e1, e2⟩ := idx_facts5 t
  have hj : ((cfg0.win 5).xinj (grid0.coords t) j : S1x512x1.Idx) = ix3 (0 : Fin 1) (⟨(j 1).val, h1⟩ : Fin 512) (0 : Fin 1) := by
    funext a; apply Fin.ext
    match a with
    | ⟨0, _⟩ => show (j 0).val = 0; omega
    | ⟨1, _⟩ => rfl
    | ⟨2, _⟩ => show (j 2).val = 0; omega
  have hi : (((cfg0.win 5).blk t).view.emb j : S2x512x1.Idx) = ix3 (⟨t.val / 25, by omega⟩ : Fin 2) (⟨(j 1).val, h1⟩ : Fin 512) (0 : Fin 1) := by
    funext a; apply Fin.ext
    match a with
    | ⟨0, _⟩ => show win0_5.index t (0 : Fin 3) * 1 + 1 * (j 0).val = t.val / 25; omega
    | ⟨1, _⟩ => show win0_5.index t (1 : Fin 3) * 512 + 1 * (j 1).val = (j 1).val; omega
    | ⟨2, _⟩ => show win0_5.index t (2 : Fin 3) * 1 + 1 * (j 2).val = 0; omega
  rw [hj, hi]
  refine ((out_at m c xr hx lab hlab t h24 ⟨(j 1).val, h1⟩ (seen_nonempty t.val hN)).2.2).trans ?_
  show ((llOf _ _ _ : ℝ) : EReal) = ((llOf _ _ _ : ℝ) : EReal)
  rw [seen_last t.val h24 ⟨t.val / 25, by omega⟩ rfl]

/-- An index of the array is in point `t`'s block of window 5 iff each coordinate is in the block's range. -/
private theorem mem_blk5 (t : Fin cfg0.N) (i : S2x512x1.Idx) :
    i ∈ ((cfg0.win 5).blk t).view.set ↔ ∀ a : Fin 3, win0_5.index t a * S1x512x1.size a ≤ (i a).val ∧ (i a).val < win0_5.index t a * S1x512x1.size a + S1x512x1.size a := by
  show i ∈ ((View.whole main_v10_2).slice (win0_5.rect t)).set ↔ _
  rw [View.set_slice_whole, Rect.mem_set_unit]
  exact Iff.rfl

/-- Entry `(q, b, 0)` of window 5's array after the kernel: written back at the last step of core `q`. -/
private theorem arr5_at (c : Dev nD) (xr : Fin 512 → Fin 100000 → ℝ)
    (hx : ∀ b k, logit (embArr m c) (labArr m c) (protoArr m c) b k = ((xr b k : ℝ) : EReal))
    (lab : Fin 512 → Fin 100000) (hlab : ∀ b, labArr m c (ix1 b) = BitVec.ofNat 32 (lab b).val)
    (q : Fin 2) (b : Fin 512) :
    ((dats m 0 c).arrAt 5 cfg0.N : S2x512x1.Idx → EReal) (ix3 q b (0 : Fin 1)) = G5 xr lab (ix3 q b (0 : Fin 1)) := by
  have hN : cfg0.N = 50 := N_0
  have hq := q.isLt
  have ht : q.val * 25 + 24 < cfg0.N := by omega
  have hf : (cfg0.win 5).flush ⟨q.val * 25 + 24, ht⟩ = true := (flush0_5 _).mpr (by show (q.val * 25 + 24) % 25 = 24; omega)
  refine (dats m 0 c).arrAt_apply_of_mem 5 (G5 xr lab) (fun t hf => flushed5_eq m c xr hx lab hlab t hf) cfg0.N ⟨q.val * 25 + 24, ht⟩ _ ht hf ?_
  rw [mem_blk5]
  obtain ⟨e0, e1, e2⟩ := idx_facts5 ⟨q.val * 25 + 24, ht⟩
  have e0' : win0_5.index ⟨q.val * 25 + 24, ht⟩ (0 : Fin 3) = q.val := by rw [e0]; show (q.val * 25 + 24) / 25 = q.val; omega
  intro a
  match a with
  | ⟨0, _⟩ => show win0_5.index ⟨q.val * 25 + 24, ht⟩ (0 : Fin 3) * 1 ≤ q.val ∧ q.val < win0_5.index ⟨q.val * 25 + 24, ht⟩ (0 : Fin 3) * 1 + 1; omega
  | ⟨1, _⟩ => show win0_5.index ⟨q.val * 25 + 24, ht⟩ (1 : Fin 3) * 512 ≤ b.val ∧ b.val < win0_5.index ⟨q.val * 25 + 24, ht⟩ (1 : Fin 3) * 512 + 512; have := b.isLt; omega
  | ⟨2, _⟩ => show win0_5.index ⟨q.val * 25 + 24, ht⟩ (2 : Fin 3) * 1 ≤ 0 ∧ 0 < win0_5.index ⟨q.val * 25 + 24, ht⟩ (2 : Fin 3) * 1 + 1; omega

/-- The three output arrays after the kernel: slab `q`, row `b`. -/
theorem arrays_at (c : Dev nD) (xr : Fin 512 → Fin 100000 → ℝ)
    (hx : ∀ b k, logit (embArr m c) (labArr m c) (protoArr m c) b k = ((xr b k : ℝ) : EReal))
    (lab : Fin 512 → Fin 100000) (hlab : ∀ b, labArr m c (ix1 b) = BitVec.ofNat 32 (lab b).val)
    (q : Fin 2) (b : Fin 512) :
    (((dats m 0 c).arrAt 3 cfg0.N : S2x512x1.Idx → EReal) (ix3 q b (0 : Fin 1)) = ((mOf (xr b) (half q) (half_nonempty q) : ℝ) : EReal))
    ∧ (((dats m 0 c).arrAt 4 cfg0.N : S2x512x1.Idx → EReal) (ix3 q b (0 : Fin 1)) = ((lOf (xr b) (half q) (half_nonempty q) : ℝ) : EReal))
    ∧ (((dats m 0 c).arrAt 5 cfg0.N : S2x512x1.Idx → EReal) (ix3 q b (0 : Fin 1)) = ((llOf (xr b) (half q) (lab b) : ℝ) : EReal)) :=
  ⟨arr3_at m c xr hx lab hlab q b, arr4_at m c xr hx lab hlab q b, arr5_at m c xr hx lab hlab q b⟩

/-! ## The host operations after the kernel -/

/-- Slab `q` of a 2 × 512 × 1 array, sliced out and re-laid as a 512 × 1 column, holds at row `b` the array's
    entry `(q, b, 0)`. -/
private theorem slab_apply (a : S2x512x1.Idx → EReal) (q : Fin 2) (off : Fin 3 → ℕ) (hoff : off = ![q.val, 0, 0])
    (h : S2x512x1.Slices off S1x512x1) (hc : S1x512x1.ShapeCasts S512x1) (b : Fin 512) :
    shapeCast S512x1 (extractStridedSlice S1x512x1 off a h) hc (ix2 b (0 : Fin 1)) = a (ix3 q b (0 : Fin 1)) := by
  subst hoff
  refine (shapeCast_1ab_ab_apply _ hc b 0).trans ?_
  exact extractStridedSlice_apply _ a h _ _ fun ax => match ax with
    | ⟨0, _⟩ => by show q.val = q.val + 0; omega
    | ⟨1, _⟩ => by show b.val = 0 + b.val; omega
    | ⟨2, _⟩ => by show 0 = 0 + 0; rfl

/-- The two halves are disjoint -/
private theorem half_disjoint : Disjoint (half 0) (half 1) := by
  rw [Finset.disjoint_left]
  intro k h0 h1
  unfold half cols at h0 h1
  simp only [Finset.mem_filter, Finset.mem_univ, true_and] at h0 h1
  have z0 : ((0 : Fin 2) : ℕ) = 0 := rfl
  have z1 : ((1 : Fin 2) : ℕ) = 1 := rfl
  omega

/-- and together are all the columns. -/
private theorem half_union : half 0 ∪ half 1 = Finset.univ := by
  ext k
  unfold half cols
  simp only [Finset.mem_union, Finset.mem_filter, Finset.mem_univ, true_and, iff_true]
  have z0 : ((0 : Fin 2) : ℕ) = 0 := rfl
  have z1 : ((1 : Fin 2) : ℕ) = 1 := rfl
  have hk := k.isLt
  omega

set_option maxHeartbeats 4000000 in
/-- The kernel program's first result is the mean of the rows' losses. -/
theorem result_eq (c : Dev nD) (xr : Fin 512 → Fin 100000 → ℝ)
    (hx : ∀ b k, logit (embArr m c) (labArr m c) (protoArr m c) b k = ((xr b k : ℝ) : EReal))
    (lab : Fin 512 → Fin 100000) (hlab : ∀ b, labArr m c (ix1 b) = BitVec.ofNat 32 (lab b).val) :
    (Pipeline.afterTail₀ cfgs (dats m) 0 (V0 m) [hostOps1] c main_v36 : S_.Idx → EReal)
      = fun _ => ((lossR xr lab : ℝ) : EReal) := by
  unfold Pipeline.afterTail₀
  show StableHlo.after hostOps1 _ (Proc.devRef .tc main_v36) = _
  after_results_simp
  have h3 : Pipeline.withArrays (cfgs 0).spec c (V0 m c) (fun w => (dats m 0 c).arrAt w (cfgs 0).N) (Proc.devRef .tc main_v10_0)
      = (dats m 0 c).arrAt 3 cfg0.N := Pipeline.withArrays_arr spec0 launch0.win.arr_inj c _ _ 3
  have h4 : Pipeline.withArrays (cfgs 0).spec c (V0 m c) (fun w => (dats m 0 c).arrAt w (cfgs 0).N) (Proc.devRef .tc main_v10_1)
      = (dats m 0 c).arrAt 4 cfg0.N := Pipeline.withArrays_arr spec0 launch0.win.arr_inj c _ _ 4
  have h5 : Pipeline.withArrays (cfgs 0).spec c (V0 m c) (fun w => (dats m 0 c).arrAt w (cfgs 0).N) (Proc.devRef .tc main_v10_2)
      = (dats m 0 c).arrAt 5 cfg0.N := Pipeline.withArrays_arr spec0 launch0.win.arr_inj c _ _ 5
  rw [h3, h4, h5]
  funext j
  show Ideal.div (Ideal.hostReduceAdd _ _ (Ideal.ofBits .f32 0#32) j) (Ideal.ofBits .f32 0x44000000#32) = _
  rw [Ideal.hostReduceAdd_total _ (fun b => b.elim0), sum_idx2]
  refine Eq.trans (congrArg (fun s => Ideal.div (Ideal.ofBits .f32 0#32 + s) (Ideal.ofBits .f32 0x44000000#32))
    (Finset.sum_congr rfl fun a _ => (Fin.sum_univ_one _).trans (?_ : _ = ((rowLoss (xr a) (lab a) : ℝ) : EReal)))) ?_
  · obtain ⟨e30, e40, e50⟩ := arrays_at m c xr hx lab hlab 0 a
    obtain ⟨e31, e41, e51⟩ := arrays_at m c xr hx lab hlab 1 a
    have s30 := slab_apply ((dats m 0 c).arrAt 3 cfg0.N) 0 ![0, 0, 0] rfl slices_S2x512x1_S1x512x1_0_0_0 shapeCasts_S1x512x1_S512x1 a
    have s31 := slab_apply ((dats m 0 c).arrAt 3 cfg0.N) 1 ![1, 0, 0] rfl slices_S2x512x1_S1x512x1_1_0_0 shapeCasts_S1x512x1_S512x1 a
    have s40 := slab_apply ((dats m 0 c).arrAt 4 cfg0.N) 0 ![0, 0, 0] rfl slices_S2x512x1_S1x512x1_0_0_0 shapeCasts_S1x512x1_S512x1 a
    have s41 := slab_apply ((dats m 0 c).arrAt 4 cfg0.N) 1 ![1, 0, 0] rfl slices_S2x512x1_S1x512x1_1_0_0 shapeCasts_S1x512x1_S512x1 a
    have s50 := slab_apply ((dats m 0 c).arrAt 5 cfg0.N) 0 ![0, 0, 0] rfl slices_S2x512x1_S1x512x1_0_0_0 shapeCasts_S1x512x1_S512x1 a
    have s51 := slab_apply ((dats m 0 c).arrAt 5 cfg0.N) 1 ![1, 0, 0] rfl slices_S2x512x1_S1x512x1_1_0_0 shapeCasts_S1x512x1_S512x1 a
    refine Eq.trans ?_ (merge_halves (xr a) (half 0) (half 1) (half_nonempty 0) (half_nonempty 1) half_disjoint half_union (lab a))
    rw [← e30, ← e40, ← e50, ← e31, ← e41, ← e51, ← s30, ← s31, ← s40, ← s41, ← s50, ← s51]
    rfl
  · rw [Ideal.ofBits_zero_f32]
    exact kLoss_coe fun b => rowLoss (xr b) (lab b)

set_option maxHeartbeats 4000000 in
/-- The two constant results. -/
theorem result_cst (c : Dev nD) :
    Pipeline.afterTail₀ cfgs (dats m) 0 (V0 m) [hostOps1] c main_cst = constant (F := Ideal) S1 .f32 0xBF800000#32
    ∧ Pipeline.afterTail₀ cfgs (dats m) 0 (V0 m) [hostOps1] c main_cst_0 = constant (F := Ideal) S1 .f32 0xBF800000#32 := by
  constructor
  · unfold Pipeline.afterTail₀
    show StableHlo.after hostOps1 _ (Proc.devRef .tc main_cst) = _
    after_results_simp
    rw [Pipeline.withArrays_of_ne _ c (V0 m c) _ main_cst (by exact (by decide : ∀ w, Pipeline.arrRef spec0 w ≠ main_cst))]
    show StableHlo.after hostOps0 _ (Proc.devRef .tc main_cst) = _
    after_results_simp
  · unfold Pipeline.afterTail₀
    show StableHlo.after hostOps1 _ (Proc.devRef .tc main_cst_0) = _
    after_results_simp
    rw [Pipeline.withArrays_of_ne _ c (V0 m c) _ main_cst_0 (by exact (by decide : ∀ w, Pipeline.arrRef spec0 w ≠ main_cst_0))]
    show StableHlo.after hostOps0 _ (Proc.devRef .tc main_cst_0) = _
    after_results_simp

end Cert.KernelIdeal.Result

end
-- ==== Proof.RefLogits.lean ====
/-
  The reference's logits, read at an index.

  The reference normalises the rows of both float inputs, multiplies the two normalised arrays (one
  contraction over the 256 features), forms the clipped sine and the margin form of every cosine, and
  mixes them with the one-hot mask of the labels as `mask · φ + (1 − mask) · cos` before scaling.  The
  mask is 1 exactly at the label's column and 0 elsewhere, and on the extended reals `1 · x + 0 · y = x`
  and `0 · x + 1 · y = y` for every `x, y` (zero times anything is zero), so the mixture is the
  specification's `if`.
-/
import proofs.«418070_j52424370815316_1_alg».proof.Proof.RefRead
import proofs.«418070_j52424370815316_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.ReadP Cert.Margin
open Idealize.ShloMosaic Idealize.ShloMosaic.TcCoe Idealize.ShloMosaic.ValueIdx
open scoped BigOperators

/-- The guarded norm of row `b` of the embeddings. -/
private theorem v5_at (E : (⟨S512x256, .f32⟩ : BufTy).Contents (Elt Ideal)) (b : Fin 512) :
    (val_main_v5 (F := Ideal) E (ix2 b (0 : Fin 1)) : EReal) = rowNorm E b := by
  have e2 : idx_main_v2 (ix2 b (0 : Fin 1)) = ix1 b := by
    funext a; match a with | ⟨0, _⟩ => rfl
  have e1 : ∀ d : Fin 256, idx_main_v1 (ix1 b) d = ix2 b d := fun d => by
    funext a; match a with | ⟨0, _⟩ => rfl | ⟨1, _⟩ => rfl
  rw [val_main_v5_apply, val_main_v3_apply, val_main_v2_apply, e2, val_main_v1_apply, val_main_v4_apply,
    val_main_cst_2_apply, val_main_cst_1_apply]
  simp only [e1, val_main_v0_apply, Ideal.mulf_def, Ideal.maximumf_def, Ideal.hostUnary_sqrt_def, Ideal.ofBits_def,
    Ideal.ofBits_zero_f32, zero_add]
  rfl

/-- The normalised embeddings, entry by entry. -/
private theorem v7_at (E : (⟨S512x256, .f32⟩ : BufTy).Contents (Elt Ideal)) (b : Fin 512) (d : Fin 256) :
    (val_main_v7 (F := Ideal) E (ix2 b d) : EReal) = unit E b d := by
  have e6 : idx_main_v6 (ix2 b d) = ix2 b (0 : Fin 1) := by
    funext a; match a with | ⟨0, _⟩ => rfl | ⟨1, _⟩ => rfl
  rw [val_main_v7_apply, val_main_v6_apply, e6, v5_at]
  rfl

/-- The guarded norm of row `k` of the prototypes. -/
private theorem v13_at (P : (⟨S100000x256, .f32⟩ : BufTy).Contents (Elt Ideal)) (k : Fin 100000) :
    (val_main_v13 (F := Ideal) P (ix2 k (0 : Fin 1)) : EReal) = rowNorm P k := by
  have e2 : idx_main_v10 (ix2 k (0 : Fin 1)) = ix1 k := by
    funext a; match a with | ⟨0, _⟩ => rfl
  have e1 : ∀ d : Fin 256, idx_main_v9 (ix1 k) d = ix2 k d := fun d => by
    funext a; match a with | ⟨0, _⟩ => rfl | ⟨1, _⟩ => rfl
  rw [val_main_v13_apply, val_main_v11_apply, val_main_v10_apply, e2, val_main_v9_apply, val_main_v12_apply,
    val_main_cst_4_apply, val_main_cst_3_apply]
  simp only [e1, val_main_v8_apply, Ideal.mulf_def, Ideal.maximumf_def, Ideal.hostUnary_sqrt_def, Ideal.ofBits_def,
    Ideal.ofBits_zero_f32, zero_add]
  rfl

/-- The normalised prototypes, entry by entry. -/
private theorem v15_at (P : (⟨S100000x256, .f32⟩ : BufTy).Contents (Elt Ideal)) (k : Fin 100000) (d : Fin 256) :
    (val_main_v15 (F := Ideal) P (ix2 k d) : EReal) = unit P k d := by
  have e14 : idx_main_v14 (ix2 k d) = ix2 k (0 : Fin 1) := by
    funext a; match a with | ⟨0, _⟩ => rfl | ⟨1, _⟩ => rfl
  rw [val_main_v15_apply, val_main_v14_apply, e14, v13_at]
  rfl

/-- The contraction over the 256 features is the cosine. -/
private theorem v17_at (E : (⟨S512x256, .f32⟩ : BufTy).Contents (Elt Ideal))
    (P : (⟨S100000x256, .f32⟩ : BufTy).Contents (Elt Ideal)) (b : Fin 512) (k : Fin 100000) :
    (val_main_v17 (F := Ideal) E P (ix2 b k) : EReal) = cosv E P b k := by
  rw [val_main_v17_apply]
  unfold cosv
  refine Finset.sum_congr rfl fun d _ => ?_
  have el : lidx_main_v17 (ix2 b k) d = ix2 b d := by
    funext a; match a with | ⟨0, _⟩ => rfl | ⟨1, _⟩ => rfl
  have er : ridx_main_v17 (ix2 b k) d = ix2 d k := by
    funext a; match a with | ⟨0, _⟩ => rfl | ⟨1, _⟩ => rfl
  have e16 : idx_main_v16 (ix2 d k) = ix2 k d := by
    funext a; match a with | ⟨0, _⟩ => rfl | ⟨1, _⟩ => rfl
  rw [el, er, val_main_v16_apply, e16, v7_at, v15_at]

/-- The clipped sine of the cosine. -/
private theorem v24_at (E : (⟨S512x256, .f32⟩ : BufTy).Contents (Elt Ideal))
    (P : (⟨S100000x256, .f32⟩ : BufTy).Contents (Elt Ideal)) (b : Fin 512) (k : Fin 100000) :
    (val_main_v24 (F := Ideal) E P (ix2 b k) : EReal) = sine (cosv E P b k) := by
  simp only [val_main_v24_apply, val_main_call0_v4_apply, val_main_call0_v3_apply, val_main_cst_8_apply,
    val_main_call0_v2_apply, val_main_call0_v1_apply, val_main_call0_v0_apply, val_main_cst_7_apply,
    val_main_v23_apply, val_main_v22_apply, val_main_v20_apply, val_main_v19_apply, val_main_cst_5_apply,
    val_main_v18_apply, val_main_v21_apply, val_main_cst_6_apply, v17_at,
    Ideal.mulf_def, Ideal.subf_def, Ideal.maximumf_def, Ideal.minimumf_def, Ideal.hostUnary_sqrt_def, Ideal.ofBits_def]
  rfl

/-- The margin form of the cosine. -/
private theorem v29_at (E : (⟨S512x256, .f32⟩ : BufTy).Contents (Elt Ideal))
    (P : (⟨S100000x256, .f32⟩ : BufTy).Contents (Elt Ideal)) (b : Fin 512) (k : Fin 100000) :
    (val_main_v29 (F := Ideal) E P (ix2 b k) : EReal) = phi (cosv E P b k) := by
  simp only [val_main_v29_apply, val_main_v26_apply, val_main_v28_apply, val_main_v25_apply, val_main_v27_apply,
    val_main_cst_9_apply, val_main_cst_10_apply, v17_at, v24_at,
    Ideal.mulf_def, Ideal.subf_def, Ideal.ofBits_def]
  rfl

/-- The one-hot mask of the labels: one at the label's column, zero elsewhere. -/
private theorem v30_at (L : (⟨S512, .i32⟩ : BufTy).Contents (Elt Ideal)) (b : Fin 512) (k : Fin 100000) :
    (val_main_v30 (F := Ideal) L (ix2 b k) : EReal) = if L (ix1 b) = BitVec.ofNat 32 k.val then 1 else 0 := by
  have e2 : idx_main_call1_v2 (ix2 b k) = ix2 b (0 : Fin 1) := by
    funext a; match a with | ⟨0, _⟩ => rfl | ⟨1, _⟩ => rfl
  have e0 : idx_main_call1_v0 (ix2 b (0 : Fin 1)) = ix1 b := by
    funext a; match a with | ⟨0, _⟩ => rfl
  have e3 : idx_main_call1_v3 (ix2 b k) = ix2 (0 : Fin 1) k := by
    funext a; match a with | ⟨0, _⟩ => rfl | ⟨1, _⟩ => rfl
  rw [val_main_v30_apply, val_main_call1_v4_apply, val_main_call1_v2_apply, e2, val_main_call1_v0_apply, e0,
    val_main_call1_v3_apply, e3, val_main_call1_v1_apply]
  show (((IntOp.cmpi .eq (L (ix1 b)) (BitVec.ofNat 32 k.val)).toNat : ℝ) : EReal) = _
  by_cases h : L (ix1 b) = BitVec.ofNat 32 k.val
  · rw [if_pos h]; simp [IntOp.cmpi, h]
  · rw [if_neg h]; simp [IntOp.cmpi, h]

/-- The stage the reference feeds to its log-softmax is the specification's logits. -/
theorem logits_apply (E : (⟨S512x256, .f32⟩ : BufTy).Contents (Elt Ideal)) (L : (⟨S512, .i32⟩ : BufTy).Contents (Elt Ideal))
    (P : (⟨S100000x256, .f32⟩ : BufTy).Contents (Elt Ideal)) (b : Fin 512) (k : Fin 100000) :
    (val_main_v37 (F := Ideal) E L P (ix2 b k) : EReal) = logit E L P b k := by
  have h1 : Ideal.ofBits .f32 0x3F800000#32 = 1 := by
    rw [show (1 : EReal) = ((1 : ℝ) : EReal) by norm_cast]
    simp [Ideal.ofBits, Ideal.ieee, -EReal.coe_mul]; norm_num
  simp only [val_main_v37_apply, val_main_v35_apply, val_main_v31_apply, val_main_v34_apply, val_main_v33_apply,
    val_main_v32_apply, val_main_cst_11_apply, val_main_v36_apply, val_main_cst_12_apply, v30_at, v29_at, v17_at,
    Ideal.mulf_def, Ideal.addf_def, Ideal.subf_def, Ideal.ofBits_def, h1]
  unfold logit scale
  by_cases h : L (ix1 b) = BitVec.ofNat 32 k.val
  · simp only [if_pos h]
    rw [one_mul, show (1 : EReal) - 1 = 0 by
      rw [← EReal.coe_one, ← EReal.coe_sub, sub_self, EReal.coe_zero], zero_mul, add_zero]
  · simp only [if_neg h]
    rw [zero_mul, sub_zero, one_mul, zero_add]

end Cert.ReferenceIdeal.RefValue

end
-- ==== Proof.RefTail.lean ====
/-
  The reference's tail: log-softmax, the entry at the label, the negated mean.

  The log-softmax of a row subtracts the row maximum, exponentiates, sums, takes the logarithm and
  subtracts it again (`rRow`).  The entry at the label is fetched by an index that is first wrapped
  (a negative label has the row length added) and then tested for range; for a label that is a column
  index neither does anything, so the fetched value is the log-softmax at the label's column.  The result
  is minus the mean over rows (`rLoss`).
-/
import proofs.«418070_j52424370815316_1_alg».proof.Proof.RefRead
import proofs.«418070_j52424370815316_1_alg».proof.Proof.RefLogits
import proofs.«418070_j52424370815316_1_alg».proof.Proof.Merge
import proofs.«418070_j52424370815316_1_alg».proof.Proof.Spec
import Idealize.ShloMosaic.Lib.ValueIdx
import Idealize.ShloMosaic.Lib.ValueLayout
import Idealize.ShloMosaic.Lib.ReduceAll
import Idealize.ShloMosaic.Lib.Pipeline.Value
import Idealize.ShloMosaic.Lib.StableHlo.Predicate
import Idealize.ShloMosaic.PureOps.Ideal.Laws

set_option maxRecDepth 16384

noncomputable section

namespace Cert.ReferenceIdeal.RefValue

open Cert.ReferenceIdeal Cert.ReferenceIdeal.Gen Cert.ReferenceIdeal.ReadP Cert.Margin
open Idealize.ShloMosaic Idealize.ShloMosaic.TcCoe Idealize.ShloMosaic.ValueIdx
open scoped BigOperators

/-- The bit pattern of minus infinity is the bottom element. -/
private theorem negInf_eq : Ideal.ofBits .f32 0xFF800000#32 = (⊥ : EReal) := by
  simp [Ideal.ofBits, Ideal.ieee]

/-- Row `b` with column `k` put back on the reduced axis is the entry `(b, k)`. -/
private theorem lift_row (h : S512x100000.Reduces [1] S512) (b : Fin 512) (k : Fin (S512x100000.size 1)) :
    h.lift (ix1 b) k = ix2 b (⟨k.val, k.isLt⟩ : Fin 100000) := by
  funext c; apply Fin.ext
  fin_cases c <;> rfl

/-- The reduce by maximum from minus infinity along a row is the running maximum of the row from the bottom element. -/
private theorem rowmax_apply (E : (⟨S512x256, .f32⟩ : BufTy).Contents (Elt Ideal)) (L : (⟨S512, .i32⟩ : BufTy).Contents (Elt Ideal))
    (P : (⟨S100000x256, .f32⟩ : BufTy).Contents (Elt Ideal)) (b : Fin 512) :
    (val_main_call2_v0 (F := Ideal) E L P (ix1 b) : EReal)
      = rmax ⊥ (fun k => (val_main_v37 (F := Ideal) E L P (ix2 b k) : EReal)) := by
  unfold val_main_call2_v0
  generalize val_main_v37 (F := Ideal) E L P = x
  have h : S512x100000.Reduces [1] S512 := by decide
  rw [Host.reduce_eq_fold_single (FloatOps.maximumf (F := Ideal) (φ := .f32)) (x : S512x100000.Idx → Ideal .f32) (val_main_call2_cst (F := Ideal)) reducesTo_S512x100000_S512_d1 h h_S_ (ix1 b)]
  have hf : (x ∘ h.lift (ix1 b)) = fun k : Fin 100000 => x (ix2 b k) := funext fun k => congrArg x (lift_row h b k)
  refine Eq.trans (congrArg (fun f => Finset.fold FloatOps.maximumf _ f (Finset.univ : Finset (Fin 100000))) hf) ?_
  show Finset.fold max (Ideal.ofBits .f32 0xFF800000#32) _ _ = _
  rw [negInf_eq]
  rfl

/-! ## Small words -/

/-- A column index, as a 32-bit word, has itself as its value. -/
private theorem word_toNat (n : Nat) (hn : n < 100000) : (BitVec.ofNat 32 n).toNat = n := by
  rw [BitVec.toNat_ofNat]; exact Nat.mod_eq_of_lt (by omega)

/-- A column index is not negative as a signed word. -/
private theorem cmpi_slt_small (n : Nat) (hn : n < 100000) : IntOp.cmpi .slt (BitVec.ofNat 32 n) 0#32 = 0#1 := by
  apply eq_zero_of_ne_one
  intro h
  have := (StableHlo.Predicate.slt_iff_toNat (a := BitVec.ofNat 32 n) (b := 0#32) (by rw [word_toNat n hn]; omega) (by decide)).1 h
  simp at this

/-- A column index is at least zero as a signed word. -/
private theorem cmpi_sge_small (n : Nat) (hn : n < 100000) : IntOp.cmpi .sge (BitVec.ofNat 32 n) 0#32 = 1#1 :=
  (StableHlo.Predicate.sge_iff_toNat (a := BitVec.ofNat 32 n) (b := 0#32) (by rw [word_toNat n hn]; omega) (by decide)).2 (by simp)

/-- A column index is at most the last column as a signed word. -/
private theorem cmpi_sle_small (n : Nat) (hn : n < 100000) : IntOp.cmpi .sle (BitVec.ofNat 32 n) 99999#32 = 1#1 :=
  (StableHlo.Predicate.sle_iff_toNat (a := BitVec.ofNat 32 n) (b := 99999#32) (by rw [word_toNat n hn]; omega) (by decide)).2
    (by rw [word_toNat n hn]; show n ≤ 99999; omega)

/-- A column index read back signed is itself. -/
private theorem word_toInt_toNat (n : Nat) (hn : n < 100000) : (BitVec.ofNat 32 n).toInt.toNat = n := by
  rw [StableHlo.Predicate.toInt_ofNat_small n (by omega)]; rfl

/-! ## The and-reduce over the unit axis -/

/-- The reduced axis has one coordinate: putting it back gives `(b, 0, 0)`. -/
private theorem lift_unit (h : S512x1x1.Reduces [2] S512x1) (b : Fin 512) (k : Fin (S512x1x1.size 2)) :
    h.lift (ix2 b (0 : Fin 1)) k = ix3 b (0 : Fin 1) (0 : Fin 1) := by
  funext c; apply Fin.ext
  have hk : k.val = 0 := by have := k.isLt; show k.val = 0; change k.val < 1 at this; omega
  fin_cases c
  · rfl
  · rfl
  · show k.val = 0; exact hk

/-- The reduce by `and` over an axis of one coordinate is that one entry, and-ed with the initial 1. -/
private theorem and_apply (L : (⟨S512, .i32⟩ : BufTy).Contents (Elt Ideal)) (b : Fin 512) :
    val_main_call3_v12 (F := Ideal) L (ix2 b (0 : Fin 1))
      = IntOp.andi (val_main_call3_v11 (F := Ideal) L (ix3 b (0 : Fin 1) (0 : Fin 1))) 1#1 := by
  unfold val_main_call3_v12
  generalize val_main_call3_v11 (F := Ideal) L = x
  have h : S512x1x1.Reduces [2] S512x1 := by decide
  rw [Host.reduce_eq_fold_single (IntOp.andi (w := 1)) (x : S512x1x1.Idx → BitVec 1) (val_main_call3_c_3 (F := Ideal)) reducesTo_S512x1x1_S512x1_d2 h h_S_ (ix2 b (0 : Fin 1))]
  have hf : (x ∘ h.lift (ix2 b (0 : Fin 1))) = fun k : Fin 1 => x (ix3 b (0 : Fin 1) (0 : Fin 1)) := funext fun k => congrArg x (lift_unit h b k)
  refine Eq.trans (congrArg (fun f => Finset.fold IntOp.andi _ f (Finset.univ : Finset (Fin 1))) hf) ?_
  rw [Finset.univ_unique, Finset.fold_singleton]
  rfl

/-! ## The gather, read at a row -/

local notation "gd" => gather_S512x100000_S512x1x1_S512x1_n_1_0_0_1_2_11

/-- The gather at row `b`: row `b` of the operand at the row's start index, read signed and clamped into the columns. -/
private theorem gather_apply {α : Type} (x : S512x100000.Idx → α) (idx : IVec S512x1x1 32) (b : Fin 512) :
    Host.gather gd x idx (ix2 b (0 : Fin 1))
      = x (ix2 b (⟨min (idx (ix3 b (0 : Fin 1) (0 : Fin 1))).toInt.toNat 99999, by omega⟩ : Fin 100000)) := by
  unfold Host.gather
  show x _ = x _
  congr 1
  funext a
  apply Fin.ext
  match a with
  | ⟨0, _⟩ =>
    show GatherDims.start _ _ idx 0 + GatherDims.batchCoord _ _ 0 + GatherDims.offCoord _ _ 0 = b.val
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ (gd).operandBatchingDims from List.mem_singleton.mpr rfl)]
    rw [Nat.zero_add, Nat.add_zero]
    rfl
  | ⟨1, _⟩ =>
    show GatherDims.start _ _ idx 1 + GatherDims.batchCoord _ _ 1 + GatherDims.offCoord _ _ 1 = _
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    unfold GatherDims.start
    rw [dif_pos (show (1 : Fin 2) ∈ (gd).startIndexMap from List.mem_singleton.mpr rfl)]
    have hsi : (gd).siIdx (ix2 b (0 : Fin 1))
        ⟨List.idxOf (1 : Fin 2) (gd).startIndexMap,
          List.idxOf_lt_length_iff.2 (show (1 : Fin 2) ∈ (gd).startIndexMap from List.mem_singleton.mpr rfl)⟩ = ix3 b (0 : Fin 1) (0 : Fin 1) := by
      funext c; refine Fin.ext ?_
      match c with
      | ⟨0, _⟩ => rfl
      | ⟨1, _⟩ => rfl
      | ⟨2, _⟩ => rfl
    rw [hsi]
    rfl

/-! ## The log-softmax of a row -/

section Chain

variable (E : (⟨S512x256, .f32⟩ : BufTy).Contents (Elt Ideal)) (L : (⟨S512, .i32⟩ : BufTy).Contents (Elt Ideal))
  (P : (⟨S100000x256, .f32⟩ : BufTy).Contents (Elt Ideal))

/-- The shift: the larger of minus infinity and the row's maximum. -/
private theorem shift_apply (b : Fin 512) :
    (val_main_call2_v2 (F := Ideal) E L P (ix1 b) : EReal)
      = max ⊥ (rmax ⊥ (fun k => (val_main_v37 (F := Ideal) E L P (ix2 b k) : EReal))) := by
  rw [val_main_call2_v2_apply, Ideal.maximumf_def, val_main_call2_v1_apply, val_main_call2_cst_0_apply, Ideal.ofBits_def,
    negInf_eq, rowmax_apply]

/-- The shift, broadcast along the row. -/
private theorem shiftB_apply (b : Fin 512) (k : Fin 100000) :
    val_main_call2_v4 (F := Ideal) E L P (ix2 b k) = val_main_call2_v2 (F := Ideal) E L P (ix1 b) := by
  rw [val_main_call2_v4_apply, val_main_call2_v3_apply]
  exact congrArg _ (by funext a; fin_cases a; rfl)

/-- The shifted logit. -/
private theorem shifted_apply (b : Fin 512) (k : Fin 100000) :
    (val_main_call2_v5 (F := Ideal) E L P (ix2 b k) : EReal)
      = (val_main_v37 (F := Ideal) E L P (ix2 b k) : EReal)
        - max ⊥ (rmax ⊥ (fun k => (val_main_v37 (F := Ideal) E L P (ix2 b k) : EReal))) := by
  rw [val_main_call2_v5_apply, Ideal.subf_def, shiftB_apply, shift_apply]

/-- The row's sum of exponentials of the shifted logits. -/
private theorem expsum_apply (b : Fin 512) :
    (val_main_call2_v7 (F := Ideal) E L P (ix1 b) : EReal)
      = 0 + ∑ j : Fin 100000, Ideal.exp ((val_main_v37 (F := Ideal) E L P (ix2 b j) : EReal)
          - max ⊥ (rmax ⊥ (fun k => (val_main_v37 (F := Ideal) E L P (ix2 b k) : EReal)))) := by
  rw [val_main_call2_v7_apply, val_main_call2_cst_1_apply, Ideal.ofBits_def, Ideal.ofBits_zero_f32]
  refine congrArg (0 + ·) (Finset.sum_congr rfl fun j _ => ?_)
  rw [val_main_call2_v6_apply, Ideal.hostUnary_exp_def]
  have hi : idx_main_call2_v7 (ix1 b) j = ix2 b j := by funext a; fin_cases a <;> rfl
  rw [hi, shifted_apply]

/-- The logarithm of the row's sum, broadcast along the row. -/
private theorem logsum_apply (b : Fin 512) (k : Fin 100000) :
    val_main_call2_v10 (F := Ideal) E L P (ix2 b k) = Ideal.log (val_main_call2_v7 (F := Ideal) E L P (ix1 b)) := by
  rw [val_main_call2_v10_apply, val_main_call2_v9_apply, Ideal.hostUnary_log_def, val_main_call2_v8_apply]
  exact congrArg (fun i => Ideal.log (val_main_call2_v7 (F := Ideal) E L P i)) (by funext a; fin_cases a; rfl)

/-- The log-softmax stage is the specification's row function. -/
private theorem logsoftmax_apply (b : Fin 512) (k : Fin 100000) :
    (val_main_v38 (F := Ideal) E L P (ix2 b k) : EReal)
      = rRow (fun k => (val_main_v37 (F := Ideal) E L P (ix2 b k) : EReal)) k := by
  rw [val_main_v38_apply, Ideal.subf_def, shifted_apply, logsum_apply, expsum_apply]
  rfl

end Chain

/-! ## The entry at the label -/

section Take

variable (E : (⟨S512x256, .f32⟩ : BufTy).Contents (Elt Ideal)) (L : (⟨S512, .i32⟩ : BufTy).Contents (Elt Ideal))
  (P : (⟨S100000x256, .f32⟩ : BufTy).Contents (Elt Ideal))
  (lab : Fin 512 → Fin 100000) (hlab : ∀ b, L (ix1 b) = BitVec.ofNat 32 (lab b).val)

include hlab

/-- The label of row `b`, as a column. -/
private theorem label_apply (b : Fin 512) :
    val_main_v39 (F := Ideal) L (ix2 b (0 : Fin 1)) = BitVec.ofNat 32 (lab b).val := by
  rw [val_main_v39_apply]
  have hi : idx_main_v39 (ix2 b (0 : Fin 1)) = ix1 b := by funext a; fin_cases a; rfl
  rw [hi, hlab]

/-- A label that is a column index is not negative, so wrapping leaves it alone. -/
private theorem wrapped_apply (b : Fin 512) :
    val_main_call3_v4 (F := Ideal) L (ix2 b (0 : Fin 1)) = BitVec.ofNat 32 (lab b).val := by
  rw [val_main_call3_v4_apply, val_main_call3_v1_apply, val_main_call3_v0_apply, val_main_call3_c_apply,
    label_apply L lab hlab, cmpi_slt_small _ (lab b).isLt, select_zero]

/-- The start index of row `b`. -/
private theorem start_apply (b : Fin 512) :
    val_main_call3_v5 (F := Ideal) L (ix3 b (0 : Fin 1) (0 : Fin 1)) = BitVec.ofNat 32 (lab b).val := by
  rw [val_main_call3_v5_apply]
  have hi : idx_main_call3_v5 (ix3 b (0 : Fin 1) (0 : Fin 1)) = ix2 b (0 : Fin 1) := by
    funext a; apply Fin.ext; fin_cases a
    · show ((b.val * 1 + 0) * 1 + 0) / 1 = b.val; omega
    · rfl
  rw [hi, wrapped_apply L lab hlab]

/-- Both range tests pass. -/
private theorem inrange_apply (b : Fin 512) :
    val_main_call3_v12 (F := Ideal) L (ix2 b (0 : Fin 1)) = 1#1 := by
  rw [and_apply, val_main_call3_v11_apply, val_main_call3_v7_apply, val_main_call3_v10_apply, val_main_call3_v6_apply,
    val_main_call3_c_2_apply, val_main_call3_v9_apply, val_main_call3_v8_apply, val_main_call3_c_1_apply,
    start_apply L lab hlab, cmpi_sge_small _ (lab b).isLt, cmpi_sle_small _ (lab b).isLt]
  rfl

/-- The fetched entry is the log-softmax at the label's column. -/
private theorem taken_apply (b : Fin 512) :
    val_main_v40 (F := Ideal) E L P (ix2 b (0 : Fin 1)) = val_main_v38 (F := Ideal) E L P (ix2 b (lab b)) := by
  rw [val_main_v40_apply, inrange_apply L lab hlab, select_one]
  unfold val_main_call3_v13
  rw [gather_apply]
  refine congrArg (fun k => val_main_v38 (F := Ideal) E L P (ix2 b k)) (Fin.ext ?_)
  show min (val_main_call3_v5 (F := Ideal) L (ix3 b (0 : Fin 1) (0 : Fin 1))).toInt.toNat 99999 = (lab b).val
  rw [start_apply L lab hlab, word_toInt_toNat _ (lab b).isLt]
  have := (lab b).isLt
  omega

end Take

/-- The indices of a one-axis array are its coordinates. -/
private def idx1Equiv : Fin 512 ≃ S512.Idx where
  toFun := ix1
  invFun := fun j => j 0
  left_inv := fun _ => rfl
  right_inv := fun j => (eq_ix1 j).symm

/-- The reference's result in terms of its logits stage, for labels that are column indices. -/
theorem tail_eq (E : (⟨S512x256, .f32⟩ : BufTy).Contents (Elt Ideal)) (L : (⟨S512, .i32⟩ : BufTy).Contents (Elt Ideal))
    (P : (⟨S100000x256, .f32⟩ : BufTy).Contents (Elt Ideal))
    (lab : Fin 512 → Fin 100000) (hlab : ∀ b, L (ix1 b) = BitVec.ofNat 32 (lab b).val) :
    (val_main_v44 (F := Ideal) E L P : S_.Idx → EReal)
      = fun _ => rLoss (fun b => rRow (fun k => (val_main_v37 (F := Ideal) E L P (ix2 b k) : EReal)) (lab b)) := by
  funext i
  rw [val_main_v44_apply, Ideal.hostNegf_def, Ideal.negf_def, val_main_v43_apply, Ideal.hostDivf_def, val_main_v42_apply,
    val_main_cst_13_apply, val_main_cst_14_apply, Ideal.ofBits_def, Ideal.ofBits_def, Ideal.ofBits_zero_f32]
  have hs : ∑ j : S512.Idx, (val_main_v41 (F := Ideal) E L P j : EReal)
      = ∑ b : Fin 512, rRow (fun k => (val_main_v37 (F := Ideal) E L P (ix2 b k) : EReal)) (lab b) := by
    refine (Equiv.sum_comp idx1Equiv _).symm.trans (Finset.sum_congr rfl fun b _ => ?_)
    show val_main_v41 (F := Ideal) E L P (ix1 b) = _
    rw [val_main_v41_apply]
    have hi : idx_main_v41 (ix1 b) = ix2 b (0 : Fin 1) := by
      funext a; apply Fin.ext; fin_cases a
      · show b.val / 1 = b.val; omega
      · rfl
    rw [hi, taken_apply E L P lab hlab, logsoftmax_apply]
  rw [hs]
  rfl

/-- The reference's result is the mean of the rows' losses. -/
theorem result_eq (E : (⟨S512x256, .f32⟩ : BufTy).Contents (Elt Ideal)) (L : (⟨S512, .i32⟩ : BufTy).Contents (Elt Ideal))
    (P : (⟨S100000x256, .f32⟩ : BufTy).Contents (Elt Ideal))
    (xr : Fin 512 → Fin 100000 → ℝ) (hx : ∀ b k, logit E L P b k = ((xr b k : ℝ) : EReal))
    (lab : Fin 512 → Fin 100000) (hlab : ∀ b, L (ix1 b) = BitVec.ofNat 32 (lab b).val) :
    (val_main_v44 (F := Ideal) E L P : S_.Idx → EReal) = fun _ => ((lossR xr lab : ℝ) : EReal) := by
  rw [tail_eq E L P lab hlab]
  funext _
  have hr : (fun b => rRow (fun k => (val_main_v37 (F := Ideal) E L P (ix2 b k) : EReal)) (lab b))
      = fun b => ((-(rowLoss (xr b) (lab b)) : ℝ) : EReal) := by
    funext b
    have hrow : (fun k => (val_main_v37 (F := Ideal) E L P (ix2 b k) : EReal)) = fun k => ((xr b k : ℝ) : EReal) :=
      funext fun k => by rw [logits_apply, hx]
    rw [hrow, rRow_coe]
  rw [hr, rLoss_coe]
  rfl

end Cert.ReferenceIdeal.RefValue

end
-- ==== Proof.lean ====
/-
  The certificate's claims, assembled.

  Under the precondition (finite float inputs, labels that are column indices) every logit is a real
  number.  The kernel program streams each half of the columns through a running maximum, a running
  shifted sum and a running label entry, merges the two halves on the host and averages; the reference
  takes one log-softmax per row, reads it at the label and averages the negatives.  Both are the mean
  over rows of `log ∑ₖ exp xₖ − x_label` (`Cert.Margin.lossR`): the kernel's side is
  `Cert.KernelIdeal.Result.result_eq`, the reference's `Cert.ReferenceIdeal.RefValue.result_eq`, and the
  algebraic claim puts the two runs side by side at that common value.  The three frames are the
  generated frame runs of the two kernel programs and the reference's run with its result dropped; the
  idealization rewrote nothing, so `preserves` is trivial.
-/
import proofs.«418070_j52424370815316_1_alg».proof.Defs
import proofs.«418070_j52424370815316_1_alg».proof.Proof.Gen.Kernel
import proofs.«418070_j52424370815316_1_alg».proof.Proof.Gen.Kernel.Skeleton
import proofs.«418070_j52424370815316_1_alg».proof.Proof.Gen.Kernel.Launch
import proofs.«418070_j52424370815316_1_alg».proof.Proof.Gen.Kernel.Points
import proofs.«418070_j52424370815316_1_alg».proof.Proof.Gen.Kernel.Frame
import proofs.«418070_j52424370815316_1_alg».proof.Proof.Gen.KernelIdeal
import proofs.«418070_j52424370815316_1_alg».proof.Proof.Gen.KernelIdeal.Skeleton
import proofs.«418070_j52424370815316_1_alg».proof.Proof.Gen.KernelIdeal.Launch
import proofs.«418070_j52424370815316_1_alg».proof.Proof.Gen.KernelIdeal.Points
import proofs.«418070_j52424370815316_1_alg».proof.Proof.Gen.KernelIdeal.Frame
import proofs.«418070_j52424370815316_1_alg».proof.Proof.Gen.ReferenceIdeal
import proofs.«418070_j52424370815316_1_alg».proof.Proof.RefRun
import proofs.«418070_j52424370815316_1_alg».proof.Proof.RefRead
import proofs.«418070_j52424370815316_1_alg».proof.Proof.Gen.Pre_finite_inputs
import proofs.«418070_j52424370815316_1_alg».proof.Proof.Finite
import proofs.«418070_j52424370815316_1_alg».proof.Proof.PreDecode
import proofs.«418070_j52424370815316_1_alg».proof.Proof.KResult
import proofs.«418070_j52424370815316_1_alg».proof.Proof.RefTail
import Idealize.ShloMosaic.Adequacy
import Idealize.ShloMosaic.Init

noncomputable section

namespace Cert.Proof

open Idealize.ShloMosaic Idealize.ShloMosaic.TcCoe Idealize.ShloMosaic.ValueIdx Idealize.SL.Sem
open Cert.Margin Cert.KernelIdeal.Inputs

/-- On every core the precondition makes the logits real and the labels column indices. -/
theorem of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    ∃ (xr : Fin 512 → Fin 100000 → ℝ) (lab : Fin 512 → Fin 100000),
      (∀ b k, logit (embArr m c) (labArr m c) (protoArr m c) b k = ((xr b k : ℝ) : EReal))
      ∧ ∀ b, labArr m c (ix1 b) = BitVec.ofNat 32 (lab b).val := by
  obtain ⟨hE, hP, lab, hlab⟩ := Cert.PreDecode.decode _ _ _ (hpre c)
  obtain ⟨xr, hx⟩ := logit_real (embArr m c) (labArr m c) (protoArr m c) hE hP
  exact ⟨xr, lab, hx, hlab⟩

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2.2.2)
    (Cert.ReferenceIdeal.ValueP.run (F := Ideal) m ρ)

/-- The kernel program's run with every result named: the loss at the common value, the two constants, the
    arguments unchanged. -/
theorem kernel_run (m : (ℓ : Loc Cert.KernelIdeal.nD Cert.KernelIdeal.τ Cert.KernelIdeal.sig) → Buf (Elt Ideal) ℓ)
    (ρ : Dev Cert.KernelIdeal.nD → PrngReg)
    (xr : Dev Cert.KernelIdeal.nD → Fin 512 → Fin 100000 → ℝ) (lab : Dev Cert.KernelIdeal.nD → Fin 512 → Fin 100000)
    (hx : ∀ c b k, logit (embArr m c) (labArr m c) (protoArr m c) b k = ((xr c b k : ℝ) : EReal))
    (hlab : ∀ c b, labArr m c (ix1 b) = BitVec.ofNat 32 (lab c b).val) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v36) = (fun _ => ((lossR (xr c) (lab c) : ℝ) : EReal))
        ∧ r.2.mem ((c.tc : Thread Cert.KernelIdeal.nD Cert.KernelIdeal.τ).loc Cert.KernelIdeal.main_cst) = constant (F := Ideal) Cert.KernelIdeal.S1 .f32 0xBF800000#32
        ∧ r.2.mem ((c.tc : Thread Cert.KernelIdeal.nD Cert.KernelIdeal.τ).loc Cert.KernelIdeal.main_cst_0) = constant (F := Ideal) Cert.KernelIdeal.S1 .f32 0xBF800000#32
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun _ h c =>
    ⟨((h c).2 Cert.KernelIdeal.main_v36 (Pipeline.mem_restRefs_of Cert.KernelIdeal.main_v36 (by decide) (by decide))).trans
        (Cert.KernelIdeal.Result.result_eq m c (xr c) (hx c) (lab c) (hlab c)),
      ((h c).2 Cert.KernelIdeal.main_cst (Pipeline.mem_restRefs_of Cert.KernelIdeal.main_cst (by decide) (by decide))).trans
        (Cert.KernelIdeal.Result.result_cst m c).1,
      ((h c).2 Cert.KernelIdeal.main_cst_0 (Pipeline.mem_restRefs_of Cert.KernelIdeal.main_cst_0 (by decide) (by decide))).trans
        (Cert.KernelIdeal.Result.result_cst m c).2,
      ((h c).2 Cert.KernelIdeal.main_arg0 (Pipeline.mem_restRefs_of Cert.KernelIdeal.main_arg0 (by decide) (by decide))).trans
        (Cert.KernelIdeal.Gen.W_main_arg0 m (Cert.KernelIdeal.Gen.dats m) c),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c),
      ((h c).1 2).trans (((Cert.KernelIdeal.Gen.dats m 0 c).arrAt_in 2 rfl _).trans
        ((Cert.KernelIdeal.Gen.A_eq m c 2).trans (Cert.KernelIdeal.Gen.V_main_arg2 m c)))⟩)
    (Cert.KernelIdeal.Gen.run_main m ρ)

/-- The two idealized programs, from memories that agree on the arguments, end with equal results. -/
theorem algebraic : Cert.algebraic_KernelIdeal_ReferenceIdeal := by
  intro m ρ m' ρ' hpre hagree
  choose xr lab hx hlab using of_pre m hpre
  refine ⟨fun c _ => ((lossR (xr c) (lab c) : ℝ) : EReal),
    fun _ => constant (F := Ideal) Cert.KernelIdeal.S1 .f32 0xBF800000#32,
    fun _ => constant (F := Ideal) Cert.KernelIdeal.S1 .f32 0xBF800000#32,
    kernel_run m ρ xr lab hx hlab, ?_⟩
  refine (θ_run Cert.ReferenceIdeal.defs _ _).mono (fun _ h c =>
    ⟨(h c).1.trans ?_, (h c).2.1, (h c).2.2.1, (h c).2.2.2.1, (h c).2.2.2.2.1, (h c).2.2.2.2.2⟩)
    (Cert.ReferenceIdeal.ValueP.run (F := Ideal) m' ρ')
  rw [Cert.ReferenceIdeal.ReadP.val_main_v44_eq m' c, (hagree c).1, (hagree c).2.1, (hagree c).2.2]
  exact Cert.ReferenceIdeal.RefValue.result_eq _ _ _ (xr c) (hx c) (lab c) (hlab c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
